-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S32x8192 .f32 .bf16
  ∧ IdealRules.truncf_extf.Statement Cert.KernelIdeal.S32x8192 .f32 .bf16
  ∧ IdealRules.truncf_extf.Statement Cert.KernelIdeal.S32x8192 .f32 .bf16
  ∧ IdealRules.truncf_extf.Statement Cert.KernelIdeal.S32x8192 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v10_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v10_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128 : Shape := ⟨2, ![32, 128]⟩
abbrev S128x8192 : Shape := ⟨2, ![128, 8192]⟩
abbrev S8192x8192 : Shape := ⟨2, ![8192, 8192]⟩
abbrev S8192 : Shape := ⟨1, ![8192]⟩
abbrev S_ : Shape := ⟨0, ![]⟩

class Facts : Prop where
  bcast_S_S32x128 : S_.BroadcastsInDim S32x128 (![] : Fin 0 → Fin S32x128.rank)
  reducesTo_S32x128_S_d0_1 : S32x128.ReducesTo [0, 1] S_
  h_S_ : 0 < S_.numel
  bcast_S_S128x8192 : S_.BroadcastsInDim S128x8192 (![] : Fin 0 → Fin S128x8192.rank)
  reducesTo_S128x8192_S_d0_1 : S128x8192.ReducesTo [0, 1] S_
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : IVec S8192 32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_c_6 : IVec S_ 32 := constantI S_ 32 1#32
  let main_v19 : IVec S8192 32 := broadcastInDim S8192 ![] bcast_S_S8192 main_c_6
  let main_v20 : IVec S8192 1 := cmpi .sge main_arg4 main_v19
  let main_c_7 : IVec S_ 1 := constantI S_ 1 1#1
  let main_v21 : IVec S_ 1 := (fun x v => Host.reduce IntOp.andi x v reducesTo_S8192_S_d0 h_S_) main_v20 main_c_7
  let main_v22 : IVec S_ 1 := andi main_v18 main_v21
  main_v22

def fn {F : FTy → Type} [FloatOps F] (main_arg0 : FVec F S32x128 .f32) (main_arg1 : FVec F S128x8192 .f32) (main_arg2 : FVec F S128x8192 .f32) (main_arg3 : FVec F S8192x8192 .f32) (main_arg4 : IVec S8192 32) : IVec S_ 1 :=
  let main_v0 : FVec F S32x128 .f32 := Host.absf main_arg0
  let main_cst : FVec F S_ .f32 := constant S_ .f32 0x7F800000#32
  let main_v1 : FVec F S32x128 .f32 := broadcastInDim S32x128 ![] bcast_S_S32x128 main_cst
  let main_v2 : IVec S32x128 1 := cmpf .olt main_v0 main_v1
  let main_c : IVec S_ 1 := constantI S_ 1 1#1
  let main_v3 : IVec S_ 1 := (fun x v => Host.reduce IntOp.andi x v reducesTo_S32x128_S_d0_1 h_S_) main_v2 main_c
  let main_v4 : FVec F S128x8192 .f32 := Host.absf main_arg1
  let main_cst_0 : FVec F S_ .f32 := constant S_ .f32 0x7F800000#32
  let main_v5 : FVec F S128x8192 .f32 := broadcastInDim S128x8192 ![] bcast_S_S128x8192 main_cst_0
  let main_v6 : IVec S128x8192 1 := cmpf .olt main_v4 main_v5
  let main_c_1 : IVec S_ 1 := constantI S_ 1 1#1
  let main_v7 : IVec S_ 1 := (fun x v => Host.reduce IntOp.andi x v reducesTo_S128x8192_S_d0_1 h_S_) main_v6 main_c_1
  let main_v8 : IVec S_ 1 := andi main_v3 main_v7
  let main_v9 : FVec F S128x8192 .f32 := Host.absf main_arg2
  let main_cst_2 : FVec F S_ .f32 := constant S_ .f32 0x7F800000#32
  let main_v10 : FVec F S128x8192 .f32 := broadcastInDim S128x8192 ![] bcast_S_S128x8192 main_cst_2
  let main_v11 : IVec S128x8192 1 := cmpf .olt main_v9 main_v10
  let main_c_3 : IVec S_ 1 := constantI S_ 1 1#1
  let main_v12 : IVec S_ 1 := (fun x v => Host.reduce IntOp.andi x v reducesTo_S128x8192_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_v13 main_v16
-- ==== Kernel.lean ====
abbrev S32x128 : Shape := ⟨2, ![32, 128]⟩
abbrev S128x8192 : Shape := ⟨2, ![128, 8192]⟩
abbrev S8192x8192 : Shape := ⟨2, ![8192, 8192]⟩
abbrev S8192 : Shape := ⟨1, ![8192]⟩
abbrev S96x8192 : Shape := ⟨2, ![96, 8192]⟩
abbrev S32x8192 : Shape := ⟨2, ![32, 8192]⟩
abbrev S_ : Shape := ⟨0, ![]⟩
abbrev S8192x32 : Shape := ⟨2, ![8192, 32]⟩
abbrev S8192x1 : Shape := ⟨2, ![8192, 1]⟩
abbrev S8192x96 : Shape := ⟨2, ![8192, 96]⟩
abbrev S16x1x1 : Shape := ⟨3, ![16, 1, 1]⟩
abbrev S512x2048 : Shape := ⟨2, ![512, 2048]⟩
abbrev S512x96 : Shape := ⟨2, ![512, 96]⟩
abbrev S96x2048 : Shape := ⟨2, ![96, 2048]⟩
abbrev S1x1x1 : Shape := ⟨3, ![1, 1, 1]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 29
  | .vmem => 18
  | .smem => 0
  | _ => 0

abbrev bufTy : (tb : Table) → Fin (tcTables nBuf tb) → BufTy
  | .hbm, ⟨0, _⟩ => ⟨S32x128, .f32⟩
  | .hbm, ⟨1, _⟩ => ⟨S128x8192, .f32⟩
  | .hbm, ⟨2, _⟩ => ⟨S128x8192, .f32⟩
  | .hbm, ⟨3, _⟩ => ⟨S8192x8192, .f32⟩
  | .hbm, ⟨4, _⟩ => ⟨S8192, .i32⟩
  | .hbm, ⟨5, _⟩ => ⟨S96x8192, .bf16⟩
  | .hbm, ⟨6, _⟩ => ⟨S96x8192, .bf16⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192x32, .i32⟩
  | .hbm, ⟨19, _⟩ => ⟨S8192x1, .i32⟩
  | .hbm, ⟨20, _⟩ => ⟨S8192x32, .i32⟩
  | .hbm, ⟨21, _⟩ => ⟨S8192x32, .i1⟩
  | .hbm, ⟨22, _⟩ => ⟨S8192x32, .bf16⟩
  | .hbm, ⟨23, _⟩ => ⟨S8192x96, .bf16⟩
  | .hbm, ⟨24, _⟩ => ⟨S8192x8192, .f32⟩
  | .hbm, ⟨25, _⟩ => ⟨S16x1x1, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S32x128, .f32⟩
  | .local _ .vmem, ⟨1, _⟩ => ⟨S128x8192, .f32⟩
  | .local _ .vmem, ⟨2, _⟩ => ⟨S128x8192, .f32⟩
  | .local _ .vmem, ⟨3, _⟩ => ⟨S96x8192, .bf16⟩
  | .local _ .vmem, ⟨4, _⟩ => ⟨S96x8192, .bf16⟩
  | .local _ .vmem, ⟨5, _⟩ => ⟨S512x2048, .f32⟩
  | .local _ .vmem, ⟨6, _⟩ => ⟨S512x2048, .f32⟩
  | .local _ .vmem, ⟨7, _⟩ => ⟨S512x96, .bf16⟩
  | .local _ .vmem, ⟨8, _⟩ => ⟨S512x96, .bf16⟩
  | .local _ .vmem, ⟨9, _⟩ => ⟨S96x2048, .bf16⟩
  | .local _ .vmem, ⟨10, _⟩ => ⟨S96x2048, .bf16⟩
  | .local _ .vmem, ⟨11, _⟩ => ⟨S96x2048, .bf16⟩
  | .local _ .vmem, ⟨12, _⟩ => ⟨S96x2048, .bf16⟩
  | .local _ .vmem, ⟨13, _⟩ => ⟨S512x2048, .f32⟩
  | .local _ .vmem, ⟨14, _⟩ => ⟨S512x2048, .f32⟩
  | .local _ .vmem, ⟨15, _⟩ => ⟨S1x1x1, .f32⟩
  | .local _ .vmem, ⟨16, _⟩ => ⟨S1x1x1, .f32⟩
  | .local _ .vmem, ⟨17, _⟩ => ⟨S1x1x1, .f32⟩
  | _, _ => ⟨S32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_scratch0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![16, 4], ![false, false]⟩

def k1_cond2 (i : grid1.Coords) : BitVec 1 :=
  let arg1 : BitVec 32 := BitVec.ofNat 32 (i 1).val
  let c3_i32 : BitVec 32 := 3#32
  let v32 : BitVec 1 := Scalar.cmpi .eq arg1 c3_i32
  let v33 : BitVec 32 := Scalar.extui v32
  let c0_i32_21 : BitVec 32 := 0#32
  let v34 : BitVec 1 := Scalar.cmpi .ne v33 c0_i32_21
  v34

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x96 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S96x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S96x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S32x128_S32x128_0_0 : ∀ a, (![0, 0] : Fin 2 → Nat) a + S32x128.size a ≤ S32x128.size a
  h_S32x128 : 0 < S32x128.numel
  inb_S128x8192_S128x8192_0_0 : ∀ a, (![0, 0] : Fin 2 → Nat) a + S128x8192.size a ≤ S128x8192.size a
  h_S128x8192 : 0 < S128x8192.numel
  bitsLt_bf16_f32 : FTy.bits .bf16 < FTy.bits .f32
  concatenates_S32x8192_S32x8192_S32x8192_S96x8192_d0 : Shape.Concatenates [S32x8192, S32x8192, S32x8192] S96x8192 0
  inb_S96x8192_S96x8192_0_0 : ∀ a, (![0, 0] : Fin 2 → Nat) a + S96x8192.size a ≤ S96x8192.size a
  h_S96x8192 : 0 < S96x8192.numel
  packedbf16_S96x8192_S96x8192_0_0 : (Rect.unit (s := S96x8192) ![0, 0] S96x8192.size inb_S96x8192_S96x8192_0_0).PackedRows (EltTy.packing .bf16)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x32_0_1 : S8192x1.BroadcastsInDim S8192x32 (![0, 1] : Fin 2 → Fin S8192x32.rank)
  concatenates_S8192x32_S8192x32_S8192x32_S8192x96_d1 : Shape.Concatenates [S8192x32, S8192x32, S8192x32] S8192x96 1
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S512x96_S512x96_0_0 : ∀ a, (![0, 0] : Fin 2 → Nat) a + S512x96.size a ≤ S512x96.size a
  h_S512x96 : 0 < S512x96.numel
  shapeCasts_S512x96_S512x96 : S512x96.ShapeCasts S512x96
  inb_S96x2048_S96x2048_0_0 : ∀ a, (![0, 0] : Fin 2 → Nat) a + S96x2048.size a ≤ S96x2048.size a
  h_S96x2048 : 0 < S96x2048.numel
  shapeCasts_S96x2048_S96x2048 : S96x2048.ShapeCasts S96x2048
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  reduces_S512x1_S1 : S512x1.Reduces [0] S1
  shapeCasts_S1_S1x1 : S1.ShapeCasts S1x1
  shapeCasts_S1x1_S1x1x1 : S1x1.ShapeCasts S1x1x1
  reducesTo_S16x1x1_S_d0_1_2 : S16x1x1.ReducesTo [0, 1, 2] S_
  h_S_ : 0 < S_.numel
  shapeCasts_S_S_ : S_.ShapeCasts S_
  dot_S32x128_S128x8192_S32x8192_1_0_0_1_n_n_wf : DotDims.WF S32x128 S128x8192 S32x8192 [1] [0] [0] [1] [] []
  dot_S512x96_S96x2048_S512x2048_1_0_0_1_n_n_wf : DotDims.WF S512x96 S96x2048 S512x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S32x128.size a
  hwx0_0 : ∀ i : grid0.Coords, EltTy.bits .f32 = 32 ∨ (Rect.block (s := S32x128) S32x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S128x8192.size a
  hwx0_1 : ∀ i : grid0.Coords, EltTy.bits .f32 = 32 ∨ (Rect.block (s := S128x8192) S128x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S128x8192.size a
  hwx0_2 : ∀ i : grid0.Coords, EltTy.bits .f32 = 32 ∨ (Rect.block (s := S128x8192) S128x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x8192.size a ≤ S96x8192.size a
  hwx0_3 : ∀ i : grid0.Coords, EltTy.bits .bf16 = 32 ∨ (Rect.block (s := S96x8192) S96x8192.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x8192.size a ≤ S96x8192.size a
  hwx0_4 : ∀ i : grid0.Coords, EltTy.bits .bf16 = 32 ∨ (Rect.block (s := S96x8192) S96x8192.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x8192.size a
  hwx1_0 : ∀ i : grid1.Coords, EltTy.bits .f32 = 32 ∨ (Rect.block (s := S8192x8192) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x96.size a ≤ S8192x96.size a
  hwx1_1 : ∀ i : grid1.Coords, EltTy.bits .bf16 = 32 ∨ (Rect.block (s := S8192x96) S512x96.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S96x2048.size a ≤ S96x8192.size a
  hwx1_2 : ∀ i : grid1.Coords, EltTy.bits .bf16 = 32 ∨ (Rect.block (s := S96x8192) S96x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S96x2048.size a ≤ S96x8192.size a
  hwx1_3 : ∀ i : grid1.Coords, EltTy.bits .bf16 = 32 ∨ (Rect.block (s := S96x8192) S96x2048.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x2048.size a ≤ S8192x8192.size a
  hwx1_4 : ∀ i : grid1.Coords, EltTy.bits .f32 = 32 ∨ (Rect.block (s := S8192x8192) S512x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x1.size a ≤ S16x1x1.size a
  hwx1_5 : ∀ i : grid1.Coords, EltTy.bits .f32 = 32 ∨ (Rect.block (s := S16x1x1) S1x1x1.size (cc1_transform_5 i) (hinb1_5 i)).WholeWords (EltTy.packing .f32)

variable [Facts₀]

def dot_S32x128_S128x8192_S32x8192_1_0_0_1_n_n : DotDims S32x128 S128x8192 S32x8192 where
  lhsContracting := [1]
  rhsContracting := [0]
  lhsNonContracting := [0]
  rhsNonContracting := [1]
  lhsBatch := []
  rhsBatch := []
  wf := dot_S32x128_S128x8192_S32x8192_1_0_0_1_n_n_wf
def dot_S512x96_S96x2048_S512x2048_1_0_0_1_n_n : DotDims S512x96 S96x2048 S512x2048 where
  lhsContracting := [1]
  rhsContracting := [0]
  lhsNonContracting := [0]
  rhsNonContracting := [1]
  lhsBatch := []
  rhsBatch := []
  wf := dot_S512x96_S96x2048_S512x2048_1_0_0_1_n_n_wf

abbrev win0_0 : Pipeline.Window sig grid0 :=
  Pipeline.Window.ofSpec (Memref.whole main_arg0) S32x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S96x8192.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S96x8192.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg3) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S512x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S96x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S96x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10_0) S512x2048.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v10_1) S1x1x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S32x128 : Shape := ⟨2, ![32, 128]⟩
abbrev S128x8192 : Shape := ⟨2, ![128, 8192]⟩
abbrev S8192x8192 : Shape := ⟨2, ![8192, 8192]⟩
abbrev S8192 : Shape := ⟨1, ![8192]⟩
abbrev S32x8192 : Shape := ⟨2, ![32, 8192]⟩
abbrev S32x128x1 : Shape := ⟨3, ![32, 128, 1]⟩
abbrev S1x128x8192 : Shape := ⟨3, ![1, 128, 8192]⟩
abbrev S32x128x8192 : Shape := ⟨3, ![32, 128, 8192]⟩
abbrev S_ : Shape := ⟨0, ![]⟩
abbrev S8192x1 : Shape := ⟨2, ![8192, 1]⟩

abbrev nBuf : Space → Nat
  | .hbm => 55
  | .vmem => 0
  | .smem => 0
  | _ => 0

abbrev bufTy : (tb : Table) → Fin (tcTables nBuf tb) → BufTy
  | .hbm, ⟨0, _⟩ => ⟨S32x128, .f32⟩
  | .hbm, ⟨1, _⟩ => ⟨S128x8192, .f32⟩
  | .hbm, ⟨2, _⟩ => ⟨S128x8192, .f32⟩
  | .hbm, ⟨3, _⟩ => ⟨S8192x8192, .f32⟩
  | .hbm, ⟨4, _⟩ => ⟨S8192, .i32⟩
  | .hbm, ⟨5, _⟩ => ⟨S32x8192, .f32⟩
  | .hbm, ⟨6, _⟩ => ⟨S32x128, .f32⟩
  | .hbm, ⟨7, _⟩ => ⟨S32x8192, .f32⟩
  | .hbm, ⟨8, _⟩ => ⟨S32x128x1, .f32⟩
  | .hbm, ⟨9, _⟩ => ⟨S1x128x8192, .f32⟩
  | .hbm, ⟨10, _⟩ => ⟨S32x128x8192, .f32⟩
  | .hbm, ⟨11, _⟩ => ⟨S32x128x8192, .f32⟩
  | .hbm, ⟨12, _⟩ => ⟨S32x128x8192, .f32⟩
  | .hbm, ⟨13, _⟩ => ⟨S_, .f32⟩
  | .hbm, ⟨14, _⟩ => ⟨S32x8192, .f32⟩
  | .hbm, ⟨15, _⟩ => ⟨S32x8192, .f32⟩
  | .hbm, ⟨16, _⟩ => ⟨S32x128x8192, .f32⟩
  | .hbm, ⟨17, _⟩ => ⟨S_, .f32⟩
  | .hbm, ⟨18, _⟩ => ⟨S32x8192, .f32⟩
  | .hbm, ⟨19, _⟩ => ⟨S32x8192, .f32⟩
  | .hbm, ⟨20, _⟩ => ⟨S32x8192, .f32⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S_, .i32⟩
  | .hbm, ⟨25, _⟩ => ⟨S8192, .i32⟩
  | .hbm, ⟨26, _⟩ => ⟨S8192, .i1⟩
  | .hbm, ⟨27, _⟩ => ⟨S_, .i32⟩
  | .hbm, ⟨28, _⟩ => ⟨S8192, .i32⟩
  | .hbm, ⟨29, _⟩ => ⟨S8192, .i32⟩
  | .hbm, ⟨30, _⟩ => ⟨S8192, .i32⟩
  | .hbm, ⟨31, _⟩ => ⟨S8192x1, .i32⟩
  | .hbm, ⟨32, _⟩ => ⟨S8192x8192, .f32⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S8192, .i32⟩
  | .hbm, ⟨40, _⟩ => ⟨S8192x1, .i32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S_, .f32⟩
  | _, _ => ⟨S32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  bcast_S32x128_S32x128x1_0_1 : S32x128.BroadcastsInDim S32x128x1 (![0, 1] : Fin 2 → Fin S32x128x1.rank)
  bcast_S128x8192_S1x128x8192_1_2 : S128x8192.BroadcastsInDim S1x128x8192 (![1, 2] : Fin 2 → Fin S1x128x8192.rank)
  bcast_S32x128x1_S32x128x8192_0_1_2 : S32x128x1.BroadcastsInDim S32x128x8192 (![0, 1, 2] : Fin 3 → Fin S32x128x8192.rank)
  bcast_S1x128x8192_S32x128x8192_0_1_2 : S1x128x8192.BroadcastsInDim S32x128x8192 (![0, 1, 2] : Fin 3 → Fin S32x128x8192.rank)
  reducesTo_S32x128x8192_S32x8192_d1 : S32x128x8192.ReducesTo [1] S32x8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x8192 : S_.BroadcastsInDim S8192x8192 (![] : Fin 0 → Fin S8192x8192.rank)
  reducesTo_S8192x8192_S_d0_1 : S8192x8192.ReducesTo [0, 1] S_
  dot_S32x128_S128x8192_S32x8192_1_0_0_1_n_n_wf : DotDims.WF S32x128 S128x8192 S32x8192 [1] [0] [0] [1] [] []
  gather_S32x8192_S8192x1_S8192x8192_1_0_n_n_0_1_18192_wf : GatherDims.WF S32x8192 S8192x1 S8192x8192 [1] [0] [] [0] [] 1 ![1, 8192]

variable [Facts₀]

def dot_S32x128_S128x8192_S32x8192_1_0_0_1_n_n : DotDims S32x128 S128x8192 S32x8192 where
  lhsContracting := [1]
  rhsContracting := [0]
  lhsNonContracting := [0]
  rhsNonContracting := [1]
  lhsBatch := []
  rhsBatch := []
  wf := dot_S32x128_S128x8192_S32x8192_1_0_0_1_n_n_wf
def gather_S32x8192_S8192x1_S8192x8192_1_0_n_n_0_1_18192 : GatherDims S32x8192 S8192x1 S8192x8192 where
  offsetDims := [1]
  collapsedSliceDims := [0]
  operandBatchingDims := []
  startIndicesBatchingDims := []
  startIndexMap := [0]
  indexVectorDim := 1
  sliceSizes := ![1, 8192]
  wf := gather_S32x8192_S8192x1_S8192x8192_1_0_n_n_0_1_18192_wf

class Facts : Prop extends Facts₀ where

variable [Facts]
-- ==== Proof.KB.R0.lean ====
/- Region 0 (the table kernel, one grid point): what its body leaves in its two output buffers, the body's
   triple, the proof data of its pipeline at the contents `V` the region is entered with, and the body obligation. -/
import proofs.«405995_j80152679678262_3_alg».proof.Proof.Gen.Kernel.Launch
import proofs.«405995_j80152679678262_3_alg».proof.Proof.Gen.Kernel.Skeleton
import proofs.«405995_j80152679678262_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: an input's buffer only changes by a fetch,
    and a fetch brings the block of the array, which nothing writes. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1 (the mean table's factor). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for input window 2 (the scale table's factor). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_a : Rect S32x128 := Rect.unit (s := S32x128) ![0, 0] S32x128.size inb_S32x128_S32x128_0_0
abbrev r0_z : Rect S128x8192 := Rect.unit (s := S128x8192) ![0, 0] S128x8192.size inb_S128x8192_S128x8192_0_0
abbrev r0_o : Rect S96x8192 := Rect.unit (s := S96x8192) ![0, 0] S96x8192.size inb_S96x8192_S96x8192_0_0

/-- The mean table's buffer after the body: its one store, of the stacked three-term split of cell_prob · Z_mu. -/
def out0_3 (x0 : Vec F S32x128 .f32) (x1 : Vec F S128x8192 .f32) : Vec F S96x8192 .bf16 :=
  View.canon [⟨r0_o, k0_pay1 (View.ld x0 r0_a) (View.ld x1 r0_z)⟩]
/-- The scale table's buffer after the body. -/
def out0_4 (x0 : Vec F S32x128 .f32) (x2 : Vec F S128x8192 .f32) : Vec F S96x8192 .bf16 :=
  View.canon [⟨r0_o, k0_pay2 (View.ld x0 r0_a) (View.ld x2 r0_z)⟩]

/-- The mean table's one store is of the whole block, so it covers the buffer. -/
theorem cover0_3 (p0 : Vec F S96x8192 .bf16) (y : S96x8192.Idx) :
    ∃ pc ∈ ([⟨r0_o, p0⟩] : List (View.Piece (Elt F) S96x8192 .bf16)), y ∈ pc.1.set :=
  View.cover_of_tiled [⟨r0_o, p0⟩] S96x8192.size (by rfl) y

/-- The scale table's one store is of the whole block, so it covers the buffer. -/
theorem cover0_4 (p0 : Vec F S96x8192 .bf16) (y : S96x8192.Idx) :
    ∃ pc ∈ ([⟨r0_o, p0⟩] : List (View.Piece (Elt F) S96x8192 .bf16)), y ∈ pc.1.set :=
  View.cover_of_tiled [⟨r0_o, p0⟩] S96x8192.size (by rfl) y

set_option maxHeartbeats 1000000 in
/-- The kernel body on whole staging memrefs, the three inputs' at read contents and the two outputs' at anything
    (the body reads each output's buffer before it stores the whole block into it; the values read are not used),
    runs to the continuation holding the inputs' as they were and each output's at its one store over the inputs. -/
theorem sound_kernel0 (c : Dev nD) (E : Set ℕ) (i : grid0.Coords)
    (arg0 : Memref sig .tc .vmem S32x128 .f32) (harg0 : arg0.IsWhole)
    (arg1 : Memref sig .tc .vmem S128x8192 .f32) (harg1 : arg1.IsWhole)
    (arg2 : Memref sig .tc .vmem S128x8192 .f32) (harg2 : arg2.IsWhole)
    (arg3 : Memref sig .tc .vmem S96x8192 .bf16) (harg3 : arg3.IsWhole)
    (arg4 : Memref sig .tc .vmem S96x8192 .bf16) (harg4 : arg4.IsWhole)
    (x0 : Vec F S32x128 .f32) (x1 : Vec F S128x8192 .f32) (x2 : Vec F S128x8192 .f32) (K : PUnit → sProp 𝕄) :
    iprop(owns (c : Thread nD τ) arg0 fullShare x0 ∗ owns (c : Thread nD τ) arg1 fullShare x1
        ∗ owns (c : Thread nD τ) arg2 fullShare x2
        ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1
            ∗ owns (c : Thread nD τ) arg2 fullShare x2
            ∗ owns (c : Thread nD τ) arg3 fullShare (out0_3 x0 x1)
            ∗ owns (c : Thread nD τ) arg4 fullShare (out0_4 x0 x2)) -∗ K ⟨⟩))
      ⊢ wp frame (wpE (defs₀ (F := F)) Variants.none c none) E
          (cc0__table_kernel i arg0 harg0 arg1 harg1 arg2 harg2 arg3 harg3 arg4 harg4) K := by
  simp only [cc0__table_kernel_eq_skeleton]; unfold cc0__table_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`: the invariant, the core's debts, and each window's current staging
    buffer at what it held before the body, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' staging buffers hold their blocks, so the kernel's triple applies; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.R1Runs.lean ====
/- Region 1 (the log-probability kernel, grid 16 × 4): what its three control cases share — the windows' blocks at the
   region's entry contents, the branch conditions decided over the grid, where the sum window is idle, the staging and
   scratch memrefs, and the class invariant with the scratch as an owned memref. -/
import proofs.«405995_j80152679678262_3_alg».proof.Proof.Gen.Kernel.Launch
import proofs.«405995_j80152679678262_3_alg».proof.Proof.Gen.Kernel.Skeleton
import proofs.«405995_j80152679678262_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the region-entry contents and whose body leaves the block in place: the window is uncut and never
    idle, and where it is not fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the region-entry contents and whose body leaves the block in place: the window is uncut and never
    idle, and where it is not fetched its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the region-entry contents and whose body leaves the block in place: the window is uncut and never
    idle, and where it is not fetched its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is the region-entry contents and whose body leaves the block in place: the window is uncut and never
    idle, and where it is not fetched its block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's branch conditions -/

/-- The condition under which the body resets the accumulator: the second grid coordinate is 0 (the body's scalar chain
    at the grid coordinates). -/
abbrev cond1_0 (i : grid1.Coords) : Prop := (Scalar.cmpi .ne (Scalar.extui (Scalar.cmpi .eq (BitVec.ofNat 32 (i 1).val) 0#32)) 0#32) = 1#1
/-- It holds at the points ≡ 0 (mod 4) — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition under which the body stores the accumulated sum: the second grid coordinate is 3. -/
abbrev cond1_1 (i : grid1.Coords) : Prop := k1_cond2 i = 1#1
/-- It holds at the points ≡ 3 (mod 4) — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- Window 0 is never idle. -/
theorem liveAt1_0 : ∀ t : Fin cfg1.N, cfg1.idle 0 (grid1.coords t) = false := by decide +kernel
/-- Window 1 is never idle. -/
theorem liveAt1_1 : ∀ t : Fin cfg1.N, cfg1.idle 1 (grid1.coords t) = false := by decide +kernel
/-- Window 2 is never idle. -/
theorem liveAt1_2 : ∀ t : Fin cfg1.N, cfg1.idle 2 (grid1.coords t) = false := by decide +kernel
/-- Window 3 is never idle. -/
theorem liveAt1_3 : ∀ t : Fin cfg1.N, cfg1.idle 3 (grid1.coords t) = false := by decide +kernel
/-- Window 4 is never idle. -/
theorem liveAt1_4 : ∀ t : Fin cfg1.N, cfg1.idle 4 (grid1.coords t) = false := by decide +kernel
/-- Where the accumulator is reset and the sum is not stored, the sum window is idle. -/
theorem idleAt1_5_A : ∀ t : Fin cfg1.N, cond1_0 (grid1.coords t) → ¬cond1_1 (grid1.coords t) → cfg1.idle 5 (grid1.coords t) = true := by decide +kernel
/-- There the pipeline does not write the sum window's block back. -/
theorem noFlush1_5_A : ∀ t : Fin cfg1.N, cond1_0 (grid1.coords t) → ¬cond1_1 (grid1.coords t) → (cfg1.win 5).flush t = false := by decide +kernel
/-- Where the accumulator is neither reset nor the sum stored, the sum window is idle. -/
theorem idleAt1_5_B : ∀ t : Fin cfg1.N, ¬cond1_0 (grid1.coords t) → ¬cond1_1 (grid1.coords t) → cfg1.idle 5 (grid1.coords t) = true := by decide +kernel
/-- There the pipeline does not write the sum window's block back. -/
theorem noFlush1_5_B : ∀ t : Fin cfg1.N, ¬cond1_0 (grid1.coords t) → ¬cond1_1 (grid1.coords t) → (cfg1.win 5).flush t = false := by decide +kernel
/-- Where the sum is stored the sum window is live. -/
theorem liveAt1_5_C : ∀ t : Fin cfg1.N, ¬cond1_0 (grid1.coords t) → cond1_1 (grid1.coords t) → cfg1.idle 5 (grid1.coords t) = false := by decide +kernel

/-! ## The staging and scratch memrefs -/

/-- One staging buffer of each output window, through which its contents are stated (any choice reads the same). -/
abbrev VO1_4 : View sig .tc .vmem S512x2048 .f32 := (Memref.whole cc1_stg4_0 : Memref sig .tc .vmem S512x2048 .f32).view
abbrev VO1_5 : View sig .tc .vmem S1x1x1 .f32 := (Memref.whole cc1_stg5_0 : Memref sig .tc .vmem S1x1x1 .f32).view
/-- Each window's current staging memref at point `t`, as the pipeline passes it, and its wholeness. -/
abbrev ms1_0 (t : Fin cfg1.N) : Memref sig .tc .vmem S512x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x96 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S96x2048 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S96x2048 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x2048 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x1 .f32 := win1_5.stage (cfg1.slots t 5)
abbrev hs1_5 (t : Fin cfg1.N) : (ms1_5 t).IsWhole := hstage1_5 ((cfg1.slots t 5).cast nbuf1_5)
/-- The accumulator: a whole scoped buffer of the kernel's own, passed beside the windows. -/
abbrev scM1_0 : Memref sig .tc .vmem S1x1x1 .f32 := Memref.whole cc1_scratch0
/-- The accumulator as a view: what it holds is stated through it. -/
abbrev VS1_0 : View sig .tc .vmem S1x1x1 .f32 := scM1_0.view

/-- The scoped buffers of the core that are neither a staging buffer of this region nor its accumulator (the staging
    buffers of the region before), each whole at some contents: the region neither reads nor writes them. -/
def foreign1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f))

/-- Six conjuncts and a seventh, the first five grouped: separating conjunction reassociated. -/
theorem sep_assoc6 (B0 B1 B2 B3 B4 S G : sProp 𝕄) :
    (iprop((B0 ∗ B1 ∗ B2 ∗ B3 ∗ B4 ∗ S) ∗ G) : sProp 𝕄) = iprop(((B0 ∗ B1 ∗ B2 ∗ B3 ∗ B4) ∗ S) ∗ G) := by
  have h₁ : iprop((B0 ∗ B1 ∗ B2 ∗ B3 ∗ B4 ∗ S) ∗ G) ⊢ (iprop(((B0 ∗ B1 ∗ B2 ∗ B3 ∗ B4) ∗ S) ∗ G) : sProp 𝕄) := by
    iintro ⟨⟨H0, H1, H2, H3, H4, HS⟩, Hg⟩
    isplitr [Hg]
    · isplitr [HS]
      · isplitl [H0]; · iexact H0
        isplitl [H1]; · iexact H1
        isplitl [H2]; · iexact H2
        isplitl [H3]; · iexact H3
        iexact H4
      · iexact HS
    · iexact Hg
  have h₂ : iprop(((B0 ∗ B1 ∗ B2 ∗ B3 ∗ B4) ∗ S) ∗ G) ⊢ (iprop((B0 ∗ B1 ∗ B2 ∗ B3 ∗ B4 ∗ S) ∗ G) : sProp 𝕄) := by
    iintro ⟨⟨⟨H0, H1, H2, H3, H4⟩, HS⟩, Hg⟩
    isplitr [Hg]
    · isplitl [H0]; · iexact H0
      isplitl [H1]; · iexact H1
      isplitl [H2]; · iexact H2
      isplitl [H3]; · iexact H3
      isplitl [H4]; · iexact H4
      iexact HS
    · iexact Hg
  exact BI.equiv_iff.mp ⟨h₁, h₂⟩

/-- The class invariant with the accumulator as a memref owned at some contents: the foreign scoped buffers, the
    accumulator, the generator register — what the body obligation hands the run and takes back. -/
theorem PhiA1_eq (c : Dev nD) :
    (Pipeline.ΦA spec1 c : sProp 𝕄)
      = iprop(iprop(foreign1 (F := F) c ∗ (∃ d, owns (c : Thread nD τ) scM1_0 fullShare d)) ∗ (∃ r, prngReg c r)) := by
  unfold Pipeline.ΦA; rw [scopedRest1_eq]; unfold foreign1; simp only [scM1_0, owns_whole]
  exact sep_assoc6 _ _ _ _ _ _ _

end Cert.Kernel.Hand

end
-- ==== Proof.KB.R1RunA.lean ====
/- Region 1 (the log-probability kernel): the run of the whole body where the accumulator is reset and the sum is not stored (second grid coordinate 0) —
   the pieces each written buffer ends with, and the body's triple over them. -/
import proofs.«405995_j80152679678262_3_alg».proof.Proof.KB.R1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- What the body's stores leave in the log-probability buffer (`L4`), the sum buffer (`L5`: nothing) and the accumulator
    (`LS0`), as pieces, last first, where the accumulator is reset and the sum is not stored — with the triple: on whole
    memrefs, the four inputs at their contents, the log-probability buffer and the accumulator at anything, the sum
    buffer at contents `xi5` handed back untouched, the body runs to a continuation that holds the inputs as they were and
    each written buffer with its pieces written. -/
noncomputable def kernelRun1_A (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : cond1_0 i) (hc1 : ¬cond1_1 i)
    (x0 : Vec F S512x2048 .f32) (x1 : Vec F S512x96 .bf16) (x2 : Vec F S96x2048 .bf16) (x3 : Vec F S96x2048 .bf16) :
    Σ' (L4 : List (View.Piece (Elt F) S512x2048 .f32)) (L5 : List (View.Piece (Elt F) S1x1x1 .f32)), { LS0 : List (View.Piece (Elt F) S1x1x1 .f32) //
      ∀ (xi5 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__logp_kernel i arg2 harg2 arg3 harg3 arg4 harg4 arg5 harg5 arg6 harg6 arg7 harg7 arg8 harg8) K } := by
  refine ⟨?_, [], ?_, fun xi5 E K => ?run⟩
  case run =>
    simp only [cc1__logp_kernel_eq_skeleton]; unfold cc1__logp_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

end Cert.Kernel.Hand

end
-- ==== Proof.KB.R1RunB.lean ====
/- Region 1 (the log-probability kernel): the run of the whole body where the accumulator is neither reset nor the sum stored (second grid coordinate 1 or 2) —
   the pieces each written buffer ends with, and the body's triple over them. -/
import proofs.«405995_j80152679678262_3_alg».proof.Proof.KB.R1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The same where the accumulator is neither reset nor the sum stored: the accumulator comes in at the contents `xs0`
    the point before left, the sum buffer at `xi5` is handed back untouched. -/
noncomputable def kernelRun1_B (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : ¬cond1_0 i) (hc1 : ¬cond1_1 i)
    (x0 : Vec F S512x2048 .f32) (x1 : Vec F S512x96 .bf16) (x2 : Vec F S96x2048 .bf16) (x3 : Vec F S96x2048 .bf16) (xs0 : Vec F S1x1x1 .f32) :
    Σ' (L4 : List (View.Piece (Elt F) S512x2048 .f32)) (L5 : List (View.Piece (Elt F) S1x1x1 .f32)), { LS0 : List (View.Piece (Elt F) S1x1x1 .f32) //
      ∀ (xi5 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__logp_kernel i arg2 harg2 arg3 harg3 arg4 harg4 arg5 harg5 arg6 harg6 arg7 harg7 arg8 harg8) K } := by
  refine ⟨?_, [], ?_, fun xi5 E K => ?run⟩
  case run =>
    simp only [cc1__logp_kernel_eq_skeleton]; unfold cc1__logp_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

end Cert.Kernel.Hand

end
-- ==== Proof.KB.R1RunC.lean ====
/- Region 1 (the log-probability kernel): the run of the whole body where the sum is stored (second grid coordinate 3) —
   the pieces each written buffer ends with, and the body's triple over them. -/
import proofs.«405995_j80152679678262_3_alg».proof.Proof.KB.R1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The same where the sum is stored: the accumulator comes in at `xs0`, the sum buffer at anything and leaves with its
    pieces `L5` written. -/
noncomputable def kernelRun1_C (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : ¬cond1_0 i) (hc1 : cond1_1 i)
    (x0 : Vec F S512x2048 .f32) (x1 : Vec F S512x96 .bf16) (x2 : Vec F S96x2048 .bf16) (x3 : Vec F S96x2048 .bf16) (xs0 : Vec F S1x1x1 .f32) :
    Σ' (L4 : List (View.Piece (Elt F) S512x2048 .f32)) (L5 : List (View.Piece (Elt F) S1x1x1 .f32)), { LS0 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__logp_kernel i arg2 harg2 arg3 harg3 arg4 harg4 arg5 harg5 arg6 harg6 arg7 harg7 arg8 harg8) K } := by
  refine ⟨?_, ?_, ?_, fun E K => ?run⟩
  case run =>
    simp only [cc1__logp_kernel_eq_skeleton]; unfold cc1__logp_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.Kernel.Hand

end
-- ==== Proof.KB.R1.lean ====
/- Region 1 (the log-probability kernel): what its outputs and its carried accumulator hold point by point, the proof
   data of its pipeline, the body obligation, and how the class invariant enters and leaves the region. -/
import proofs.«405995_j80152679678262_3_alg».proof.Proof.KB.R1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each control case leaves in the two output buffers and in the accumulator -/

/-- The pieces the body stores into the log-probability buffer where the accumulator is reset and the sum is not stored tile its block (one store of the whole
    block), so they cover it. -/
theorem cover1_A_4 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : cond1_0 i) (hc1 : ¬cond1_1 i)
    (x0 : Vec F S512x2048 .f32) (x1 : Vec F S512x96 .bf16) (x2 : Vec F S96x2048 .bf16) (x3 : Vec F S96x2048 .bf16) (y : S512x2048.Idx) :
    ∃ pc ∈ (kernelRun1_A c i arg2 harg2 arg3 harg3 arg4 harg4 arg5 harg5 arg6 harg6 arg7 harg7 arg8 harg8 hc0 hc1 x0 x1 x2 x3).1, y ∈ pc.1.set :=
  View.cover_of_tiledL (kernelRun1_A c i arg2 harg2 arg3 harg3 arg4 harg4 arg5 harg5 arg6 harg6 arg7 harg7 arg8 harg8 hc0 hc1 x0 x1 x2 x3).1 S512x2048.size (by sl_kernel_rfl) y

/-- What the body leaves in the log-probability buffer where the accumulator is reset and the sum is not stored: its pieces read back. -/
def out1_A_4 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : cond1_0 i) (hc1 : ¬cond1_1 i)
    (x0 : Vec F S512x2048 .f32) (x1 : Vec F S512x96 .bf16) (x2 : Vec F S96x2048 .bf16) (x3 : Vec F S96x2048 .bf16) : Vec F S512x2048 .f32 :=
  VO1_4.read (Elt F) (VO1_4.writes (Elt F) VO1_4.junk (kernelRun1_A c i arg2 harg2 arg3 harg3 arg4 harg4 arg5 harg5 arg6 harg6 arg7 harg7 arg8 harg8 hc0 hc1 x0 x1 x2 x3).1)

/-- The body stores nothing into the sum buffer where the accumulator is reset and the sum is not stored: no pieces. A placeholder that nothing consults — at these
    points the window is idle, neither written back nor read at the next point. -/
def out1_A_5 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : cond1_0 i) (hc1 : ¬cond1_1 i)
    (x0 : Vec F S512x2048 .f32) (x1 : Vec F S512x96 .bf16) (x2 : Vec F S96x2048 .bf16) (x3 : Vec F S96x2048 .bf16) : Vec F S1x1x1 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3).2.1)

/-- The pieces the body stores into the accumulator where the accumulator is reset and the sum is not stored tile it, so they cover it. -/
theorem scover1_A_0 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : cond1_0 i) (hc1 : ¬cond1_1 i)
    (x0 : Vec F S512x2048 .f32) (x1 : Vec F S512x96 .bf16) (x2 : Vec F S96x2048 .bf16) (x3 : Vec F S96x2048 .bf16) (y : S1x1x1.Idx) :
    ∃ pc ∈ (kernelRun1_A c i arg2 harg2 arg3 harg3 arg4 harg4 arg5 harg5 arg6 harg6 arg7 harg7 arg8 harg8 hc0 hc1 x0 x1 x2 x3).2.2.1, y ∈ pc.1.set :=
  View.cover_of_tiledL (kernelRun1_A c i arg2 harg2 arg3 harg3 arg4 harg4 arg5 harg5 arg6 harg6 arg7 harg7 arg8 harg8 hc0 hc1 x0 x1 x2 x3).2.2.1 S1x1x1.size (by sl_kernel_rfl) y

/-- What the body leaves in the accumulator where the accumulator is reset and the sum is not stored: its pieces read back. -/
def sout1_A_0 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : cond1_0 i) (hc1 : ¬cond1_1 i)
    (x0 : Vec F S512x2048 .f32) (x1 : Vec F S512x96 .bf16) (x2 : Vec F S96x2048 .bf16) (x3 : Vec F S96x2048 .bf16) : Vec F S1x1x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3).2.2.1)

/-- The pieces the body stores into the log-probability buffer where the accumulator is neither reset nor the sum stored tile its block (one store of the whole
    block), so they cover it. -/
theorem cover1_B_4 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : ¬cond1_0 i) (hc1 : ¬cond1_1 i)
    (x0 : Vec F S512x2048 .f32) (x1 : Vec F S512x96 .bf16) (x2 : Vec F S96x2048 .bf16) (x3 : Vec F S96x2048 .bf16) (xs0 : Vec F S1x1x1 .f32) (y : S512x2048.Idx) :
    ∃ pc ∈ (kernelRun1_B c i arg2 harg2 arg3 harg3 arg4 harg4 arg5 harg5 arg6 harg6 arg7 harg7 arg8 harg8 hc0 hc1 x0 x1 x2 x3 xs0).1, y ∈ pc.1.set :=
  View.cover_of_tiledL (kernelRun1_B c i arg2 harg2 arg3 harg3 arg4 harg4 arg5 harg5 arg6 harg6 arg7 harg7 arg8 harg8 hc0 hc1 x0 x1 x2 x3 xs0).1 S512x2048.size (by sl_kernel_rfl) y

/-- What the body leaves in the log-probability buffer where the accumulator is neither reset nor the sum stored: its pieces read back. -/
def out1_B_4 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : ¬cond1_0 i) (hc1 : ¬cond1_1 i)
    (x0 : Vec F S512x2048 .f32) (x1 : Vec F S512x96 .bf16) (x2 : Vec F S96x2048 .bf16) (x3 : Vec F S96x2048 .bf16) (xs0 : Vec F S1x1x1 .f32) : Vec F S512x2048 .f32 :=
  VO1_4.read (Elt F) (VO1_4.writes (Elt F) VO1_4.junk (kernelRun1_B c i arg2 harg2 arg3 harg3 arg4 harg4 arg5 harg5 arg6 harg6 arg7 harg7 arg8 harg8 hc0 hc1 x0 x1 x2 x3 xs0).1)

/-- The body stores nothing into the sum buffer where the accumulator is neither reset nor the sum stored: no pieces. A placeholder that nothing consults — at these
    points the window is idle, neither written back nor read at the next point. -/
def out1_B_5 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : ¬cond1_0 i) (hc1 : ¬cond1_1 i)
    (x0 : Vec F S512x2048 .f32) (x1 : Vec F S512x96 .bf16) (x2 : Vec F S96x2048 .bf16) (x3 : Vec F S96x2048 .bf16) (xs0 : Vec F S1x1x1 .f32) : Vec F S1x1x1 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 xs0).2.1)

/-- The pieces the body stores into the accumulator where the accumulator is neither reset nor the sum stored tile it, so they cover it. -/
theorem scover1_B_0 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : ¬cond1_0 i) (hc1 : ¬cond1_1 i)
    (x0 : Vec F S512x2048 .f32) (x1 : Vec F S512x96 .bf16) (x2 : Vec F S96x2048 .bf16) (x3 : Vec F S96x2048 .bf16) (xs0 : Vec F S1x1x1 .f32) (y : S1x1x1.Idx) :
    ∃ pc ∈ (kernelRun1_B c i arg2 harg2 arg3 harg3 arg4 harg4 arg5 harg5 arg6 harg6 arg7 harg7 arg8 harg8 hc0 hc1 x0 x1 x2 x3 xs0).2.2.1, y ∈ pc.1.set :=
  View.cover_of_tiledL (kernelRun1_B c i arg2 harg2 arg3 harg3 arg4 harg4 arg5 harg5 arg6 harg6 arg7 harg7 arg8 harg8 hc0 hc1 x0 x1 x2 x3 xs0).2.2.1 S1x1x1.size (by sl_kernel_rfl) y

/-- What the body leaves in the accumulator where the accumulator is neither reset nor the sum stored: its pieces read back. -/
def sout1_B_0 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : ¬cond1_0 i) (hc1 : ¬cond1_1 i)
    (x0 : Vec F S512x2048 .f32) (x1 : Vec F S512x96 .bf16) (x2 : Vec F S96x2048 .bf16) (x3 : Vec F S96x2048 .bf16) (xs0 : Vec F S1x1x1 .f32) : Vec F S1x1x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 xs0).2.2.1)

/-- The pieces the body stores into the log-probability buffer where the sum is stored tile its block (one store of the whole
    block), so they cover it. -/
theorem cover1_C_4 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : ¬cond1_0 i) (hc1 : cond1_1 i)
    (x0 : Vec F S512x2048 .f32) (x1 : Vec F S512x96 .bf16) (x2 : Vec F S96x2048 .bf16) (x3 : Vec F S96x2048 .bf16) (xs0 : Vec F S1x1x1 .f32) (y : S512x2048.Idx) :
    ∃ pc ∈ (kernelRun1_C c i arg2 harg2 arg3 harg3 arg4 harg4 arg5 harg5 arg6 harg6 arg7 harg7 arg8 harg8 hc0 hc1 x0 x1 x2 x3 xs0).1, y ∈ pc.1.set :=
  View.cover_of_tiledL (kernelRun1_C c i arg2 harg2 arg3 harg3 arg4 harg4 arg5 harg5 arg6 harg6 arg7 harg7 arg8 harg8 hc0 hc1 x0 x1 x2 x3 xs0).1 S512x2048.size (by sl_kernel_rfl) y

/-- What the body leaves in the log-probability buffer where the sum is stored: its pieces read back. -/
def out1_C_4 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : ¬cond1_0 i) (hc1 : cond1_1 i)
    (x0 : Vec F S512x2048 .f32) (x1 : Vec F S512x96 .bf16) (x2 : Vec F S96x2048 .bf16) (x3 : Vec F S96x2048 .bf16) (xs0 : Vec F S1x1x1 .f32) : Vec F S512x2048 .f32 :=
  VO1_4.read (Elt F) (VO1_4.writes (Elt F) VO1_4.junk (kernelRun1_C c i arg2 harg2 arg3 harg3 arg4 harg4 arg5 harg5 arg6 harg6 arg7 harg7 arg8 harg8 hc0 hc1 x0 x1 x2 x3 xs0).1)

/-- The pieces the body stores into the sum buffer where the sum is stored tile its block, so they cover it. -/
theorem cover1_C_5 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : ¬cond1_0 i) (hc1 : cond1_1 i)
    (x0 : Vec F S512x2048 .f32) (x1 : Vec F S512x96 .bf16) (x2 : Vec F S96x2048 .bf16) (x3 : Vec F S96x2048 .bf16) (xs0 : Vec F S1x1x1 .f32) (y : S1x1x1.Idx) :
    ∃ pc ∈ (kernelRun1_C c i arg2 harg2 arg3 harg3 arg4 harg4 arg5 harg5 arg6 harg6 arg7 harg7 arg8 harg8 hc0 hc1 x0 x1 x2 x3 xs0).2.1, y ∈ pc.1.set :=
  View.cover_of_tiledL (kernelRun1_C c i arg2 harg2 arg3 harg3 arg4 harg4 arg5 harg5 arg6 harg6 arg7 harg7 arg8 harg8 hc0 hc1 x0 x1 x2 x3 xs0).2.1 S1x1x1.size (by sl_kernel_rfl) y

/-- What the body leaves in the sum buffer where the sum is stored: its pieces read back. -/
def out1_C_5 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : ¬cond1_0 i) (hc1 : cond1_1 i)
    (x0 : Vec F S512x2048 .f32) (x1 : Vec F S512x96 .bf16) (x2 : Vec F S96x2048 .bf16) (x3 : Vec F S96x2048 .bf16) (xs0 : Vec F S1x1x1 .f32) : Vec F S1x1x1 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 xs0).2.1)

/-- The pieces the body stores into the accumulator where the sum is stored tile it, so they cover it. -/
theorem scover1_C_0 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : ¬cond1_0 i) (hc1 : cond1_1 i)
    (x0 : Vec F S512x2048 .f32) (x1 : Vec F S512x96 .bf16) (x2 : Vec F S96x2048 .bf16) (x3 : Vec F S96x2048 .bf16) (xs0 : Vec F S1x1x1 .f32) (y : S1x1x1.Idx) :
    ∃ pc ∈ (kernelRun1_C c i arg2 harg2 arg3 harg3 arg4 harg4 arg5 harg5 arg6 harg6 arg7 harg7 arg8 harg8 hc0 hc1 x0 x1 x2 x3 xs0).2.2.1, y ∈ pc.1.set :=
  View.cover_of_tiledL (kernelRun1_C c i arg2 harg2 arg3 harg3 arg4 harg4 arg5 harg5 arg6 harg6 arg7 harg7 arg8 harg8 hc0 hc1 x0 x1 x2 x3 xs0).2.2.1 S1x1x1.size (by sl_kernel_rfl) y

/-- What the body leaves in the accumulator where the sum is stored: its pieces read back. -/
def sout1_C_0 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : ¬cond1_0 i) (hc1 : cond1_1 i)
    (x0 : Vec F S512x2048 .f32) (x1 : Vec F S512x96 .bf16) (x2 : Vec F S96x2048 .bf16) (x3 : Vec F S96x2048 .bf16) (xs0 : Vec F S1x1x1 .f32) : Vec F S1x1x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 xs0).2.2.1)

/-! ## What the outputs and the accumulator hold after each point -/

/-- What the log-probability window's buffer, the sum window's buffer and the carried accumulator hold after the body at
    position `n`: the control case the point is in, run at the point's memrefs and input blocks, the accumulator coming
    in at what the point before left in it. -/
def outsAt1 (V : (c : Dev nD) → (b : Ref sig .tc) → Buf (Elt F) ((c : Thread nD τ).loc b)) (c : Dev nD) : (n : ℕ) → n < cfg1.N → Vec F S512x2048 .f32 × Vec F S1x1x1 .f32 × Vec F S1x1x1 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) % 4 = 3 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2.2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2.2)

/-- The region invariant before position `n`: before the first point the class's; afterwards the foreign scoped buffers
    at anything, the accumulator at what the point before left in it, and the generator register at some state. -/
def PhiS1 (V : (c : Dev nD) → (b : Ref sig .tc) → Buf (Elt F) ((c : Thread nD τ).loc b)) (c : Dev nD) : (n : ℕ) → n ≤ cfg1.N → sProp 𝕄
  | 0, _ => Pipeline.ΦA spec1 c
  | n + 1, hn => iprop(iprop(foreign1 (F := F) c ∗ owns (c : Thread nD τ) scM1_0 fullShare ((outsAt1 V c n hn).2.2)) ∗ (∃ r, prngReg c r))

variable (V : (c : Dev nD) → (b : Ref sig .tc) → Buf (Elt F) ((c : Thread nD τ).loc b))

/-- `outsAt1` at a point where the accumulator is reset: that case's contents. -/
theorem outsAt1_A (c : Dev nD) (t : Fin cfg1.N) (h0 : t.val % 4 = 0) (h1 : ¬t.val % 4 = 3) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a point that neither resets nor stores the sum: that case's contents, over what the point before left. -/
theorem outsAt1_B (c : Dev nD) (t : Fin cfg1.N) (h0 : ¬t.val % 4 = 0) (h1 : ¬t.val % 4 = 3) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point that stores the sum: that case's contents, over what the point before left. -/
theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2, out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(foreign1 (F := F) c ∗ owns (c : Thread nD τ) scM1_0 fullShare ((outsAt1 V c n hn).2.2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(foreign1 (F := F) c ∗ owns (c : Thread nD τ) scM1_0 fullShare ((outsAt1 V c (n - 1) (by omega)).2.2)) ∗ (∃ r, prngReg c r)) := by
  cases n with
  | zero => exact absurd rfl hz
  | succ n => rfl

/-! ## The pipeline's proof data -/

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' memrefs hold their blocks; the residue of the point's position says which control
    case the point is in, so that case's run applies; the invariant hands the body the accumulator at what the point
    before left (at anything at the first point) and takes it back at this point's contents, the foreign buffers and the
    generator register riding along; the sum window's buffer is handed back untouched where the window is idle; the core
    owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold out1_A_4 sout1_A_0; (try dsimp only)
      by_cases hz : t.val = 0
      · rw [PhiS1_castSucc V c t, PhiS1_zero V c _ _ hz, PhiA1_eq]
        iintro ⟨⟨⟨Hf, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        iintro ⟨H0, H1, H2, H3, ⟨%e4, H4⟩, H5, ⟨%es0, HS0⟩⟩
        isplitl [Hf HS0 Hg]
        · isplitl [Hf HS0]
          · isplitl [Hf]; · iexact Hf
            unfold owns; iexists _; isplitr
            swap; · iexact HS0
            ipureintro; exact View.read_writes_of_cover _ _ _ _ _ (scover1_A_0 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_A_4 c _ _ _ _ _ _ _ _ _ _ _ _ _ _ _ _ _ _ _ _ _)
        iexists _; iexact H5
      · rw [PhiS1_castSucc V c t, PhiS1_pos V c _ _ hz]
        iintro ⟨⟨⟨Hf, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexists _; iexact HS0
        iintro ⟨H0, H1, H2, H3, ⟨%e4, H4⟩, H5, ⟨%es0, HS0⟩⟩
        isplitl [Hf HS0 Hg]
        · isplitl [Hf HS0]
          · isplitl [Hf]; · iexact Hf
            unfold owns; iexists _; isplitr
            swap; · iexact HS0
            ipureintro; exact View.read_writes_of_cover _ _ _ _ _ (scover1_A_0 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_A_4 c _ _ _ _ _ _ _ _ _ _ _ _ _ _ _ _ _ _ _ _ _)
        iexists _; iexact H5
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_4 out1_C_5 sout1_C_0; (try dsimp only)
      by_cases hz : t.val = 0
      · exfalso; have hN : t.val < 64 := lt_of_lt_of_eq t.isLt (show cfg1.N = 64 from N_1); omega
      · rw [PhiS1_castSucc V c t, PhiS1_pos V c _ _ hz]
        iintro ⟨⟨⟨Hf, HS0⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) _).2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        iintro ⟨H0, H1, H2, H3, ⟨%e4, H4⟩, ⟨%e5, H5⟩, ⟨%es0, HS0⟩⟩
        isplitl [Hf HS0 Hg]
        · isplitl [Hf HS0]
          · isplitl [Hf]; · iexact Hf
            unfold owns; iexists _; isplitr
            swap; · iexact HS0
            ipureintro; exact View.read_writes_of_cover _ _ _ _ _ (scover1_C_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_C_4 c _ _ _ _ _ _ _ _ _ _ _ _ _ _ _ _ _ _ _ _ _ _)
        unfold owns; iexists _; isplitr
        swap; · iexact H5
        ipureintro; exact View.read_writes_of_cover _ _ _ _ _ (cover1_C_5 c _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold out1_B_4 sout1_B_0; (try dsimp only)
      by_cases hz : t.val = 0
      · exfalso; have hN : t.val < 64 := lt_of_lt_of_eq t.isLt (show cfg1.N = 64 from N_1); omega
      · rw [PhiS1_castSucc V c t, PhiS1_pos V c _ _ hz]
        iintro ⟨⟨⟨Hf, HS0⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        iintro ⟨H0, H1, H2, H3, ⟨%e4, H4⟩, H5, ⟨%es0, HS0⟩⟩
        isplitl [Hf HS0 Hg]
        · isplitl [Hf HS0]
          · isplitl [Hf]; · iexact Hf
            unfold owns; iexists _; isplitr
            swap; · iexact HS0
            ipureintro; exact View.read_writes_of_cover _ _ _ _ _ (scover1_B_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_B_4 c _ _ _ _ _ _ _ _ _ _ _ _ _ _ _ _ _ _ _ _ _ _)
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hf, HS0⟩, Hg⟩
  isplitl [Hf HS0]
  · isplitl [Hf]; · iexact Hf
    iexists _; iexact HS0
  iexact Hg

/-- After the last point the invariant gives the class's back. -/
theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.KB.Run.lean ====
/- The launch: @main as six segments (the table kernel's region, three stretches of host operations, the
   log-probability kernel's region, a last stretch) over the two regions' proof data; the buffer contents at every
   segment boundary, a fold from the launch memory; the run to a final state that agrees with the last boundary's
   contents at every unscoped buffer; the argument arrays read back through the fold to what the launch held. -/
import proofs.«405995_j80152679678262_3_alg».proof.Proof.KB.R0
import proofs.«405995_j80152679678262_3_alg».proof.Proof.KB.R1
import proofs.«405995_j80152679678262_3_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch (region 0's entry: @main opens with the table kernel's call). -/
abbrev W0 : Dev nD → Valuation τ sig (Elt F) := fun c b => (s₀ m ρ).mem ((c : Dev nD), b)
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references (region 0's exit contents). -/
abbrev V1 : (c : Dev nD) → (b : Ref sig .tc) → Buf (Elt F) ((c : Thread nD τ).loc b) := fun c b => W1 m ρ c b
/-- After the first stretch of host operations. -/
abbrev W2 : Dev nD → Valuation τ sig (Elt F) := fun c => StableHlo.after hostOps1 (W1 m ρ c)
/-- After the clamp's stretch. -/
abbrev W3 : Dev nD → Valuation τ sig (Elt F) := fun c => StableHlo.after hostOps1_1 (W2 m ρ c)
/-- After the one-hot's stretch (region 1's entry). -/
abbrev W4 : Dev nD → Valuation τ sig (Elt F) := fun c => StableHlo.after hostOps1_2 (W3 m ρ c)
/-- The same read at the TensorCore's references (what region 1's proof data take). -/
abbrev V4 : (c : Dev nD) → (b : Ref sig .tc) → Buf (Elt F) ((c : Thread nD τ).loc b) := fun c b => W4 m ρ c b
/-- At region 1's exit: its arrays at what the pipeline leaves, every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- The same read at the TensorCore's references (region 1's exit contents). -/
abbrev V5 : (c : Dev nD) → (b : Ref sig .tc) → Buf (Elt F) ((c : Thread nD τ).loc b) := fun c b => W5 m ρ c b
/-- After the last stretch (the sum of the per-row sums): what @main returns from. -/
abbrev W6 : Dev nD → Valuation τ sig (Elt F) := fun c => StableHlo.after hostOps2 (W5 m ρ c)

/-- At region 0's exit each of its arrays holds what the pipeline leaves and every other buffer what it held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- The same at region 1's exit. -/
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-! ### The arguments end as launched: no host operation writes one, and a region either reads it through an input
    window (whose array the pipeline leaves as entered) or bypasses it, so the fold at an argument's buffer walks back
    to the launch memory -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_writes_sub (r := main_arg0) hostOps2 _ hostOps2_writes (by decide)
    _ = W4 m ρ c (Proc.devRef .tc main_arg0) := W5_of_ne m ρ c main_arg0 (by decide)
    _ = W3 m ρ c (Proc.devRef .tc main_arg0) := StableHlo.after_of_writes_sub (r := main_arg0) hostOps1_2 _ hostOps1_2_writes (by decide)
    _ = W2 m ρ c (Proc.devRef .tc main_arg0) := StableHlo.after_of_writes_sub (r := main_arg0) hostOps1_1 _ hostOps1_1_writes (by decide)
    _ = W1 m ρ c (Proc.devRef .tc main_arg0) := StableHlo.after_of_writes_sub (r := main_arg0) hostOps1 _ hostOps1_writes (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_writes_sub (r := main_arg1) hostOps2 _ hostOps2_writes (by decide)
    _ = W4 m ρ c (Proc.devRef .tc main_arg1) := W5_of_ne m ρ c main_arg1 (by decide)
    _ = W3 m ρ c (Proc.devRef .tc main_arg1) := StableHlo.after_of_writes_sub (r := main_arg1) hostOps1_2 _ hostOps1_2_writes (by decide)
    _ = W2 m ρ c (Proc.devRef .tc main_arg1) := StableHlo.after_of_writes_sub (r := main_arg1) hostOps1_1 _ hostOps1_1_writes (by decide)
    _ = W1 m ρ c (Proc.devRef .tc main_arg1) := StableHlo.after_of_writes_sub (r := main_arg1) hostOps1 _ hostOps1_writes (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_writes_sub (r := main_arg2) hostOps2 _ hostOps2_writes (by decide)
    _ = W4 m ρ c (Proc.devRef .tc main_arg2) := W5_of_ne m ρ c main_arg2 (by decide)
    _ = W3 m ρ c (Proc.devRef .tc main_arg2) := StableHlo.after_of_writes_sub (r := main_arg2) hostOps1_2 _ hostOps1_2_writes (by decide)
    _ = W2 m ρ c (Proc.devRef .tc main_arg2) := StableHlo.after_of_writes_sub (r := main_arg2) hostOps1_1 _ hostOps1_1_writes (by decide)
    _ = W1 m ρ c (Proc.devRef .tc main_arg2) := StableHlo.after_of_writes_sub (r := main_arg2) hostOps1 _ hostOps1_writes (by decide)
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := StableHlo.after_of_writes_sub (r := main_arg3) hostOps2 _ hostOps2_writes (by decide)
    _ = W4 m ρ c (Proc.devRef .tc main_arg3) := (W5_arr m ρ c 0).trans (((dat1 (V4 m ρ) c).arrAt_in 0 rfl _).trans (A_eq1 (V4 m ρ) c 0))
    _ = W3 m ρ c (Proc.devRef .tc main_arg3) := StableHlo.after_of_writes_sub (r := main_arg3) hostOps1_2 _ hostOps1_2_writes (by decide)
    _ = W2 m ρ c (Proc.devRef .tc main_arg3) := StableHlo.after_of_writes_sub (r := main_arg3) hostOps1_1 _ hostOps1_1_writes (by decide)
    _ = W1 m ρ c (Proc.devRef .tc main_arg3) := StableHlo.after_of_writes_sub (r := main_arg3) hostOps1 _ hostOps1_writes (by decide)
    _ = W0 m ρ c (Proc.devRef .tc main_arg3) := W1_of_ne m ρ c main_arg3 (by decide)
    _ = m ((c : Thread nD τ).loc main_arg3) := rfl
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := StableHlo.after_of_writes_sub (r := main_arg4) hostOps2 _ hostOps2_writes (by decide)
    _ = W4 m ρ c (Proc.devRef .tc main_arg4) := W5_of_ne m ρ c main_arg4 (by decide)
    _ = W3 m ρ c (Proc.devRef .tc main_arg4) := StableHlo.after_of_writes_sub (r := main_arg4) hostOps1_2 _ hostOps1_2_writes (by decide)
    _ = W2 m ρ c (Proc.devRef .tc main_arg4) := StableHlo.after_of_writes_sub (r := main_arg4) hostOps1_1 _ hostOps1_1_writes (by decide)
    _ = W1 m ρ c (Proc.devRef .tc main_arg4) := StableHlo.after_of_writes_sub (r := main_arg4) hostOps1 _ hostOps1_writes (by decide)
    _ = W0 m ρ c (Proc.devRef .tc main_arg4) := W1_of_ne m ρ c main_arg4 (by decide)
    _ = m ((c : Thread nD τ).loc main_arg4) := rfl

/-! ## The proof data family and the thread state -/

/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-- What the last stretch leaves is the last thread state beside the core owing nothing. -/
theorem hlast (c : Dev nD) : iprop(StableHlo.held (c : Thread nD τ) (Pipeline.ucRefs τ sig) (W6 m ρ c) ∗ R c)
    ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

/-! ## The regions as segments -/

set_option backward.isDefEq.respectTransparency.types false in
/-- REGION 0 (the table kernel) over the thread state: entered from every unscoped buffer at the launch contents, left
    at `W1`. Its arrays split out of the unscoped buffers and put back at the exit contents; the generator register
    into the class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (the log-probability kernel) over the thread state: entered from every unscoped buffer at `W4`, left at
    `W5`. The class invariant, assembled from the generator register and the scoped buffers no window stages,
    enters the region's own invariant before the first point, and the invariant after the last point gives it back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (show Pipeline.ΦA spec1 c ⊢ (pdats m ρ 1 c).Φ 0 from hin1 (V4 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 6 segments in order: a region per pallas_call, a host segment per stretch from its boundary's contents. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .region (reg1 m ρ),
    .host (hseg hostOps2 hostOps2_sub hostOps2_fresh (W5 m ρ)) ]

set_option backward.isDefEq.respectTransparency.types false in
/-- THE RUN: from any memory with zero counters every weakly fair execution of @main on the TensorCores terminates,
    nothing faulting, and every final state holds, at every unscoped buffer of every core, the last boundary's contents:
    the launch over the segments, the last thread state read against the final state. -/
theorem run_vals : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, hlast m ρ⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h => h)

/-- THE FRAME: every final state has the argument arrays as launched, each read off the last boundary's contents
    and walked back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r hr c =>
    ⟨(hr c _ (mem_uc main_arg0 (by decide))).trans (W6_main_arg0 m ρ c),
     (hr c _ (mem_uc main_arg1 (by decide))).trans (W6_main_arg1 m ρ c),
     (hr c _ (mem_uc main_arg2 (by decide))).trans (W6_main_arg2 m ρ c),
     (hr c _ (mem_uc main_arg3 (by decide))).trans (W6_main_arg3 m ρ c),
     (hr c _ (mem_uc main_arg4 (by decide))).trans (W6_main_arg4 m ρ c)⟩) (run_vals m ρ)

end Cert.Kernel.Hand

end
-- ==== Proof.KI.R0.lean ====
/- Region 0 (the table kernel, one grid point): what its body leaves in its two output buffers, the body's
   triple, the proof data of its pipeline at the contents `V` the region is entered with, and the body obligation. -/
import proofs.«405995_j80152679678262_3_alg».proof.Proof.Gen.KernelIdeal.Launch
import proofs.«405995_j80152679678262_3_alg».proof.Proof.Gen.KernelIdeal.Skeleton
import proofs.«405995_j80152679678262_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: an input's buffer only changes by a fetch,
    and a fetch brings the block of the array, which nothing writes. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1 (the mean table's factor). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for input window 2 (the scale table's factor). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_a : Rect S32x128 := Rect.unit (s := S32x128) ![0, 0] S32x128.size inb_S32x128_S32x128_0_0
abbrev r0_z : Rect S128x8192 := Rect.unit (s := S128x8192) ![0, 0] S128x8192.size inb_S128x8192_S128x8192_0_0
abbrev r0_o : Rect S96x8192 := Rect.unit (s := S96x8192) ![0, 0] S96x8192.size inb_S96x8192_S96x8192_0_0

/-- The mean table's buffer after the body: its one store, of the stacked three-term split of cell_prob · Z_mu. -/
def out0_3 (x0 : Vec F S32x128 .f32) (x1 : Vec F S128x8192 .f32) : Vec F S96x8192 .bf16 :=
  View.canon [⟨r0_o, k0_pay1 (View.ld x0 r0_a) (View.ld x1 r0_z)⟩]
/-- The scale table's buffer after the body. -/
def out0_4 (x0 : Vec F S32x128 .f32) (x2 : Vec F S128x8192 .f32) : Vec F S96x8192 .bf16 :=
  View.canon [⟨r0_o, k0_pay2 (View.ld x0 r0_a) (View.ld x2 r0_z)⟩]

/-- The mean table's one store is of the whole block, so it covers the buffer. -/
theorem cover0_3 (p0 : Vec F S96x8192 .bf16) (y : S96x8192.Idx) :
    ∃ pc ∈ ([⟨r0_o, p0⟩] : List (View.Piece (Elt F) S96x8192 .bf16)), y ∈ pc.1.set :=
  View.cover_of_tiled [⟨r0_o, p0⟩] S96x8192.size (by rfl) y

/-- The scale table's one store is of the whole block, so it covers the buffer. -/
theorem cover0_4 (p0 : Vec F S96x8192 .bf16) (y : S96x8192.Idx) :
    ∃ pc ∈ ([⟨r0_o, p0⟩] : List (View.Piece (Elt F) S96x8192 .bf16)), y ∈ pc.1.set :=
  View.cover_of_tiled [⟨r0_o, p0⟩] S96x8192.size (by rfl) y

set_option maxHeartbeats 1000000 in
/-- The kernel body on whole staging memrefs, the three inputs' at read contents and the two outputs' at anything
    (the body reads each output's buffer before it stores the whole block into it; the values read are not used),
    runs to the continuation holding the inputs' as they were and each output's at its one store over the inputs. -/
theorem sound_kernel0 (c : Dev nD) (E : Set ℕ) (i : grid0.Coords)
    (arg0 : Memref sig .tc .vmem S32x128 .f32) (harg0 : arg0.IsWhole)
    (arg1 : Memref sig .tc .vmem S128x8192 .f32) (harg1 : arg1.IsWhole)
    (arg2 : Memref sig .tc .vmem S128x8192 .f32) (harg2 : arg2.IsWhole)
    (arg3 : Memref sig .tc .vmem S96x8192 .bf16) (harg3 : arg3.IsWhole)
    (arg4 : Memref sig .tc .vmem S96x8192 .bf16) (harg4 : arg4.IsWhole)
    (x0 : Vec F S32x128 .f32) (x1 : Vec F S128x8192 .f32) (x2 : Vec F S128x8192 .f32) (K : PUnit → sProp 𝕄) :
    iprop(owns (c : Thread nD τ) arg0 fullShare x0 ∗ owns (c : Thread nD τ) arg1 fullShare x1
        ∗ owns (c : Thread nD τ) arg2 fullShare x2
        ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1
            ∗ owns (c : Thread nD τ) arg2 fullShare x2
            ∗ owns (c : Thread nD τ) arg3 fullShare (out0_3 x0 x1)
            ∗ owns (c : Thread nD τ) arg4 fullShare (out0_4 x0 x2)) -∗ K ⟨⟩))
      ⊢ wp frame (wpE (defs₀ (F := F)) Variants.none c none) E
          (cc0__table_kernel i arg0 harg0 arg1 harg1 arg2 harg2 arg3 harg3 arg4 harg4) K := by
  simp only [cc0__table_kernel_eq_skeleton]; unfold cc0__table_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`: the invariant, the core's debts, and each window's current staging
    buffer at what it held before the body, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' staging buffers hold their blocks, so the kernel's triple applies; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Runs.lean ====
/- Region 1 (the log-probability kernel, grid 16 × 4): what its three control cases share — the windows' blocks at the
   region's entry contents, the branch conditions decided over the grid, where the sum window is idle, the staging and
   scratch memrefs, and the class invariant with the scratch as an owned memref. -/
import proofs.«405995_j80152679678262_3_alg».proof.Proof.Gen.KernelIdeal.Launch
import proofs.«405995_j80152679678262_3_alg».proof.Proof.Gen.KernelIdeal.Skeleton
import proofs.«405995_j80152679678262_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the region-entry contents and whose body leaves the block in place: the window is uncut and never
    idle, and where it is not fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the region-entry contents and whose body leaves the block in place: the window is uncut and never
    idle, and where it is not fetched its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the region-entry contents and whose body leaves the block in place: the window is uncut and never
    idle, and where it is not fetched its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is the region-entry contents and whose body leaves the block in place: the window is uncut and never
    idle, and where it is not fetched its block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's branch conditions -/

/-- The condition under which the body resets the accumulator: the second grid coordinate is 0 (the body's scalar chain
    at the grid coordinates). -/
abbrev cond1_0 (i : grid1.Coords) : Prop := (Scalar.cmpi .ne (Scalar.extui (Scalar.cmpi .eq (BitVec.ofNat 32 (i 1).val) 0#32)) 0#32) = 1#1
/-- It holds at the points ≡ 0 (mod 4) — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition under which the body stores the accumulated sum: the second grid coordinate is 3. -/
abbrev cond1_1 (i : grid1.Coords) : Prop := k1_cond2 i = 1#1
/-- It holds at the points ≡ 3 (mod 4) — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- Window 0 is never idle. -/
theorem liveAt1_0 : ∀ t : Fin cfg1.N, cfg1.idle 0 (grid1.coords t) = false := by decide +kernel
/-- Window 1 is never idle. -/
theorem liveAt1_1 : ∀ t : Fin cfg1.N, cfg1.idle 1 (grid1.coords t) = false := by decide +kernel
/-- Window 2 is never idle. -/
theorem liveAt1_2 : ∀ t : Fin cfg1.N, cfg1.idle 2 (grid1.coords t) = false := by decide +kernel
/-- Window 3 is never idle. -/
theorem liveAt1_3 : ∀ t : Fin cfg1.N, cfg1.idle 3 (grid1.coords t) = false := by decide +kernel
/-- Window 4 is never idle. -/
theorem liveAt1_4 : ∀ t : Fin cfg1.N, cfg1.idle 4 (grid1.coords t) = false := by decide +kernel
/-- Where the accumulator is reset and the sum is not stored, the sum window is idle. -/
theorem idleAt1_5_A : ∀ t : Fin cfg1.N, cond1_0 (grid1.coords t) → ¬cond1_1 (grid1.coords t) → cfg1.idle 5 (grid1.coords t) = true := by decide +kernel
/-- There the pipeline does not write the sum window's block back. -/
theorem noFlush1_5_A : ∀ t : Fin cfg1.N, cond1_0 (grid1.coords t) → ¬cond1_1 (grid1.coords t) → (cfg1.win 5).flush t = false := by decide +kernel
/-- Where the accumulator is neither reset nor the sum stored, the sum window is idle. -/
theorem idleAt1_5_B : ∀ t : Fin cfg1.N, ¬cond1_0 (grid1.coords t) → ¬cond1_1 (grid1.coords t) → cfg1.idle 5 (grid1.coords t) = true := by decide +kernel
/-- There the pipeline does not write the sum window's block back. -/
theorem noFlush1_5_B : ∀ t : Fin cfg1.N, ¬cond1_0 (grid1.coords t) → ¬cond1_1 (grid1.coords t) → (cfg1.win 5).flush t = false := by decide +kernel
/-- Where the sum is stored the sum window is live. -/
theorem liveAt1_5_C : ∀ t : Fin cfg1.N, ¬cond1_0 (grid1.coords t) → cond1_1 (grid1.coords t) → cfg1.idle 5 (grid1.coords t) = false := by decide +kernel

/-! ## The staging and scratch memrefs -/

/-- One staging buffer of each output window, through which its contents are stated (any choice reads the same). -/
abbrev VO1_4 : View sig .tc .vmem S512x2048 .f32 := (Memref.whole cc1_stg4_0 : Memref sig .tc .vmem S512x2048 .f32).view
abbrev VO1_5 : View sig .tc .vmem S1x1x1 .f32 := (Memref.whole cc1_stg5_0 : Memref sig .tc .vmem S1x1x1 .f32).view
/-- Each window's current staging memref at point `t`, as the pipeline passes it, and its wholeness. -/
abbrev ms1_0 (t : Fin cfg1.N) : Memref sig .tc .vmem S512x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x96 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S96x2048 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S96x2048 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x2048 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x1 .f32 := win1_5.stage (cfg1.slots t 5)
abbrev hs1_5 (t : Fin cfg1.N) : (ms1_5 t).IsWhole := hstage1_5 ((cfg1.slots t 5).cast nbuf1_5)
/-- The accumulator: a whole scoped buffer of the kernel's own, passed beside the windows. -/
abbrev scM1_0 : Memref sig .tc .vmem S1x1x1 .f32 := Memref.whole cc1_scratch0
/-- The accumulator as a view: what it holds is stated through it. -/
abbrev VS1_0 : View sig .tc .vmem S1x1x1 .f32 := scM1_0.view

/-- The scoped buffers of the core that are neither a staging buffer of this region nor its accumulator (the staging
    buffers of the region before), each whole at some contents: the region neither reads nor writes them. -/
def foreign1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f))

/-- Six conjuncts and a seventh, the first five grouped: separating conjunction reassociated. -/
theorem sep_assoc6 (B0 B1 B2 B3 B4 S G : sProp 𝕄) :
    (iprop((B0 ∗ B1 ∗ B2 ∗ B3 ∗ B4 ∗ S) ∗ G) : sProp 𝕄) = iprop(((B0 ∗ B1 ∗ B2 ∗ B3 ∗ B4) ∗ S) ∗ G) := by
  have h₁ : iprop((B0 ∗ B1 ∗ B2 ∗ B3 ∗ B4 ∗ S) ∗ G) ⊢ (iprop(((B0 ∗ B1 ∗ B2 ∗ B3 ∗ B4) ∗ S) ∗ G) : sProp 𝕄) := by
    iintro ⟨⟨H0, H1, H2, H3, H4, HS⟩, Hg⟩
    isplitr [Hg]
    · isplitr [HS]
      · isplitl [H0]; · iexact H0
        isplitl [H1]; · iexact H1
        isplitl [H2]; · iexact H2
        isplitl [H3]; · iexact H3
        iexact H4
      · iexact HS
    · iexact Hg
  have h₂ : iprop(((B0 ∗ B1 ∗ B2 ∗ B3 ∗ B4) ∗ S) ∗ G) ⊢ (iprop((B0 ∗ B1 ∗ B2 ∗ B3 ∗ B4 ∗ S) ∗ G) : sProp 𝕄) := by
    iintro ⟨⟨⟨H0, H1, H2, H3, H4⟩, HS⟩, Hg⟩
    isplitr [Hg]
    · isplitl [H0]; · iexact H0
      isplitl [H1]; · iexact H1
      isplitl [H2]; · iexact H2
      isplitl [H3]; · iexact H3
      isplitl [H4]; · iexact H4
      iexact HS
    · iexact Hg
  exact BI.equiv_iff.mp ⟨h₁, h₂⟩

/-- The class invariant with the accumulator as a memref owned at some contents: the foreign scoped buffers, the
    accumulator, the generator register — what the body obligation hands the run and takes back. -/
theorem PhiA1_eq (c : Dev nD) :
    (Pipeline.ΦA spec1 c : sProp 𝕄)
      = iprop(iprop(foreign1 (F := F) c ∗ (∃ d, owns (c : Thread nD τ) scM1_0 fullShare d)) ∗ (∃ r, prngReg c r)) := by
  unfold Pipeline.ΦA; rw [scopedRest1_eq]; unfold foreign1; simp only [scM1_0, owns_whole]
  exact sep_assoc6 _ _ _ _ _ _ _

end Cert.KernelIdeal.Hand

end
-- ==== Proof.KI.R1RunA.lean ====
/- Region 1 (the log-probability kernel): the run of the whole body where the accumulator is reset and the sum is not stored (second grid coordinate 0) —
   the pieces each written buffer ends with, and the body's triple over them. -/
import proofs.«405995_j80152679678262_3_alg».proof.Proof.KI.R1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- What the body's stores leave in the log-probability buffer (`L4`), the sum buffer (`L5`: nothing) and the accumulator
    (`LS0`), as pieces, last first, where the accumulator is reset and the sum is not stored — with the triple: on whole
    memrefs, the four inputs at their contents, the log-probability buffer and the accumulator at anything, the sum
    buffer at contents `xi5` handed back untouched, the body runs to a continuation that holds the inputs as they were and
    each written buffer with its pieces written. -/
noncomputable def kernelRun1_A (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : cond1_0 i) (hc1 : ¬cond1_1 i)
    (x0 : Vec F S512x2048 .f32) (x1 : Vec F S512x96 .bf16) (x2 : Vec F S96x2048 .bf16) (x3 : Vec F S96x2048 .bf16) :
    Σ' (L4 : List (View.Piece (Elt F) S512x2048 .f32)) (L5 : List (View.Piece (Elt F) S1x1x1 .f32)), { LS0 : List (View.Piece (Elt F) S1x1x1 .f32) //
      ∀ (xi5 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__logp_kernel i arg2 harg2 arg3 harg3 arg4 harg4 arg5 harg5 arg6 harg6 arg7 harg7 arg8 harg8) K } := by
  refine ⟨?_, [], ?_, fun xi5 E K => ?run⟩
  case run =>
    simp only [cc1__logp_kernel_eq_skeleton]; unfold cc1__logp_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

end Cert.KernelIdeal.Hand

end
-- ==== Proof.KI.R1RunB.lean ====
/- Region 1 (the log-probability kernel): the run of the whole body where the accumulator is neither reset nor the sum stored (second grid coordinate 1 or 2) —
   the pieces each written buffer ends with, and the body's triple over them. -/
import proofs.«405995_j80152679678262_3_alg».proof.Proof.KI.R1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The same where the accumulator is neither reset nor the sum stored: the accumulator comes in at the contents `xs0`
    the point before left, the sum buffer at `xi5` is handed back untouched. -/
noncomputable def kernelRun1_B (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : ¬cond1_0 i) (hc1 : ¬cond1_1 i)
    (x0 : Vec F S512x2048 .f32) (x1 : Vec F S512x96 .bf16) (x2 : Vec F S96x2048 .bf16) (x3 : Vec F S96x2048 .bf16) (xs0 : Vec F S1x1x1 .f32) :
    Σ' (L4 : List (View.Piece (Elt F) S512x2048 .f32)) (L5 : List (View.Piece (Elt F) S1x1x1 .f32)), { LS0 : List (View.Piece (Elt F) S1x1x1 .f32) //
      ∀ (xi5 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__logp_kernel i arg2 harg2 arg3 harg3 arg4 harg4 arg5 harg5 arg6 harg6 arg7 harg7 arg8 harg8) K } := by
  refine ⟨?_, [], ?_, fun xi5 E K => ?run⟩
  case run =>
    simp only [cc1__logp_kernel_eq_skeleton]; unfold cc1__logp_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

end Cert.KernelIdeal.Hand

end
-- ==== Proof.KI.R1RunC.lean ====
/- Region 1 (the log-probability kernel): the run of the whole body where the sum is stored (second grid coordinate 3) —
   the pieces each written buffer ends with, and the body's triple over them. -/
import proofs.«405995_j80152679678262_3_alg».proof.Proof.KI.R1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The same where the sum is stored: the accumulator comes in at `xs0`, the sum buffer at anything and leaves with its
    pieces `L5` written. -/
noncomputable def kernelRun1_C (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : ¬cond1_0 i) (hc1 : cond1_1 i)
    (x0 : Vec F S512x2048 .f32) (x1 : Vec F S512x96 .bf16) (x2 : Vec F S96x2048 .bf16) (x3 : Vec F S96x2048 .bf16) (xs0 : Vec F S1x1x1 .f32) :
    Σ' (L4 : List (View.Piece (Elt F) S512x2048 .f32)) (L5 : List (View.Piece (Elt F) S1x1x1 .f32)), { LS0 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__logp_kernel i arg2 harg2 arg3 harg3 arg4 harg4 arg5 harg5 arg6 harg6 arg7 harg7 arg8 harg8) K } := by
  refine ⟨?_, ?_, ?_, fun E K => ?run⟩
  case run =>
    simp only [cc1__logp_kernel_eq_skeleton]; unfold cc1__logp_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.KernelIdeal.Hand

end
-- ==== Proof.KI.R1.lean ====
/- Region 1 (the log-probability kernel): what its outputs and its carried accumulator hold point by point, the proof
   data of its pipeline, the body obligation, and how the class invariant enters and leaves the region. -/
import proofs.«405995_j80152679678262_3_alg».proof.Proof.KI.R1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each control case leaves in the two output buffers and in the accumulator -/

/-- The pieces the body stores into the log-probability buffer where the accumulator is reset and the sum is not stored tile its block (one store of the whole
    block), so they cover it. -/
theorem cover1_A_4 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : cond1_0 i) (hc1 : ¬cond1_1 i)
    (x0 : Vec F S512x2048 .f32) (x1 : Vec F S512x96 .bf16) (x2 : Vec F S96x2048 .bf16) (x3 : Vec F S96x2048 .bf16) (y : S512x2048.Idx) :
    ∃ pc ∈ (kernelRun1_A c i arg2 harg2 arg3 harg3 arg4 harg4 arg5 harg5 arg6 harg6 arg7 harg7 arg8 harg8 hc0 hc1 x0 x1 x2 x3).1, y ∈ pc.1.set :=
  View.cover_of_tiledL (kernelRun1_A c i arg2 harg2 arg3 harg3 arg4 harg4 arg5 harg5 arg6 harg6 arg7 harg7 arg8 harg8 hc0 hc1 x0 x1 x2 x3).1 S512x2048.size (by sl_kernel_rfl) y

/-- What the body leaves in the log-probability buffer where the accumulator is reset and the sum is not stored: its pieces read back. -/
def out1_A_4 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : cond1_0 i) (hc1 : ¬cond1_1 i)
    (x0 : Vec F S512x2048 .f32) (x1 : Vec F S512x96 .bf16) (x2 : Vec F S96x2048 .bf16) (x3 : Vec F S96x2048 .bf16) : Vec F S512x2048 .f32 :=
  VO1_4.read (Elt F) (VO1_4.writes (Elt F) VO1_4.junk (kernelRun1_A c i arg2 harg2 arg3 harg3 arg4 harg4 arg5 harg5 arg6 harg6 arg7 harg7 arg8 harg8 hc0 hc1 x0 x1 x2 x3).1)

/-- The body stores nothing into the sum buffer where the accumulator is reset and the sum is not stored: no pieces. A placeholder that nothing consults — at these
    points the window is idle, neither written back nor read at the next point. -/
def out1_A_5 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : cond1_0 i) (hc1 : ¬cond1_1 i)
    (x0 : Vec F S512x2048 .f32) (x1 : Vec F S512x96 .bf16) (x2 : Vec F S96x2048 .bf16) (x3 : Vec F S96x2048 .bf16) : Vec F S1x1x1 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3).2.1)

/-- The pieces the body stores into the accumulator where the accumulator is reset and the sum is not stored tile it, so they cover it. -/
theorem scover1_A_0 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : cond1_0 i) (hc1 : ¬cond1_1 i)
    (x0 : Vec F S512x2048 .f32) (x1 : Vec F S512x96 .bf16) (x2 : Vec F S96x2048 .bf16) (x3 : Vec F S96x2048 .bf16) (y : S1x1x1.Idx) :
    ∃ pc ∈ (kernelRun1_A c i arg2 harg2 arg3 harg3 arg4 harg4 arg5 harg5 arg6 harg6 arg7 harg7 arg8 harg8 hc0 hc1 x0 x1 x2 x3).2.2.1, y ∈ pc.1.set :=
  View.cover_of_tiledL (kernelRun1_A c i arg2 harg2 arg3 harg3 arg4 harg4 arg5 harg5 arg6 harg6 arg7 harg7 arg8 harg8 hc0 hc1 x0 x1 x2 x3).2.2.1 S1x1x1.size (by sl_kernel_rfl) y

/-- What the body leaves in the accumulator where the accumulator is reset and the sum is not stored: its pieces read back. -/
def sout1_A_0 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : cond1_0 i) (hc1 : ¬cond1_1 i)
    (x0 : Vec F S512x2048 .f32) (x1 : Vec F S512x96 .bf16) (x2 : Vec F S96x2048 .bf16) (x3 : Vec F S96x2048 .bf16) : Vec F S1x1x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3).2.2.1)

/-- The pieces the body stores into the log-probability buffer where the accumulator is neither reset nor the sum stored tile its block (one store of the whole
    block), so they cover it. -/
theorem cover1_B_4 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : ¬cond1_0 i) (hc1 : ¬cond1_1 i)
    (x0 : Vec F S512x2048 .f32) (x1 : Vec F S512x96 .bf16) (x2 : Vec F S96x2048 .bf16) (x3 : Vec F S96x2048 .bf16) (xs0 : Vec F S1x1x1 .f32) (y : S512x2048.Idx) :
    ∃ pc ∈ (kernelRun1_B c i arg2 harg2 arg3 harg3 arg4 harg4 arg5 harg5 arg6 harg6 arg7 harg7 arg8 harg8 hc0 hc1 x0 x1 x2 x3 xs0).1, y ∈ pc.1.set :=
  View.cover_of_tiledL (kernelRun1_B c i arg2 harg2 arg3 harg3 arg4 harg4 arg5 harg5 arg6 harg6 arg7 harg7 arg8 harg8 hc0 hc1 x0 x1 x2 x3 xs0).1 S512x2048.size (by sl_kernel_rfl) y

/-- What the body leaves in the log-probability buffer where the accumulator is neither reset nor the sum stored: its pieces read back. -/
def out1_B_4 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : ¬cond1_0 i) (hc1 : ¬cond1_1 i)
    (x0 : Vec F S512x2048 .f32) (x1 : Vec F S512x96 .bf16) (x2 : Vec F S96x2048 .bf16) (x3 : Vec F S96x2048 .bf16) (xs0 : Vec F S1x1x1 .f32) : Vec F S512x2048 .f32 :=
  VO1_4.read (Elt F) (VO1_4.writes (Elt F) VO1_4.junk (kernelRun1_B c i arg2 harg2 arg3 harg3 arg4 harg4 arg5 harg5 arg6 harg6 arg7 harg7 arg8 harg8 hc0 hc1 x0 x1 x2 x3 xs0).1)

/-- The body stores nothing into the sum buffer where the accumulator is neither reset nor the sum stored: no pieces. A placeholder that nothing consults — at these
    points the window is idle, neither written back nor read at the next point. -/
def out1_B_5 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : ¬cond1_0 i) (hc1 : ¬cond1_1 i)
    (x0 : Vec F S512x2048 .f32) (x1 : Vec F S512x96 .bf16) (x2 : Vec F S96x2048 .bf16) (x3 : Vec F S96x2048 .bf16) (xs0 : Vec F S1x1x1 .f32) : Vec F S1x1x1 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 xs0).2.1)

/-- The pieces the body stores into the accumulator where the accumulator is neither reset nor the sum stored tile it, so they cover it. -/
theorem scover1_B_0 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : ¬cond1_0 i) (hc1 : ¬cond1_1 i)
    (x0 : Vec F S512x2048 .f32) (x1 : Vec F S512x96 .bf16) (x2 : Vec F S96x2048 .bf16) (x3 : Vec F S96x2048 .bf16) (xs0 : Vec F S1x1x1 .f32) (y : S1x1x1.Idx) :
    ∃ pc ∈ (kernelRun1_B c i arg2 harg2 arg3 harg3 arg4 harg4 arg5 harg5 arg6 harg6 arg7 harg7 arg8 harg8 hc0 hc1 x0 x1 x2 x3 xs0).2.2.1, y ∈ pc.1.set :=
  View.cover_of_tiledL (kernelRun1_B c i arg2 harg2 arg3 harg3 arg4 harg4 arg5 harg5 arg6 harg6 arg7 harg7 arg8 harg8 hc0 hc1 x0 x1 x2 x3 xs0).2.2.1 S1x1x1.size (by sl_kernel_rfl) y

/-- What the body leaves in the accumulator where the accumulator is neither reset nor the sum stored: its pieces read back. -/
def sout1_B_0 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : ¬cond1_0 i) (hc1 : ¬cond1_1 i)
    (x0 : Vec F S512x2048 .f32) (x1 : Vec F S512x96 .bf16) (x2 : Vec F S96x2048 .bf16) (x3 : Vec F S96x2048 .bf16) (xs0 : Vec F S1x1x1 .f32) : Vec F S1x1x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 xs0).2.2.1)

/-- The pieces the body stores into the log-probability buffer where the sum is stored tile its block (one store of the whole
    block), so they cover it. -/
theorem cover1_C_4 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : ¬cond1_0 i) (hc1 : cond1_1 i)
    (x0 : Vec F S512x2048 .f32) (x1 : Vec F S512x96 .bf16) (x2 : Vec F S96x2048 .bf16) (x3 : Vec F S96x2048 .bf16) (xs0 : Vec F S1x1x1 .f32) (y : S512x2048.Idx) :
    ∃ pc ∈ (kernelRun1_C c i arg2 harg2 arg3 harg3 arg4 harg4 arg5 harg5 arg6 harg6 arg7 harg7 arg8 harg8 hc0 hc1 x0 x1 x2 x3 xs0).1, y ∈ pc.1.set :=
  View.cover_of_tiledL (kernelRun1_C c i arg2 harg2 arg3 harg3 arg4 harg4 arg5 harg5 arg6 harg6 arg7 harg7 arg8 harg8 hc0 hc1 x0 x1 x2 x3 xs0).1 S512x2048.size (by sl_kernel_rfl) y

/-- What the body leaves in the log-probability buffer where the sum is stored: its pieces read back. -/
def out1_C_4 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : ¬cond1_0 i) (hc1 : cond1_1 i)
    (x0 : Vec F S512x2048 .f32) (x1 : Vec F S512x96 .bf16) (x2 : Vec F S96x2048 .bf16) (x3 : Vec F S96x2048 .bf16) (xs0 : Vec F S1x1x1 .f32) : Vec F S512x2048 .f32 :=
  VO1_4.read (Elt F) (VO1_4.writes (Elt F) VO1_4.junk (kernelRun1_C c i arg2 harg2 arg3 harg3 arg4 harg4 arg5 harg5 arg6 harg6 arg7 harg7 arg8 harg8 hc0 hc1 x0 x1 x2 x3 xs0).1)

/-- The pieces the body stores into the sum buffer where the sum is stored tile its block, so they cover it. -/
theorem cover1_C_5 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : ¬cond1_0 i) (hc1 : cond1_1 i)
    (x0 : Vec F S512x2048 .f32) (x1 : Vec F S512x96 .bf16) (x2 : Vec F S96x2048 .bf16) (x3 : Vec F S96x2048 .bf16) (xs0 : Vec F S1x1x1 .f32) (y : S1x1x1.Idx) :
    ∃ pc ∈ (kernelRun1_C c i arg2 harg2 arg3 harg3 arg4 harg4 arg5 harg5 arg6 harg6 arg7 harg7 arg8 harg8 hc0 hc1 x0 x1 x2 x3 xs0).2.1, y ∈ pc.1.set :=
  View.cover_of_tiledL (kernelRun1_C c i arg2 harg2 arg3 harg3 arg4 harg4 arg5 harg5 arg6 harg6 arg7 harg7 arg8 harg8 hc0 hc1 x0 x1 x2 x3 xs0).2.1 S1x1x1.size (by sl_kernel_rfl) y

/-- What the body leaves in the sum buffer where the sum is stored: its pieces read back. -/
def out1_C_5 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : ¬cond1_0 i) (hc1 : cond1_1 i)
    (x0 : Vec F S512x2048 .f32) (x1 : Vec F S512x96 .bf16) (x2 : Vec F S96x2048 .bf16) (x3 : Vec F S96x2048 .bf16) (xs0 : Vec F S1x1x1 .f32) : Vec F S1x1x1 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 xs0).2.1)

/-- The pieces the body stores into the accumulator where the sum is stored tile it, so they cover it. -/
theorem scover1_C_0 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : ¬cond1_0 i) (hc1 : cond1_1 i)
    (x0 : Vec F S512x2048 .f32) (x1 : Vec F S512x96 .bf16) (x2 : Vec F S96x2048 .bf16) (x3 : Vec F S96x2048 .bf16) (xs0 : Vec F S1x1x1 .f32) (y : S1x1x1.Idx) :
    ∃ pc ∈ (kernelRun1_C c i arg2 harg2 arg3 harg3 arg4 harg4 arg5 harg5 arg6 harg6 arg7 harg7 arg8 harg8 hc0 hc1 x0 x1 x2 x3 xs0).2.2.1, y ∈ pc.1.set :=
  View.cover_of_tiledL (kernelRun1_C c i arg2 harg2 arg3 harg3 arg4 harg4 arg5 harg5 arg6 harg6 arg7 harg7 arg8 harg8 hc0 hc1 x0 x1 x2 x3 xs0).2.2.1 S1x1x1.size (by sl_kernel_rfl) y

/-- What the body leaves in the accumulator where the sum is stored: its pieces read back. -/
def sout1_C_0 (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : ¬cond1_0 i) (hc1 : cond1_1 i)
    (x0 : Vec F S512x2048 .f32) (x1 : Vec F S512x96 .bf16) (x2 : Vec F S96x2048 .bf16) (x3 : Vec F S96x2048 .bf16) (xs0 : Vec F S1x1x1 .f32) : Vec F S1x1x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 xs0).2.2.1)

/-! ## What the outputs and the accumulator hold after each point -/

/-- What the log-probability window's buffer, the sum window's buffer and the carried accumulator hold after the body at
    position `n`: the control case the point is in, run at the point's memrefs and input blocks, the accumulator coming
    in at what the point before left in it. -/
def outsAt1 (V : (c : Dev nD) → (b : Ref sig .tc) → Buf (Elt F) ((c : Thread nD τ).loc b)) (c : Dev nD) : (n : ℕ) → n < cfg1.N → Vec F S512x2048 .f32 × Vec F S1x1x1 .f32 × Vec F S1x1x1 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) % 4 = 3 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2.2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2.2)

/-- The region invariant before position `n`: before the first point the class's; afterwards the foreign scoped buffers
    at anything, the accumulator at what the point before left in it, and the generator register at some state. -/
def PhiS1 (V : (c : Dev nD) → (b : Ref sig .tc) → Buf (Elt F) ((c : Thread nD τ).loc b)) (c : Dev nD) : (n : ℕ) → n ≤ cfg1.N → sProp 𝕄
  | 0, _ => Pipeline.ΦA spec1 c
  | n + 1, hn => iprop(iprop(foreign1 (F := F) c ∗ owns (c : Thread nD τ) scM1_0 fullShare ((outsAt1 V c n hn).2.2)) ∗ (∃ r, prngReg c r))

variable (V : (c : Dev nD) → (b : Ref sig .tc) → Buf (Elt F) ((c : Thread nD τ).loc b))

/-- `outsAt1` at a point where the accumulator is reset: that case's contents. -/
theorem outsAt1_A (c : Dev nD) (t : Fin cfg1.N) (h0 : t.val % 4 = 0) (h1 : ¬t.val % 4 = 3) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a point that neither resets nor stores the sum: that case's contents, over what the point before left. -/
theorem outsAt1_B (c : Dev nD) (t : Fin cfg1.N) (h0 : ¬t.val % 4 = 0) (h1 : ¬t.val % 4 = 3) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point that stores the sum: that case's contents, over what the point before left. -/
theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2, out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(foreign1 (F := F) c ∗ owns (c : Thread nD τ) scM1_0 fullShare ((outsAt1 V c n hn).2.2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(foreign1 (F := F) c ∗ owns (c : Thread nD τ) scM1_0 fullShare ((outsAt1 V c (n - 1) (by omega)).2.2)) ∗ (∃ r, prngReg c r)) := by
  cases n with
  | zero => exact absurd rfl hz
  | succ n => rfl

/-! ## The pipeline's proof data -/

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' memrefs hold their blocks; the residue of the point's position says which control
    case the point is in, so that case's run applies; the invariant hands the body the accumulator at what the point
    before left (at anything at the first point) and takes it back at this point's contents, the foreign buffers and the
    generator register riding along; the sum window's buffer is handed back untouched where the window is idle; the core
    owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold out1_A_4 sout1_A_0; (try dsimp only)
      by_cases hz : t.val = 0
      · rw [PhiS1_castSucc V c t, PhiS1_zero V c _ _ hz, PhiA1_eq]
        iintro ⟨⟨⟨Hf, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        iintro ⟨H0, H1, H2, H3, ⟨%e4, H4⟩, H5, ⟨%es0, HS0⟩⟩
        isplitl [Hf HS0 Hg]
        · isplitl [Hf HS0]
          · isplitl [Hf]; · iexact Hf
            unfold owns; iexists _; isplitr
            swap; · iexact HS0
            ipureintro; exact View.read_writes_of_cover _ _ _ _ _ (scover1_A_0 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_A_4 c _ _ _ _ _ _ _ _ _ _ _ _ _ _ _ _ _ _ _ _ _)
        iexists _; iexact H5
      · rw [PhiS1_castSucc V c t, PhiS1_pos V c _ _ hz]
        iintro ⟨⟨⟨Hf, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexists _; iexact HS0
        iintro ⟨H0, H1, H2, H3, ⟨%e4, H4⟩, H5, ⟨%es0, HS0⟩⟩
        isplitl [Hf HS0 Hg]
        · isplitl [Hf HS0]
          · isplitl [Hf]; · iexact Hf
            unfold owns; iexists _; isplitr
            swap; · iexact HS0
            ipureintro; exact View.read_writes_of_cover _ _ _ _ _ (scover1_A_0 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_A_4 c _ _ _ _ _ _ _ _ _ _ _ _ _ _ _ _ _ _ _ _ _)
        iexists _; iexact H5
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_4 out1_C_5 sout1_C_0; (try dsimp only)
      by_cases hz : t.val = 0
      · exfalso; have hN : t.val < 64 := lt_of_lt_of_eq t.isLt (show cfg1.N = 64 from N_1); omega
      · rw [PhiS1_castSucc V c t, PhiS1_pos V c _ _ hz]
        iintro ⟨⟨⟨Hf, HS0⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) _).2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        iintro ⟨H0, H1, H2, H3, ⟨%e4, H4⟩, ⟨%e5, H5⟩, ⟨%es0, HS0⟩⟩
        isplitl [Hf HS0 Hg]
        · isplitl [Hf HS0]
          · isplitl [Hf]; · iexact Hf
            unfold owns; iexists _; isplitr
            swap; · iexact HS0
            ipureintro; exact View.read_writes_of_cover _ _ _ _ _ (scover1_C_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_C_4 c _ _ _ _ _ _ _ _ _ _ _ _ _ _ _ _ _ _ _ _ _ _)
        unfold owns; iexists _; isplitr
        swap; · iexact H5
        ipureintro; exact View.read_writes_of_cover _ _ _ _ _ (cover1_C_5 c _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold out1_B_4 sout1_B_0; (try dsimp only)
      by_cases hz : t.val = 0
      · exfalso; have hN : t.val < 64 := lt_of_lt_of_eq t.isLt (show cfg1.N = 64 from N_1); omega
      · rw [PhiS1_castSucc V c t, PhiS1_pos V c _ _ hz]
        iintro ⟨⟨⟨Hf, HS0⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        iintro ⟨H0, H1, H2, H3, ⟨%e4, H4⟩, H5, ⟨%es0, HS0⟩⟩
        isplitl [Hf HS0 Hg]
        · isplitl [Hf HS0]
          · isplitl [Hf]; · iexact Hf
            unfold owns; iexists _; isplitr
            swap; · iexact HS0
            ipureintro; exact View.read_writes_of_cover _ _ _ _ _ (scover1_B_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_B_4 c _ _ _ _ _ _ _ _ _ _ _ _ _ _ _ _ _ _ _ _ _ _)
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hf, HS0⟩, Hg⟩
  isplitl [Hf HS0]
  · isplitl [Hf]; · iexact Hf
    iexists _; iexact HS0
  iexact Hg

/-- After the last point the invariant gives the class's back. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.KI.Run.lean ====
/- The launch: @main as six segments (the table kernel's region, three stretches of host operations, the
   log-probability kernel's region, a last stretch) over the two regions' proof data; the buffer contents at every
   segment boundary, a fold from the launch memory; the run to a final state that agrees with the last boundary's
   contents at every unscoped buffer; the argument arrays read back through the fold to what the launch held. -/
import proofs.«405995_j80152679678262_3_alg».proof.Proof.KI.R0
import proofs.«405995_j80152679678262_3_alg».proof.Proof.KI.R1
import proofs.«405995_j80152679678262_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch (region 0's entry: @main opens with the table kernel's call). -/
abbrev W0 : Dev nD → Valuation τ sig (Elt F) := fun c b => (s₀ m ρ).mem ((c : Dev nD), b)
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references (region 0's exit contents). -/
abbrev V1 : (c : Dev nD) → (b : Ref sig .tc) → Buf (Elt F) ((c : Thread nD τ).loc b) := fun c b => W1 m ρ c b
/-- After the first stretch of host operations. -/
abbrev W2 : Dev nD → Valuation τ sig (Elt F) := fun c => StableHlo.after hostOps1 (W1 m ρ c)
/-- After the clamp's stretch. -/
abbrev W3 : Dev nD → Valuation τ sig (Elt F) := fun c => StableHlo.after hostOps1_1 (W2 m ρ c)
/-- After the one-hot's stretch (region 1's entry). -/
abbrev W4 : Dev nD → Valuation τ sig (Elt F) := fun c => StableHlo.after hostOps1_2 (W3 m ρ c)
/-- The same read at the TensorCore's references (what region 1's proof data take). -/
abbrev V4 : (c : Dev nD) → (b : Ref sig .tc) → Buf (Elt F) ((c : Thread nD τ).loc b) := fun c b => W4 m ρ c b
/-- At region 1's exit: its arrays at what the pipeline leaves, every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- The same read at the TensorCore's references (region 1's exit contents). -/
abbrev V5 : (c : Dev nD) → (b : Ref sig .tc) → Buf (Elt F) ((c : Thread nD τ).loc b) := fun c b => W5 m ρ c b
/-- After the last stretch (the sum of the per-row sums): what @main returns from. -/
abbrev W6 : Dev nD → Valuation τ sig (Elt F) := fun c => StableHlo.after hostOps2 (W5 m ρ c)

/-- At region 0's exit each of its arrays holds what the pipeline leaves and every other buffer what it held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- The same at region 1's exit. -/
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-! ### The arguments end as launched: no host operation writes one, and a region either reads it through an input
    window (whose array the pipeline leaves as entered) or bypasses it, so the fold at an argument's buffer walks back
    to the launch memory -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_writes_sub (r := main_arg0) hostOps2 _ hostOps2_writes (by decide)
    _ = W4 m ρ c (Proc.devRef .tc main_arg0) := W5_of_ne m ρ c main_arg0 (by decide)
    _ = W3 m ρ c (Proc.devRef .tc main_arg0) := StableHlo.after_of_writes_sub (r := main_arg0) hostOps1_2 _ hostOps1_2_writes (by decide)
    _ = W2 m ρ c (Proc.devRef .tc main_arg0) := StableHlo.after_of_writes_sub (r := main_arg0) hostOps1_1 _ hostOps1_1_writes (by decide)
    _ = W1 m ρ c (Proc.devRef .tc main_arg0) := StableHlo.after_of_writes_sub (r := main_arg0) hostOps1 _ hostOps1_writes (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_writes_sub (r := main_arg1) hostOps2 _ hostOps2_writes (by decide)
    _ = W4 m ρ c (Proc.devRef .tc main_arg1) := W5_of_ne m ρ c main_arg1 (by decide)
    _ = W3 m ρ c (Proc.devRef .tc main_arg1) := StableHlo.after_of_writes_sub (r := main_arg1) hostOps1_2 _ hostOps1_2_writes (by decide)
    _ = W2 m ρ c (Proc.devRef .tc main_arg1) := StableHlo.after_of_writes_sub (r := main_arg1) hostOps1_1 _ hostOps1_1_writes (by decide)
    _ = W1 m ρ c (Proc.devRef .tc main_arg1) := StableHlo.after_of_writes_sub (r := main_arg1) hostOps1 _ hostOps1_writes (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_writes_sub (r := main_arg2) hostOps2 _ hostOps2_writes (by decide)
    _ = W4 m ρ c (Proc.devRef .tc main_arg2) := W5_of_ne m ρ c main_arg2 (by decide)
    _ = W3 m ρ c (Proc.devRef .tc main_arg2) := StableHlo.after_of_writes_sub (r := main_arg2) hostOps1_2 _ hostOps1_2_writes (by decide)
    _ = W2 m ρ c (Proc.devRef .tc main_arg2) := StableHlo.after_of_writes_sub (r := main_arg2) hostOps1_1 _ hostOps1_1_writes (by decide)
    _ = W1 m ρ c (Proc.devRef .tc main_arg2) := StableHlo.after_of_writes_sub (r := main_arg2) hostOps1 _ hostOps1_writes (by decide)
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := StableHlo.after_of_writes_sub (r := main_arg3) hostOps2 _ hostOps2_writes (by decide)
    _ = W4 m ρ c (Proc.devRef .tc main_arg3) := (W5_arr m ρ c 0).trans (((dat1 (V4 m ρ) c).arrAt_in 0 rfl _).trans (A_eq1 (V4 m ρ) c 0))
    _ = W3 m ρ c (Proc.devRef .tc main_arg3) := StableHlo.after_of_writes_sub (r := main_arg3) hostOps1_2 _ hostOps1_2_writes (by decide)
    _ = W2 m ρ c (Proc.devRef .tc main_arg3) := StableHlo.after_of_writes_sub (r := main_arg3) hostOps1_1 _ hostOps1_1_writes (by decide)
    _ = W1 m ρ c (Proc.devRef .tc main_arg3) := StableHlo.after_of_writes_sub (r := main_arg3) hostOps1 _ hostOps1_writes (by decide)
    _ = W0 m ρ c (Proc.devRef .tc main_arg3) := W1_of_ne m ρ c main_arg3 (by decide)
    _ = m ((c : Thread nD τ).loc main_arg3) := rfl
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := StableHlo.after_of_writes_sub (r := main_arg4) hostOps2 _ hostOps2_writes (by decide)
    _ = W4 m ρ c (Proc.devRef .tc main_arg4) := W5_of_ne m ρ c main_arg4 (by decide)
    _ = W3 m ρ c (Proc.devRef .tc main_arg4) := StableHlo.after_of_writes_sub (r := main_arg4) hostOps1_2 _ hostOps1_2_writes (by decide)
    _ = W2 m ρ c (Proc.devRef .tc main_arg4) := StableHlo.after_of_writes_sub (r := main_arg4) hostOps1_1 _ hostOps1_1_writes (by decide)
    _ = W1 m ρ c (Proc.devRef .tc main_arg4) := StableHlo.after_of_writes_sub (r := main_arg4) hostOps1 _ hostOps1_writes (by decide)
    _ = W0 m ρ c (Proc.devRef .tc main_arg4) := W1_of_ne m ρ c main_arg4 (by decide)
    _ = m ((c : Thread nD τ).loc main_arg4) := rfl

/-! ## The proof data family and the thread state -/

/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-- What the last stretch leaves is the last thread state beside the core owing nothing. -/
theorem hlast (c : Dev nD) : iprop(StableHlo.held (c : Thread nD τ) (Pipeline.ucRefs τ sig) (W6 m ρ c) ∗ R c)
    ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

/-! ## The regions as segments -/

set_option backward.isDefEq.respectTransparency.types false in
/-- REGION 0 (the table kernel) over the thread state: entered from every unscoped buffer at the launch contents, left
    at `W1`. Its arrays split out of the unscoped buffers and put back at the exit contents; the generator register
    into the class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (the log-probability kernel) over the thread state: entered from every unscoped buffer at `W4`, left at
    `W5`. The class invariant, assembled from the generator register and the scoped buffers no window stages,
    enters the region's own invariant before the first point, and the invariant after the last point gives it back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (show Pipeline.ΦA spec1 c ⊢ (pdats m ρ 1 c).Φ 0 from hin1 (V4 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 6 segments in order: a region per pallas_call, a host segment per stretch from its boundary's contents. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .region (reg1 m ρ),
    .host (hseg hostOps2 hostOps2_sub hostOps2_fresh (W5 m ρ)) ]

set_option backward.isDefEq.respectTransparency.types false in
/-- THE RUN: from any memory with zero counters every weakly fair execution of @main on the TensorCores terminates,
    nothing faulting, and every final state holds, at every unscoped buffer of every core, the last boundary's contents:
    the launch over the segments, the last thread state read against the final state. -/
theorem run_vals : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, hlast m ρ⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h => h)

/-- THE FRAME: every final state has the argument arrays as launched, each read off the last boundary's contents
    and walked back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r hr c =>
    ⟨(hr c _ (mem_uc main_arg0 (by decide))).trans (W6_main_arg0 m ρ c),
     (hr c _ (mem_uc main_arg1 (by decide))).trans (W6_main_arg1 m ρ c),
     (hr c _ (mem_uc main_arg2 (by decide))).trans (W6_main_arg2 m ρ c),
     (hr c _ (mem_uc main_arg3 (by decide))).trans (W6_main_arg3 m ρ c),
     (hr c _ (mem_uc main_arg4 (by decide))).trans (W6_main_arg4 m ρ c)⟩) (run_vals m ρ)

end Cert.KernelIdeal.Hand

end
-- ==== Proof.Val.Spec.lean ====
/- The mathematics of the certificate, with no program in it: the two state tables, the row a day selects, the
   Gaussian log-density of one entry, and the two results as functions of the five argument arrays over the extended reals. -/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev Sa : Shape := ⟨2, ![32, 128]⟩
abbrev Sz : Shape := ⟨2, ![128, 8192]⟩
abbrev St : Shape := ⟨2, ![32, 8192]⟩
abbrev Sx : Shape := ⟨2, ![8192, 8192]⟩
abbrev Sd : Shape := ⟨1, ![8192]⟩
abbrev S0 : Shape := ⟨0, ![]⟩
abbrev Sk : Shape := ⟨2, ![96, 8192]⟩
abbrev So : Shape := ⟨2, ![8192, 96]⟩

/-- The mean table: state `s`, gene `g` ↦ Σ_t cell_prob[s,t] · Z_mu[t,g]. -/
def muT (cp : Sa.Idx → EReal) (zm : Sz.Idx → EReal) (s : Fin 32) (g : Fin 8192) : EReal :=
  ∑ k : Fin 128, cp (ix2 s k) * zm (ix2 k g)

/-- The scale table: Σ_t p²·σ + (Σ_t p·σ)² − Σ_t p²·σ², with p = cell_prob[s,·], σ = Z_sigma[·,g]. -/
def sgT (cp : Sa.Idx → EReal) (zs : Sz.Idx → EReal) (s : Fin 32) (g : Fin 8192) : EReal :=
  (∑ k : Fin 128, (cp (ix2 s k) * cp (ix2 s k)) * zs (ix2 k g))
    + (∑ k : Fin 128, cp (ix2 s k) * zs (ix2 k g)) * (∑ k : Fin 128, cp (ix2 s k) * zs (ix2 k g))
    - (∑ k : Fin 128, (cp (ix2 s k) * cp (ix2 s k)) * (zs (ix2 k g) * zs (ix2 k g)))

/-- The table row a day selects: day − 1 read as a signed integer, clamped into 0 … 31. -/
def rowOf (d : BitVec 32) : Fin 32 := ⟨min (d - 1#32).toInt.toNat 31, by omega⟩

/-- The Gaussian log-density of `x` at mean `m` and scale `s`: −½·((x − m)/s)² − log s − ½·log 2π, the two constants
    as the float words both programs carry. -/
def lpE (x m s : EReal) : EReal :=
  ((Ideal.ofBits .f32 0xBF000000#32 * Ideal.div (x - m) s) * Ideal.div (x - m) s - Ideal.log s)
    - Ideal.ofBits .f32 0x3F6B3F8E#32

/-- A 32-row table stacked over two zero copies: what the exact three-term split of a FINITE table is. -/
def stack (T : Fin 32 → Fin 8192 → EReal) : Sk.Idx → EReal :=
  fun i => if h : (i 0).val < 32 then T ⟨(i 0).val, h⟩ ⟨(i 1).val, idx2_lt1 i⟩ else 0

/-- The 0/1 selector of each sample's row, repeated three times along the contraction axis. -/
def onehot3 (row : Fin 8192 → Fin 32) : So.Idx → EReal :=
  fun i => if (i 1).val % 32 = (row ⟨(i 0).val, idx2_lt0 i⟩).val then 1 else 0

/-- The log-density array of `x` against two tables read at each sample's row. -/
def lpArr (x : Sx.Idx → EReal) (T1 T2 : Fin 32 → Fin 8192 → EReal) (row : Fin 8192 → Fin 32) : Sx.Idx → EReal :=
  fun i => lpE (x i) (T1 (row ⟨(i 0).val, idx2_lt0 i⟩) ⟨(i 1).val, idx2_lt1 i⟩)
    (T2 (row ⟨(i 0).val, idx2_lt0 i⟩) ⟨(i 1).val, idx2_lt1 i⟩)

/-- The sum of an 8192 × 8192 array over its block of 512 rows and 2048 columns at block position (a, b). -/
def blockSum (f : Sx.Idx → EReal) (a : Fin 16) (b : Fin 4) : EReal :=
  ∑ r : Fin 512, ∑ g : Fin 2048, f (ix2 (⟨a.val * 512 + r.val, by omega⟩ : Fin 8192) (⟨b.val * 2048 + g.val, by omega⟩ : Fin 8192))

/-- One row block's sum, accumulated over its four column blocks from zero, in the order the kernel adds them. -/
def rowSum (f : Sx.Idx → EReal) (a : Fin 16) : EReal :=
  (((0 + blockSum f a 0) + blockSum f a 1) + blockSum f a 2) + blockSum f a 3

/-- The second result: the log-density of every entry of X at its sample's state row. -/
def logpG (cp : Sa.Idx → EReal) (zm zs : Sz.Idx → EReal) (x : Sx.Idx → EReal) (day : Sd.Idx → BitVec 32) : Sx.Idx → EReal :=
  fun i => lpE (x i)
    (muT cp zm (rowOf (day (ix1 (⟨(i 0).val, idx2_lt0 i⟩ : Fin 8192)))) ⟨(i 1).val, idx2_lt1 i⟩)
    (sgT cp zs (rowOf (day (ix1 (⟨(i 0).val, idx2_lt0 i⟩ : Fin 8192)))) ⟨(i 1).val, idx2_lt1 i⟩)

/-- The first result: the sum of all of them (from the zero both programs start their sum at). -/
def totalG (cp : Sa.Idx → EReal) (zm zs : Sz.Idx → EReal) (x : Sx.Idx → EReal) (day : Sd.Idx → BitVec 32) : S0.Idx → EReal :=
  fun _ => 0 + ∑ i : Sx.Idx, logpG cp zm zs x day i

theorem logpG_eq (cp : Sa.Idx → EReal) (zm zs : Sz.Idx → EReal) (x : Sx.Idx → EReal) (day : Sd.Idx → BitVec 32) :
    logpG cp zm zs x day = lpArr x (muT cp zm) (sgT cp zs) (fun r => rowOf (day (ix1 r))) := rfl

end Cert.Spec

end
-- ==== Proof.Val.Laws.lean ====
/- Laws of the extended reals and of 32-bit words that the value proof uses, with no program in them: a real minus itself
   is zero (so the three-term split of a finite table has zero residues), the two state tables are finite when their
   arguments are, a 0/1 row contracted with a stacked table reads one row of it, the grand sum regroups into blocks, and
   the clamp of day − 1 into 0 … 31 read as a table row. -/
import proofs.«405995_j80152679678262_3_alg».proof.Proof.Val.Spec
import Mathlib.Data.EReal.Basic
import Mathlib.Data.EReal.Operations
import Mathlib.Algebra.BigOperators.Fin
import Mathlib.Algebra.BigOperators.Group.Finset.Basic
import Mathlib.Logic.Equiv.Fin.Basic

noncomputable section

namespace Cert.Spec

open Idealize.ShloMosaic Idealize.ShloMosaic.ValueIdx

/-! ## A real minus itself -/

theorem sub_self_real (a : ℝ) : ((a : EReal) - (a : EReal)) = 0 := by
  rw [← EReal.coe_sub, sub_self, EReal.coe_zero]

theorem split_residue_real (a : ℝ) : (((a : EReal) - a) - ((a : EReal) - a)) = 0 := by
  rw [sub_self_real, sub_zero]

/-! ## A 0/1 row against a stacked table -/

theorem onehot_contract (row : Fin 32) (v : Fin 32 → EReal) (oh tab : Fin 96 → EReal)
    (hoh : ∀ k : Fin 96, oh k = if k.val % 32 = row.val then 1 else 0)
    (htab : ∀ k : Fin 96, tab k = if h : k.val < 32 then v ⟨k.val, h⟩ else 0) :
    ∑ k : Fin 96, oh k * tab k = v row := by
  have h32 : row.val < 32 := row.isLt
  have hrow : row.val < 96 := by omega
  -- only the term k = row survives: the other k with k mod 32 = row lie in the two zero blocks of the stack
  rw [Finset.sum_eq_single (⟨row.val, hrow⟩ : Fin 96)]
  · rw [hoh, htab]
    have hm : row.val % 32 = row.val := Nat.mod_eq_of_lt h32
    rw [if_pos hm, dif_pos h32, one_mul]
  · intro k _ hk
    rw [hoh, htab]
    by_cases h1 : k.val % 32 = row.val
    · have h2 : ¬ k.val < 32 := by
        intro h
        apply hk
        apply Fin.ext
        show k.val = row.val
        omega
      rw [dif_neg h2, mul_zero]
    · rw [if_neg h1, zero_mul]
  · intro h
    exact absurd (Finset.mem_univ _) h

/-! ## Words: day − 1 clamped into 0 … 31 -/

theorem sub_one_toInt (d : BitVec 32) (hd : (1 : Int) ≤ d.toInt) : (d - 1#32).toInt = d.toInt - 1 := by
  have hlt : d.toInt < 2 ^ 31 := BitVec.toInt_lt (x := d)
  have h1 : (1#32 : BitVec 32).toInt = 1 := by decide
  -- 0 ≤ day − 1 < 2^31, so the balanced remainder modulo 2^32 leaves it alone
  rw [BitVec.toInt_sub, h1, Int.bmod_def]
  split <;> omega

theorem sub_one_not_neg (d : BitVec 32) (hd : (1 : Int) ≤ d.toInt) : ¬ ((d - 1#32).toInt < 0) := by
  rw [sub_one_toInt d hd]
  omega

theorem rowOf_val (d : BitVec 32) (hd : (1 : Int) ≤ d.toInt) : (rowOf d).val = min (d.toInt - 1).toNat 31 := by
  show min (d - 1#32).toInt.toNat 31 = _
  rw [sub_one_toInt d hd]

theorem clip_eq_iff (d : BitVec 32) (hd : (1 : Int) ≤ d.toInt) (k : Fin 32) :
    IntOp.minsi 31#32 (IntOp.maxsi 0#32 (d - 1#32)) = BitVec.ofNat 32 k.val ↔ k = rowOf d := by
  have hx := sub_one_toInt d hd
  have hlt : d.toInt < 2 ^ 31 := BitVec.toInt_lt (x := d)
  have h0 : (0#32 : BitVec 32).toInt = 0 := by decide
  have h31 : (31#32 : BitVec 32).toInt = 31 := by decide
  -- day − 1 is not negative, so the maximum with 0 is day − 1 itself
  have hmax : IntOp.maxsi 0#32 (d - 1#32) = d - 1#32 := by
    unfold IntOp.maxsi
    rw [if_neg]
    rw [BitVec.slt, decide_eq_true_eq, h0, hx]
    omega
  -- and as a natural number it is day − 1
  have hnat : ((d - 1#32).toNat : Int) = d.toInt - 1 := by
    have hc := BitVec.toInt_eq_toNat_cond (d - 1#32)
    rw [hx] at hc
    split at hc <;> omega
  rw [hmax, Fin.ext_iff, rowOf_val d hd]
  unfold IntOp.minsi
  by_cases hs : (31#32 : BitVec 32).slt (d - 1#32) = true
  · rw [if_pos hs]
    rw [BitVec.slt, decide_eq_true_eq, h31, hx] at hs
    constructor
    · intro h
      have h' := congrArg BitVec.toNat h
      rw [BitVec.toNat_ofNat, BitVec.toNat_ofNat] at h'
      omega
    · intro h
      have hk : k.val = 31 := by omega
      rw [hk]
  · rw [if_neg hs]
    rw [BitVec.slt, decide_eq_true_eq, h31, hx] at hs
    constructor
    · intro h
      have h' := congrArg BitVec.toNat h
      rw [BitVec.toNat_ofNat] at h'
      omega
    · intro h
      apply BitVec.eq_of_toNat_eq
      rw [BitVec.toNat_ofNat]
      omega

/-- The equality comparison of two words is the bit 1 exactly when they are equal. -/
theorem cmpi_eq_one_iff (x y : BitVec 32) : IntOp.cmpi .eq x y = 1#1 ↔ x = y := by
  show BitVec.ofBool (x == y) = 1#1 ↔ x = y
  by_cases h : x = y
  · rw [h, beq_self_eq_true]
    exact ⟨fun _ => rfl, fun _ => rfl⟩
  · rw [beq_eq_false_iff_ne.mpr h]
    exact ⟨fun h' => absurd h' (by decide), fun h' => absurd h' h⟩

/-- The clamp with the subtraction written as the word operation. -/
theorem clip_subi_eq_iff (d : BitVec 32) (hd : (1 : Int) ≤ d.toInt) (k : Fin 32) :
    IntOp.minsi 31#32 (IntOp.maxsi 0#32 (IntOp.subi d 1#32)) = BitVec.ofNat 32 k.val ↔ k = rowOf d :=
  clip_eq_iff d hd k

/-- The clamp compared with a row number, as a bit. -/
theorem cmpi_clip_eq_one_iff (d : BitVec 32) (hd : (1 : Int) ≤ d.toInt) (k : Fin 32) :
    IntOp.cmpi .eq (IntOp.minsi 31#32 (IntOp.maxsi 0#32 (d - 1#32))) (BitVec.ofNat 32 k.val) = 1#1 ↔ k = rowOf d :=
  (cmpi_eq_one_iff _ _).trans (clip_eq_iff d hd k)

/-! ## The two tables are finite -/

/-- A product of two reals is a real. -/
theorem isReal_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- A sum of two reals is a real. -/
theorem isReal_add {a b : EReal} (ha : ∃ r : ℝ, a = (r : EReal)) (hb : ∃ r : ℝ, b = (r : EReal)) :
    ∃ r : ℝ, a + b = (r : EReal) := by
  obtain ⟨x, rfl⟩ := ha
  obtain ⟨y, rfl⟩ := hb
  exact ⟨x + y, (EReal.coe_add x y).symm⟩

/-- A difference of two reals is a real. -/
theorem isReal_sub {a b : EReal} (ha : ∃ r : ℝ, a = (r : EReal)) (hb : ∃ r : ℝ, b = (r : EReal)) :
    ∃ r : ℝ, a - b = (r : EReal) := by
  obtain ⟨x, rfl⟩ := ha
  obtain ⟨y, rfl⟩ := hb
  exact ⟨x - y, (EReal.coe_sub x y).symm⟩

/-- A finite sum of reals is a real. -/
theorem isReal_sum {ι : Type} (s : Finset ι) (f : ι → EReal) (h : ∀ i, ∃ r : ℝ, f i = (r : EReal)) :
    ∃ r : ℝ, ∑ i ∈ s, f i = (r : EReal) := by
  classical
  induction s using Finset.induction_on with
  | empty => exact ⟨0, by rw [Finset.sum_empty, EReal.coe_zero]⟩
  | insert a s ha ih =>
    rw [Finset.sum_insert ha]
    exact isReal_add (h a) ih

theorem muT_real {cp : Sa.Idx → EReal} {zm : Sz.Idx → EReal} (hcp : ∀ i, ∃ r : ℝ, cp i = (r : EReal))
    (hzm : ∀ i, ∃ r : ℝ, zm i = (r : EReal)) (s : Fin 32) (g : Fin 8192) : ∃ r : ℝ, muT cp zm s g = (r : EReal) := by
  unfold muT
  exact isReal_sum _ _ fun k => isReal_mul (hcp _) (hzm _)

theorem sgT_real {cp : Sa.Idx → EReal} {zs : Sz.Idx → EReal} (hcp : ∀ i, ∃ r : ℝ, cp i = (r : EReal))
    (hzs : ∀ i, ∃ r : ℝ, zs i = (r : EReal)) (s : Fin 32) (g : Fin 8192) : ∃ r : ℝ, sgT cp zs s g = (r : EReal) := by
  unfold sgT
  have hlin : ∃ r : ℝ, (∑ k : Fin 128, cp (ix2 s k) * zs (ix2 k g)) = (r : EReal) :=
    isReal_sum _ _ fun k => isReal_mul (hcp _) (hzs _)
  exact isReal_sub
    (isReal_add (isReal_sum _ _ fun k => isReal_mul (isReal_mul (hcp _) (hcp _)) (hzs _)) (isReal_mul hlin hlin))
    (isReal_sum _ _ fun k => isReal_mul (isReal_mul (hcp _) (hcp _)) (isReal_mul (hzs _) (hzs _)))

/-! ## The grand sum by blocks -/

/-- The 8192 rows as 16 blocks of 512. -/
def rowBlk : Fin 16 × Fin 512 ≃ Fin 8192 where
  toFun p := ⟨p.1.val * 512 + p.2.val, by omega⟩
  invFun x := (⟨x.val / 512, by omega⟩, ⟨x.val % 512, by omega⟩)
  left_inv p := by
    apply Prod.ext
    · apply Fin.ext
      show (p.1.val * 512 + p.2.val) / 512 = p.1.val
      omega
    · apply Fin.ext
      show (p.1.val * 512 + p.2.val) % 512 = p.2.val
      omega
  right_inv x := by
    apply Fin.ext
    show x.val / 512 * 512 + x.val % 512 = x.val
    omega

/-- The 8192 columns as 4 blocks of 2048. -/
def colBlk : Fin 4 × Fin 2048 ≃ Fin 8192 where
  toFun p := ⟨p.1.val * 2048 + p.2.val, by omega⟩
  invFun x := (⟨x.val / 2048, by omega⟩, ⟨x.val % 2048, by omega⟩)
  left_inv p := by
    apply Prod.ext
    · apply Fin.ext
      show (p.1.val * 2048 + p.2.val) / 2048 = p.1.val
      omega
    · apply Fin.ext
      show (p.1.val * 2048 + p.2.val) % 2048 = p.2.val
      omega
  right_inv x := by
    apply Fin.ext
    show x.val / 2048 * 2048 + x.val % 2048 = x.val
    omega

/-- The sum over the whole array is the sum over the 16 row blocks of each block's four column-block sums added from
    zero: addition of extended reals is commutative and associative, so no finiteness is needed. -/
theorem sum_blocks (f : Sx.Idx → EReal) : ∑ i : Sx.Idx, f i = ∑ a : Fin 16, rowSum f a := by
  rw [sum_idx2 f, ← Equiv.sum_comp rowBlk (fun x => ∑ y : Fin 8192, f (ix2 x y)), Fintype.sum_prod_type]
  refine Finset.sum_congr rfl fun a _ => ?_
  have hcol : ∀ r : Fin 512, ∑ y : Fin 8192, f (ix2 (rowBlk (a, r)) y)
      = ∑ b : Fin 4, ∑ g : Fin 2048, f (ix2 (rowBlk (a, r)) (colBlk (b, g))) := by
    intro r
    rw [← Equiv.sum_comp colBlk (fun y => f (ix2 (rowBlk (a, r)) y)), Fintype.sum_prod_type]
  rw [Finset.sum_congr rfl fun r _ => hcol r, Finset.sum_comm, Fin.sum_univ_four]
  unfold rowSum blockSum
  rw [zero_add]
  rfl

/-! ## The 0/1 selector against the stacked table -/

/-- Row `r` of the selector contracted with column `g` of the stacked table is the table at that sample's row. -/
theorem onehot3_contract (row : Fin 8192 → Fin 32) (T : Fin 32 → Fin 8192 → EReal) (r g : Fin 8192) :
    ∑ k : Fin 96, onehot3 row (ix2 r k) * stack T (ix2 k g) = T (row r) g :=
  onehot_contract (row r) (fun s => T s g) (fun k => onehot3 row (ix2 r k)) (fun k => stack T (ix2 k g))
    (fun _ => rfl) (fun _ => rfl)

end Cert.Spec

end
-- ==== Proof.Val.Sel.lean ====
/- The 0/1 selector of each sample's table row as @main's host operations build it from the day vector: day − 1 clamped
   into 0 … 31, laid along 32 columns and compared with the column number, the bit made a float, three copies side by side.
   Read at an index it is 1 exactly where the column number modulo 32 is the sample's row. -/
import proofs.«405995_j80152679678262_3_alg».proof.Proof.Gen.KernelIdeal.Launch
import proofs.«405995_j80152679678262_3_alg».proof.Proof.Val.Spec
import proofs.«405995_j80152679678262_3_alg».proof.Proof.Val.Laws
import Idealize.ShloMosaic.Lib.StableHlo.Run
import Idealize.ShloMosaic.Lib.ValueIdx
import Idealize.ShloMosaic.Lib.Pipeline.Value

set_option maxRecDepth 16384

noncomputable section

namespace Cert.KernelIdeal.Val

open Cert.KernelIdeal Cert.KernelIdeal.Gen Idealize.ShloMosaic Idealize.ShloMosaic.TcCoe
open Idealize.ShloMosaic.ValueIdx Idealize.SL.Sem

/-! ## The selector as a term: the host's spelling of it, read at an index -/

/-- The clamp of day − 1 into 0 … 31 as the host operations spell it: three scalar constants broadcast along the samples,
    a subtraction, a maximum and a minimum. -/
def clipDay (day : IVec S8192 32) : IVec S8192 32 :=
  minsi (broadcastInDim S8192 ![] bcast_S_S8192 (constantI S_ 32 31#32))
    (maxsi (broadcastInDim S8192 ![] bcast_S_S8192 (constantI S_ 32 0#32))
      (subi day (broadcastInDim S8192 ![] bcast_S_S8192 (constantI S_ 32 1#32))))

/-- At sample `r` it is the word min 31 (max 0 (day r − 1)). -/
theorem clipDay_apply (day : IVec S8192 32) (r : Fin 8192) :
    clipDay day (ix1 r) = IntOp.minsi 31#32 (IntOp.maxsi 0#32 (day (ix1 r) - 1#32)) := rfl

/-- The 0/1 selector of each sample's clamped row among 32 columns: the clamp laid along the rows, compared with the
    column number, the bit converted to a float. -/
def sel32 (day : IVec S8192 32) : FVec Ideal S8192x32 .bf16 :=
  uitofp .bf16 (cmpi .eq
    (broadcastInDim S8192x32 ![0, 1] bcast_S8192x1_S8192x32_0_1 (broadcastInDim S8192x1 ![0] bcast_S8192_S8192x1_0 (clipDay day)))
    (iotaInDim S8192x32 32 1))

/-- At (r, k): the bit "the clamp at sample r is the word k", as an unsigned integer made a float. -/
theorem sel32_apply (day : IVec S8192 32) (r : Fin 8192) (k : Fin 32) :
    sel32 day (ix2 r k) = FloatOps.uitofp (F := Ideal) .bf16 (IntOp.cmpi .eq (clipDay day (ix1 r)) (BitVec.ofNat 32 k.val)) := by
  unfold sel32
  show FloatOps.uitofp (F := Ideal) .bf16 (IntOp.cmpi .eq (broadcastInDim S8192x32 ![0, 1] bcast_S8192x1_S8192x32_0_1 (broadcastInDim S8192x1 ![0] bcast_S8192_S8192x1_0 (clipDay day)) (ix2 r k)) (iotaInDim S8192x32 32 1 (ix2 r k))) = _
  have e1 : broadcastInDim S8192x32 ![0, 1] bcast_S8192x1_S8192x32_0_1 (broadcastInDim S8192x1 ![0] bcast_S8192_S8192x1_0 (clipDay day)) (ix2 r k)
      = broadcastInDim S8192x1 ![0] bcast_S8192_S8192x1_0 (clipDay day) (ix2 r (0 : Fin 1)) :=
    broadcastInDim_apply _ bcast_S8192x1_S8192x32_0_1 _ (ix2 r k) (ix2 r (0 : Fin 1)) (fun a => match a with
      | ⟨0, _⟩ => by show r.val = if (8192 : Nat) = 1 then 0 else r.val; rw [if_neg (by decide)]
      | ⟨1, _⟩ => by show (0 : Nat) = if (1 : Nat) = 1 then 0 else k.val; rw [if_pos rfl])
  have e2 : broadcastInDim S8192x1 ![0] bcast_S8192_S8192x1_0 (clipDay day) (ix2 r (0 : Fin 1)) = clipDay day (ix1 r) :=
    broadcastInDim_apply _ bcast_S8192_S8192x1_0 _ (ix2 r (0 : Fin 1)) (ix1 r) (fun a => match a with
      | ⟨0, _⟩ => by show r.val = if (8192 : Nat) = 1 then 0 else r.val; rw [if_neg (by decide)])
  rw [e1, e2]
  rfl

/-- Three copies of the 32-column selector side by side. -/
def sel96 (day : IVec S8192 32) : FVec Ideal S8192x96 .bf16 :=
  concatenate S8192x96 1 [⟨S8192x32, sel32 day⟩, ⟨S8192x32, sel32 day⟩, ⟨S8192x32, sel32 day⟩]
    concatenates_S8192x32_S8192x32_S8192x32_S8192x96_d1

/-- Column k of the 96 is column k mod 32 of the 32. -/
theorem sel96_apply (day : IVec S8192 32) (r : Fin 8192) (k : Fin 96) :
    sel96 day (ix2 r k) = sel32 day (ix2 r (⟨k.val % 32, Nat.mod_lt _ (by decide)⟩ : Fin 32)) :=
  concatenate_replicate_apply (α := EReal) (t := S8192x96) (s₁ := S8192x32) (1 : Fin S8192x96.rank) 3 (sel32 day)
    concatenates_S8192x32_S8192x32_S8192x32_S8192x96_d1 rfl (ix2 r k) (ix2 r (⟨k.val % 32, Nat.mod_lt _ (by decide)⟩ : Fin 32))
    rfl
    (fun b => match b with
      | ⟨0, _⟩ => fun _ => rfl
      | ⟨1, _⟩ => fun h => absurd rfl h)

/-- A bit made a float is the integer 0 or 1 exactly. -/
theorem uitofp_bit (b : BitVec 1) : FloatOps.uitofp (F := Ideal) .bf16 b = if b = 1#1 then 1 else 0 := by
  rcases BitVec.eq_zero_or_eq_one b with h | h
  · subst h
    rw [if_neg (by decide)]
    show (((0 : ℕ) : ℝ) : EReal) = 0
    rw [Nat.cast_zero, EReal.coe_zero]
  · subst h
    rw [if_pos rfl]
    show (((1 : ℕ) : ℝ) : EReal) = 1
    rw [Nat.cast_one, EReal.coe_one]

/-- Where every day is at least 1 the host's selector is the 0/1 selector of each sample's row, three times over. -/
theorem sel96_eq (day : IVec S8192 32) (hday : ∀ j : S8192.Idx, (1 : Int) ≤ (day j).toInt) :
    sel96 day = Cert.Spec.onehot3 (fun r => Cert.Spec.rowOf (day (ix1 r))) := by
  funext i
  obtain ⟨r, k, rfl⟩ : ∃ (r : Fin 8192) (k : Fin 96), i = ix2 r k := ⟨i 0, i 1, eq_ix2 i⟩
  rw [sel96_apply, sel32_apply, clipDay_apply, uitofp_bit]
  show _ = if k.val % 32 = (Cert.Spec.rowOf (day (ix1 r))).val then (1 : EReal) else 0
  by_cases h : (⟨k.val % 32, Nat.mod_lt _ (by decide)⟩ : Fin 32) = Cert.Spec.rowOf (day (ix1 r))
  · rw [if_pos ((Cert.Spec.cmpi_clip_eq_one_iff (day (ix1 r)) (hday (ix1 r)) _).mpr h), if_pos (congrArg Fin.val h)]
  · rw [if_neg (fun h' => h ((Cert.Spec.cmpi_clip_eq_one_iff (day (ix1 r)) (hday (ix1 r)) _).mp h')), if_neg (fun h' => h (Fin.ext h'))]

/-! ## The three stretches of host operations before region 1 leave it in the selector's buffer -/

/-- From any contents, after the subtraction's, the clamp's and the one-hot's stretches the selector's buffer holds the
    selector of the day argument's contents. -/
theorem after_v9 (G : Valuation τ sig (Elt Ideal)) :
    (StableHlo.after hostOps1_2 (StableHlo.after hostOps1_1 (StableHlo.after hostOps1 G)) (Proc.devRef .tc main_v9) : S8192x96.Idx → EReal)
      = sel96 (G (Proc.devRef .tc main_arg4) : S8192.Idx → BitVec 32) := by
  simp only [hostOps1, hostOps1_1, hostOps1_2]
  after_results
  -- the concatenation's three operands are one buffer: name it at each literal position, then read it as the others
  dsimp only [Matrix.cons_val_zero, Matrix.cons_val_one, Matrix.cons_val_two, Matrix.vecHead, Matrix.vecTail, Function.comp_apply,
    Matrix.cons_val_succ]
  repeat (first
    | rw [StableHlo.nullary_result] | rw [StableHlo.unary_result] | rw [StableHlo.binary_result]
    | (rw [StableHlo.nullary_result_ne]; rotate_left; decide)
    | (rw [StableHlo.unary_result_ne]; rotate_left; decide)
    | (rw [StableHlo.binary_result_ne]; rotate_left; decide))
  unfold sel96 sel32 clipDay
  rfl

end Cert.KernelIdeal.Val

end
-- ==== Proof.Val.Fold.lean ====
/- What @main's host operations leave in the buffers the two kernel regions read: the arguments and the two stacked
   tables reach the regions as they are, and the day vector becomes the 0/1 selector of each sample's row, three copies
   side by side. -/
import proofs.«405995_j80152679678262_3_alg».proof.Proof.KI.Run
import proofs.«405995_j80152679678262_3_alg».proof.Proof.Val.Spec
import proofs.«405995_j80152679678262_3_alg».proof.Proof.Val.Laws
import proofs.«405995_j80152679678262_3_alg».proof.Proof.Val.Sel
import Idealize.ShloMosaic.Lib.StableHlo.Run
import Idealize.ShloMosaic.Lib.ValueIdx

set_option maxRecDepth 16384

noncomputable section

namespace Cert.KernelIdeal.Val

open Cert.KernelIdeal Cert.KernelIdeal.Gen Cert.KernelIdeal.Hand Idealize.ShloMosaic Idealize.ShloMosaic.TcCoe
open Idealize.ShloMosaic.ValueIdx Idealize.SL.Sem

variable (m : (ℓ : Loc nD τ sig) → Buf (Elt Ideal) ℓ) (ρ : Dev nD → PrngReg) (c : Dev nD)

/-! ## The regions' entry contents at the buffers no host operation writes -/

theorem V0_arg0 : V0 m ρ c main_arg0 = m ((c : Thread nD τ).loc main_arg0) := rfl
theorem V0_arg1 : V0 m ρ c main_arg1 = m ((c : Thread nD τ).loc main_arg1) := rfl
theorem V0_arg2 : V0 m ρ c main_arg2 = m ((c : Thread nD τ).loc main_arg2) := rfl

/-- The sample array reaches region 1 as launched: no host operation writes it and it is no array of region 0. -/
theorem V4_arg3 : V4 m ρ c main_arg3 = m ((c : Thread nD τ).loc main_arg3) :=
  calc W4 m ρ c (Proc.devRef .tc main_arg3)
    _ = W3 m ρ c (Proc.devRef .tc main_arg3) := StableHlo.after_of_writes_sub (r := main_arg3) hostOps1_2 _ hostOps1_2_writes (by decide)
    _ = W2 m ρ c (Proc.devRef .tc main_arg3) := StableHlo.after_of_writes_sub (r := main_arg3) hostOps1_1 _ hostOps1_1_writes (by decide)
    _ = W1 m ρ c (Proc.devRef .tc main_arg3) := StableHlo.after_of_writes_sub (r := main_arg3) hostOps1 _ hostOps1_writes (by decide)
    _ = W0 m ρ c (Proc.devRef .tc main_arg3) := W1_of_ne m ρ c main_arg3 (by decide)
    _ = m ((c : Thread nD τ).loc main_arg3) := rfl

/-- The two stacked tables reach region 1 as region 0 left them: no host operation writes them. -/
theorem V4_v0_0 : V4 m ρ c main_v0_0 = (dat0 (V0 m ρ) c).arrAt 3 cfg0.N :=
  calc W4 m ρ c (Proc.devRef .tc main_v0_0)
    _ = W3 m ρ c (Proc.devRef .tc main_v0_0) := StableHlo.after_of_writes_sub (r := main_v0_0) hostOps1_2 _ hostOps1_2_writes (by decide)
    _ = W2 m ρ c (Proc.devRef .tc main_v0_0) := StableHlo.after_of_writes_sub (r := main_v0_0) hostOps1_1 _ hostOps1_1_writes (by decide)
    _ = W1 m ρ c (Proc.devRef .tc main_v0_0) := StableHlo.after_of_writes_sub (r := main_v0_0) hostOps1 _ hostOps1_writes (by decide)
    _ = (dat0 (V0 m ρ) c).arrAt 3 cfg0.N := W1_arr m ρ c 3
theorem V4_v0_1 : V4 m ρ c main_v0_1 = (dat0 (V0 m ρ) c).arrAt 4 cfg0.N :=
  calc W4 m ρ c (Proc.devRef .tc main_v0_1)
    _ = W3 m ρ c (Proc.devRef .tc main_v0_1) := StableHlo.after_of_writes_sub (r := main_v0_1) hostOps1_2 _ hostOps1_2_writes (by decide)
    _ = W2 m ρ c (Proc.devRef .tc main_v0_1) := StableHlo.after_of_writes_sub (r := main_v0_1) hostOps1_1 _ hostOps1_1_writes (by decide)
    _ = W1 m ρ c (Proc.devRef .tc main_v0_1) := StableHlo.after_of_writes_sub (r := main_v0_1) hostOps1 _ hostOps1_writes (by decide)
    _ = (dat0 (V0 m ρ) c).arrAt 4 cfg0.N := W1_arr m ρ c 4

/-! ## The selector in region 1's window -/

/-- Where every day is at least 1, region 1's selector window holds the 0/1 selector of each sample's row, three times
    over: the three stretches of host operations build it from the day argument, which region 0 leaves as launched. -/
theorem V4_v9 (hday : ∀ j : S8192.Idx, (1 : Int) ≤ ((m ((c.tc : Thread nD τ).loc main_arg4) : S8192.Idx → BitVec 32) j).toInt) :
    (V4 m ρ c main_v9 : S8192x96.Idx → EReal)
      = Cert.Spec.onehot3 (fun r => Cert.Spec.rowOf ((m ((c.tc : Thread nD τ).loc main_arg4) : S8192.Idx → BitVec 32) (ix1 r))) := by
  have harg : W1 m ρ c (Proc.devRef .tc main_arg4) = m ((c.tc : Thread nD τ).loc main_arg4) := W1_of_ne m ρ c main_arg4 (by decide)
  refine (after_v9 (W1 m ρ c)).trans ?_
  rw [harg]
  exact sel96_eq _ hday

end Cert.KernelIdeal.Val

end
-- ==== Proof.Val.FoldOut.lean ====
/- What the kernel program's last buffer contents hold at its two results: the log-probability array is what the
   second region's pipeline leaves in its fifth window's array (the last stretch of host operations writes elsewhere),
   and the total is zero plus the sum, over the sixteen row blocks, of what the pipeline leaves in the per-row-sum
   array (the last stretch sums that array from zero and reshapes a scalar to a scalar). -/
import proofs.«405995_j80152679678262_3_alg».proof.Proof.KI.Run
import Idealize.ShloMosaic.PureOps.Ideal.Laws
import Idealize.ShloMosaic.Lib.StableHlo.Run
import Idealize.ShloMosaic.Lib.ValueIdx

set_option maxRecDepth 16384

noncomputable section

namespace Cert.KernelIdeal.Val

open Cert.KernelIdeal Cert.KernelIdeal.Gen Cert.KernelIdeal.Hand Idealize.ShloMosaic Idealize.ShloMosaic.TcCoe
  Idealize.ShloMosaic.ValueIdx Idealize.SL.Sem

section AnyValues

variable {F : FTy → Type} [FloatOps F]
variable (m : (ℓ : Loc nD τ sig) → Buf (Elt F) ℓ) (ρ : Dev nD → PrngReg) (c : Dev nD)

/-- The log-probability array at the end: the last stretch does not write it, and it is the array of the second
    region's fifth window, which ends at what the pipeline leaves there. -/
theorem W6_v10_0 : W6 m ρ c (Proc.devRef .tc main_v10_0) = (dat1 (V4 m ρ) c).arrAt (4 : Fin cfg1.W) cfg1.N :=
  calc W6 m ρ c (Proc.devRef .tc main_v10_0)
    _ = W5 m ρ c (Proc.devRef .tc main_v10_0) :=
        StableHlo.after_of_writes_sub (r := main_v10_0) hostOps2 _ hostOps2_writes (by decide)
    _ = (dat1 (V4 m ρ) c).arrAt (4 : Fin cfg1.W) cfg1.N := W5_arr m ρ c 4

end AnyValues

section AtIdeal

variable (m : (ℓ : Loc nD τ sig) → Buf (Elt Ideal) ℓ) (ρ : Dev nD → PrngReg) (c : Dev nD)

/-- The host's sum of a [16, 1, 1] array over all three axes, started at the float word zero: zero plus the sum of
    every entry. -/
theorem sum_from_zero (x : S16x1x1.Idx → EReal) (j : S_.Idx) :
    Host.reduceAdd (F := Ideal) x (constant (F := Ideal) S_ .f32 0x00000000#32) reducesTo_S16x1x1_S_d0_1_2 h_S_ j
      = 0 + ∑ a, x a := by
  simp only [Host.reduceAdd, Ideal.hostReduceAdd_def]
  rw [Ideal.hostReduceAdd_total reducesTo_S16x1x1_S_d0_1_2 (fun b => b.elim0)]
  exact congrArg (· + ∑ a, x a) Ideal.ofBits_zero_f32

/-- The total at the end: zero plus the sum of the sixteen per-row sums the pipeline leaves (A names that array as a
    function on its literal index set). -/
theorem W6_v12 (A : S16x1x1.Idx → EReal) (hA : (dat1 (V4 m ρ) c).arrAt (5 : Fin cfg1.W) cfg1.N = A) :
    W6 m ρ c (Proc.devRef .tc main_v12) = fun _ => 0 + ∑ a : S16x1x1.Idx, A a := by
  show StableHlo.after hostOps2 (W5 m ρ c) (Proc.devRef .tc main_v12) = _
  after_results
  refine funext fun i => ?_
  refine (sum_from_zero _ _).trans ?_
  exact congrArg (fun f : S16x1x1.Idx → EReal => 0 + ∑ a, f a) ((W5_arr m ρ c 5).trans hA)

end AtIdeal

end Cert.KernelIdeal.Val

end
-- ==== Proof.Val.K0.lean ====
/- Region 0's two output arrays after the region, read at the extended reals: each is its 32-row state table stacked
   over two zero copies. The body stores, per table, the three-term split T, T − T, (T − T) − (T − T) of the table T it
   computes by a contraction over the 128 cell types; T is finite when the arguments are, so the two residues vanish. -/
import proofs.«405995_j80152679678262_3_alg».proof.Proof.KI.R0
import proofs.«405995_j80152679678262_3_alg».proof.Proof.Val.Spec
import proofs.«405995_j80152679678262_3_alg».proof.Proof.Val.Laws
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand
open Cert.Spec (muT sgT stack)

/-! ## The contraction over the 128 cell types, read at an index -/

theorem lhs_tab_0 (i : S32x8192.Idx) (q : dot_S32x128_S128x8192_S32x8192_1_0_0_1_n_n.contr.Idx) :
    (dot_S32x128_S128x8192_S32x8192_1_0_0_1_n_n.lhsIdx i q 0).val = (i 0).val := by
  unfold DotDims.lhsIdx
  rw [dif_neg (show ¬(0 : Fin S32x128.rank) ∈ dot_S32x128_S128x8192_S32x8192_1_0_0_1_n_n.lhsBatch by decide), dif_pos (show (0 : Fin S32x128.rank) ∈ dot_S32x128_S128x8192_S32x8192_1_0_0_1_n_n.lhsNonContracting by decide)]
  rfl
theorem lhs_tab_1 (i : S32x8192.Idx) (q : dot_S32x128_S128x8192_S32x8192_1_0_0_1_n_n.contr.Idx) :
    (dot_S32x128_S128x8192_S32x8192_1_0_0_1_n_n.lhsIdx i q 1).val = (q ⟨0, by decide⟩).val :=
  dot_S32x128_S128x8192_S32x8192_1_0_0_1_n_n.lhsIdx_val_of_single rfl i q
theorem rhs_tab_0 (i : S32x8192.Idx) (q : dot_S32x128_S128x8192_S32x8192_1_0_0_1_n_n.contr.Idx) :
    (dot_S32x128_S128x8192_S32x8192_1_0_0_1_n_n.rhsIdx i q 0).val = (q ⟨0, by decide⟩).val :=
  dot_S32x128_S128x8192_S32x8192_1_0_0_1_n_n.rhsIdx_val_of_single rfl i q
theorem rhs_tab_1 (i : S32x8192.Idx) (q : dot_S32x128_S128x8192_S32x8192_1_0_0_1_n_n.contr.Idx) :
    (dot_S32x128_S128x8192_S32x8192_1_0_0_1_n_n.rhsIdx i q 1).val = (i 1).val := by
  unfold DotDims.rhsIdx
  rw [dif_neg (show ¬(1 : Fin S128x8192.rank) ∈ dot_S32x128_S128x8192_S32x8192_1_0_0_1_n_n.rhsBatch by decide), dif_pos (show (1 : Fin S128x8192.rank) ∈ dot_S32x128_S128x8192_S32x8192_1_0_0_1_n_n.rhsNonContracting by decide)]
  rfl

/-- A 32×128 matrix times a 128×8192 matrix, accumulated into zero. -/
abbrev tab (a : S32x128.Idx → EReal) (b : S128x8192.Idx → EReal) : S32x8192.Idx → EReal :=
  matmul (F := Ideal) (φ₁ := .f32) (φ₂ := .f32) dot_S32x128_S128x8192_S32x8192_1_0_0_1_n_n (some .fp32) a b (constant (F := Ideal) S32x8192 .f32 0x00000000#32)

/-- Its entry at row `s`, column `g` is the plain sum of products. -/
theorem tab_apply (a : S32x128.Idx → EReal) (b : S128x8192.Idx → EReal) (s : Fin 32) (g : Fin 8192) :
    tab a b (ix2 s g) = ∑ k : Fin 128, a (ix2 s k) * b (ix2 k g) := by
  refine (Ideal.matmul_constant_zero_apply (φ₁ := .f32) (φ₂ := .f32) dot_S32x128_S128x8192_S32x8192_1_0_0_1_n_n (some .fp32) a b (ix2 s g)).trans ?_
  rw [← Equiv.sum_comp (ValueIdx.contrEquiv1 dot_S32x128_S128x8192_S32x8192_1_0_0_1_n_n 128 rfl rfl).symm]
  refine Finset.sum_congr rfl fun k _ => ?_
  have hk := ValueIdx.contrEquiv1_symm_val dot_S32x128_S128x8192_S32x8192_1_0_0_1_n_n 128 rfl rfl k
  have el : dot_S32x128_S128x8192_S32x8192_1_0_0_1_n_n.lhsIdx (ix2 s g) ((ValueIdx.contrEquiv1 dot_S32x128_S128x8192_S32x8192_1_0_0_1_n_n 128 rfl rfl).symm k) = ix2 s k := funext fun a => Fin.ext (by
    match a with
    | ⟨0, _⟩ => exact lhs_tab_0 _ _
    | ⟨1, _⟩ => exact (lhs_tab_1 _ _).trans hk)
  have er : dot_S32x128_S128x8192_S32x8192_1_0_0_1_n_n.rhsIdx (ix2 s g) ((ValueIdx.contrEquiv1 dot_S32x128_S128x8192_S32x8192_1_0_0_1_n_n 128 rfl rfl).symm k) = ix2 k g := funext fun a => Fin.ext (by
    match a with
    | ⟨0, _⟩ => exact (rhs_tab_0 _ _).trans hk
    | ⟨1, _⟩ => exact rhs_tab_1 _ _)
  rw [el, er]

/-! ## The two payloads as stacked three-term splits -/

/-- A 32-row table, its residue against itself, and the residue's residue, -/
abbrev pieces3 (T : S32x8192.Idx → EReal) : List ((s : Shape) × (s.Idx → EReal)) :=
  [⟨S32x8192, T⟩, ⟨S32x8192, fun j => T j - T j⟩, ⟨S32x8192, fun j => (T j - T j) - (T j - T j)⟩]
/-- stacked along the rows. -/
abbrev split3 (T : S32x8192.Idx → EReal) : S96x8192.Idx → EReal :=
  concatenate S96x8192 0 (pieces3 T) concatenates_S32x8192_S32x8192_S32x8192_S96x8192_d0

/-- The mean table's payload: the split of cell_prob · Z_mu. -/
theorem pay1_eq (x0 : Vec Ideal S32x128 .f32) (x1 : Vec Ideal S128x8192 .f32) :
    k0_pay1 (F := Ideal) x0 x1 = split3 (tab x0 x1) := rfl

/-- The scale table before the split: Σ p²σ + (Σ pσ)² − Σ p²σ². -/
abbrev sgv (x0 : S32x128.Idx → EReal) (x2 : S128x8192.Idx → EReal) : S32x8192.Idx → EReal := fun j =>
  (tab (fun i => x0 i * x0 i) x2 j + tab x0 x2 j * tab x0 x2 j) - tab (fun i => x0 i * x0 i) (fun i => x2 i * x2 i) j

/-- The scale table's payload: the split of that. -/
theorem pay2_eq (x0 : Vec Ideal S32x128 .f32) (x2 : Vec Ideal S128x8192 .f32) :
    k0_pay2 (F := Ideal) x0 x2 = split3 (sgv x0 x2) := rfl

/-- The stacked split read at an index: the row block the row falls in names the term. -/
theorem split3_apply (T : S32x8192.Idx → EReal) (i : S96x8192.Idx) :
    split3 T i = if h0 : (i 0).val < 32 then T (ix2 ⟨(i 0).val, h0⟩ ⟨(i 1).val, idx2_lt1 i⟩)
      else if h1 : (i 0).val < 64 then
        T (ix2 ⟨(i 0).val - 32, by omega⟩ ⟨(i 1).val, idx2_lt1 i⟩) - T (ix2 ⟨(i 0).val - 32, by omega⟩ ⟨(i 1).val, idx2_lt1 i⟩)
      else (T (ix2 ⟨(i 0).val - 64, by have := idx2_lt0 i; omega⟩ ⟨(i 1).val, idx2_lt1 i⟩) - T (ix2 ⟨(i 0).val - 64, by have := idx2_lt0 i; omega⟩ ⟨(i 1).val, idx2_lt1 i⟩))
        - (T (ix2 ⟨(i 0).val - 64, by have := idx2_lt0 i; omega⟩ ⟨(i 1).val, idx2_lt1 i⟩) - T (ix2 ⟨(i 0).val - 64, by have := idx2_lt0 i; omega⟩ ⟨(i 1).val, idx2_lt1 i⟩)) := by
  have hi0 : (i 0).val < 96 := idx2_lt0 i
  have off : ∀ (r : Fin 32) (b : Fin S32x8192.rank), b.cast (rfl : S32x8192.rank = S96x8192.rank) ≠ (0 : Fin S96x8192.rank) →
      ((ix2 r ⟨(i 1).val, idx2_lt1 i⟩ : S32x8192.Idx) b).val = (i (b.cast (rfl : S32x8192.rank = S96x8192.rank))).val := by
    intro r b hb
    match b with
    | ⟨0, _⟩ => exact absurd rfl hb
    | ⟨1, _⟩ => rfl
  by_cases h0 : (i 0).val < 32
  · rw [dif_pos h0]
    exact concatenate_apply_piece (0 : Fin S96x8192.rank) (pieces3 T) concatenates_S32x8192_S32x8192_S32x8192_S96x8192_d0 i 0 (Nat.zero_lt_succ _) S32x8192 _ rfl rfl
      0 rfl (ix2 ⟨(i 0).val, h0⟩ ⟨(i 1).val, idx2_lt1 i⟩) (off _) (Nat.zero_add _)
  · rw [dif_neg h0]
    by_cases h1 : (i 0).val < 64
    · rw [dif_pos h1]
      exact concatenate_apply_piece (0 : Fin S96x8192.rank) (pieces3 T) concatenates_S32x8192_S32x8192_S32x8192_S96x8192_d0 i 1 (Nat.succ_lt_succ (Nat.zero_lt_succ _)) S32x8192 _ rfl rfl
        32 rfl (ix2 ⟨(i 0).val - 32, by omega⟩ ⟨(i 1).val, idx2_lt1 i⟩) (off _) (by show 32 + ((i 0).val - 32) = (i 0).val; omega)
    · rw [dif_neg h1]
      exact concatenate_apply_piece (0 : Fin S96x8192.rank) (pieces3 T) concatenates_S32x8192_S32x8192_S32x8192_S96x8192_d0 i 2 (Nat.succ_lt_succ (Nat.succ_lt_succ (Nat.zero_lt_succ _))) S32x8192 _ rfl rfl
        64 rfl (ix2 ⟨(i 0).val - 64, by omega⟩ ⟨(i 1).val, idx2_lt1 i⟩) (off _) (by show 64 + ((i 0).val - 64) = (i 0).val; omega)

/-- The split of a table whose entries are real is the table over two zero copies. -/
theorem split3_eq_stack (T : S32x8192.Idx → EReal) (G : Fin 32 → Fin 8192 → EReal)
    (hT : ∀ s g, T (ix2 s g) = G s g) (hG : ∀ s g, ∃ r : ℝ, G s g = (r : EReal)) : split3 T = stack G := by
  funext i
  rw [split3_apply]
  unfold Cert.Spec.stack
  by_cases h0 : (i 0).val < 32
  · rw [dif_pos h0, dif_pos h0, hT]
  · rw [dif_neg h0, dif_neg h0]
    by_cases h1 : (i 0).val < 64
    · rw [dif_pos h1, hT]
      obtain ⟨r, hr⟩ := hG ⟨(i 0).val - 32, by omega⟩ ⟨(i 1).val, idx2_lt1 i⟩
      rw [hr]; exact Cert.Spec.sub_self_real r
    · rw [dif_neg h1, hT]
      obtain ⟨r, hr⟩ := hG ⟨(i 0).val - 64, by have := idx2_lt0 i; omega⟩ ⟨(i 1).val, idx2_lt1 i⟩
      rw [hr]; exact Cert.Spec.split_residue_real r

/-- The mean table's payload over real arguments. -/
theorem pay1_stack (x0 : Vec Ideal S32x128 .f32) (x1 : Vec Ideal S128x8192 .f32)
    (h0 : ∀ i, ∃ r : ℝ, x0 i = (r : EReal)) (h1 : ∀ i, ∃ r : ℝ, x1 i = (r : EReal)) :
    k0_pay1 (F := Ideal) x0 x1 = stack (muT x0 x1) := by
  rw [pay1_eq]
  exact split3_eq_stack _ _ (fun s g => tab_apply x0 x1 s g) (Cert.Spec.muT_real h0 h1)

/-- The scale table's payload over real arguments. -/
theorem pay2_stack (x0 : Vec Ideal S32x128 .f32) (x2 : Vec Ideal S128x8192 .f32)
    (h0 : ∀ i, ∃ r : ℝ, x0 i = (r : EReal)) (h2 : ∀ i, ∃ r : ℝ, x2 i = (r : EReal)) :
    k0_pay2 (F := Ideal) x0 x2 = stack (sgT x0 x2) := by
  rw [pay2_eq]
  refine split3_eq_stack _ _ (fun s g => ?_) (Cert.Spec.sgT_real h0 h2)
  show (tab (fun i => x0 i * x0 i) x2 (ix2 s g) + tab x0 x2 (ix2 s g) * tab x0 x2 (ix2 s g))
      - tab (fun i => x0 i * x0 i) (fun i => x2 i * x2 i) (ix2 s g) = _
  rw [tab_apply, tab_apply, tab_apply]
  rfl

/-! ## From the one point's blocks to the arrays -/

variable (V : (c : Dev nD) → (b : Ref sig .tc) → Buf (Elt Ideal) ((c : Thread nD τ).loc b))

theorem hz : (![0, 0] : Fin 2 → Nat) = fun _ => 0 := funext fun a => by fin_cases a <;> rfl

/-- The windows' index maps, decided over the grid: at its one point every window's block is block 0, 0. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Each input window's block at the point is its whole array. -/
theorem iblk0_0_eq (c : Dev nD) (t : Fin cfg0.N) : iblk0 V c 0 t = V c main_arg0 := by
  obtain ⟨e0, e1, -⟩ := idx_facts0 t
  unfold iblk0
  funext y
  show V c main_arg0 (((cfg0.win 0).blk t).view.emb y) = V c main_arg0 y
  refine congrArg (V c main_arg0) (funext fun a => Fin.ext ?_)
  match a with
  | ⟨0, _⟩ => show win0_0.index t (0 : Fin 2) * 32 + 1 * (y 0).val = (y 0).val; omega
  | ⟨1, _⟩ => show win0_0.index t (1 : Fin 2) * 128 + 1 * (y 1).val = (y 1).val; omega
theorem iblk0_1_eq (c : Dev nD) (t : Fin cfg0.N) : iblk0 V c 1 t = V c main_arg1 := by
  obtain ⟨-, -, e0, e1, -⟩ := idx_facts0 t
  unfold iblk0
  funext y
  show V c main_arg1 (((cfg0.win 1).blk t).view.emb y) = V c main_arg1 y
  refine congrArg (V c main_arg1) (funext fun a => Fin.ext ?_)
  match a with
  | ⟨0, _⟩ => show win0_1.index t (0 : Fin 2) * 128 + 1 * (y 0).val = (y 0).val; omega
  | ⟨1, _⟩ => show win0_1.index t (1 : Fin 2) * 8192 + 1 * (y 1).val = (y 1).val; omega
theorem iblk0_2_eq (c : Dev nD) (t : Fin cfg0.N) : iblk0 V c 2 t = V c main_arg2 := by
  obtain ⟨-, -, -, -, e0, e1, -⟩ := idx_facts0 t
  unfold iblk0
  funext y
  show V c main_arg2 (((cfg0.win 2).blk t).view.emb y) = V c main_arg2 y
  refine congrArg (V c main_arg2) (funext fun a => Fin.ext ?_)
  match a with
  | ⟨0, _⟩ => show win0_2.index t (0 : Fin 2) * 128 + 1 * (y 0).val = (y 0).val; omega
  | ⟨1, _⟩ => show win0_2.index t (1 : Fin 2) * 8192 + 1 * (y 1).val = (y 1).val; omega

/-- What the point writes back for the mean table is the block of the stacked table. -/
theorem flushed3_eq (c : Dev nD) (hcp : ∀ i, ∃ r : ℝ, (V c main_arg0 : S32x128.Idx → EReal) i = (r : EReal))
    (hzm : ∀ i, ∃ r : ℝ, (V c main_arg1 : S128x8192.Idx → EReal) i = (r : EReal)) (t : Fin cfg0.N) :
    (dat0 (F := Ideal) V c).flushed 3 t
      = ((cfg0.win 3).blk t).view.read (Elt Ideal) (stack (muT (V c main_arg0) (V c main_arg1))) := by
  have hp : k0_pay1 (F := Ideal) (V c main_arg0) (V c main_arg1) = stack (muT (V c main_arg0) (V c main_arg1)) :=
    pay1_stack _ _ hcp hzm
  obtain ⟨-, -, -, -, -, -, e0, e1, -⟩ := idx_facts0 t
  show (cfg0.win 3).cut (grid0.coords t) ((dat0 V c).after 3 t) = _
  rw [after0_3]
  unfold out0_3
  rw [View.canon_unit_zero hz]
  simp only [View.ld_unit_zero (S := S32x128) hz, View.ld_unit_zero (S := S128x8192) hz]
  rw [iblk0_0_eq, iblk0_1_eq, hp]
  funext j
  show stack (muT (V c main_arg0) (V c main_arg1)) ((cfg0.win 3).xinj (grid0.coords t) j)
    = stack (muT (V c main_arg0) (V c main_arg1)) (((cfg0.win 3).blk t).view.emb j)
  refine congrArg (stack (muT (V c main_arg0) (V c main_arg1))) (funext fun a => Fin.ext ?_)
  match a with
  | ⟨0, _⟩ => show (j 0).val = win0_3.index t (0 : Fin 2) * 96 + 1 * (j 0).val; omega
  | ⟨1, _⟩ => show (j 1).val = win0_3.index t (1 : Fin 2) * 8192 + 1 * (j 1).val; omega

/-- The same for the scale table. -/
theorem flushed4_eq (c : Dev nD) (hcp : ∀ i, ∃ r : ℝ, (V c main_arg0 : S32x128.Idx → EReal) i = (r : EReal))
    (hzs : ∀ i, ∃ r : ℝ, (V c main_arg2 : S128x8192.Idx → EReal) i = (r : EReal)) (t : Fin cfg0.N) :
    (dat0 (F := Ideal) V c).flushed 4 t
      = ((cfg0.win 4).blk t).view.read (Elt Ideal) (stack (sgT (V c main_arg0) (V c main_arg2))) := by
  have hp : k0_pay2 (F := Ideal) (V c main_arg0) (V c main_arg2) = stack (sgT (V c main_arg0) (V c main_arg2)) :=
    pay2_stack _ _ hcp hzs
  obtain ⟨-, -, -, -, -, -, -, -, e0, e1⟩ := idx_facts0 t
  show (cfg0.win 4).cut (grid0.coords t) ((dat0 V c).after 4 t) = _
  rw [after0_4]
  unfold out0_4
  rw [View.canon_unit_zero hz]
  simp only [View.ld_unit_zero (S := S32x128) hz, View.ld_unit_zero (S := S128x8192) hz]
  rw [iblk0_0_eq, iblk0_2_eq, hp]
  funext j
  show stack (sgT (V c main_arg0) (V c main_arg2)) ((cfg0.win 4).xinj (grid0.coords t) j)
    = stack (sgT (V c main_arg0) (V c main_arg2)) (((cfg0.win 4).blk t).view.emb j)
  refine congrArg (stack (sgT (V c main_arg0) (V c main_arg2))) (funext fun a => Fin.ext ?_)
  match a with
  | ⟨0, _⟩ => show (j 0).val = win0_4.index t (0 : Fin 2) * 96 + 1 * (j 0).val; omega
  | ⟨1, _⟩ => show (j 1).val = win0_4.index t (1 : Fin 2) * 8192 + 1 * (j 1).val; omega

/-- An index of an output array is in the point's block iff each coordinate is in the block's range on its axis. -/
theorem mem_blk3 (t : Fin cfg0.N) (i : S96x8192.Idx) :
    i ∈ ((cfg0.win 3).blk t).view.set ↔ ∀ a : Fin 2, win0_3.index t a * S96x8192.size a ≤ (i a).val ∧ (i a).val < win0_3.index t a * S96x8192.size a + S96x8192.size a := by
  show i ∈ ((View.whole main_v0_0).slice (win0_3.rect t)).set ↔ _
  rw [View.set_slice_whole, Rect.mem_set_unit]
  exact Iff.rfl
theorem mem_blk4 (t : Fin cfg0.N) (i : S96x8192.Idx) :
    i ∈ ((cfg0.win 4).blk t).view.set ↔ ∀ a : Fin 2, win0_4.index t a * S96x8192.size a ≤ (i a).val ∧ (i a).val < win0_4.index t a * S96x8192.size a + S96x8192.size a := by
  show i ∈ ((View.whole main_v0_1).slice (win0_4.rect t)).set ↔ _
  rw [View.set_slice_whole, Rect.mem_set_unit]
  exact Iff.rfl

/-- The one point's block is the whole array. -/
theorem covered3 (i : S96x8192.Idx) : ∃ t : Fin cfg0.N, (cfg0.win 3).flush t = true ∧ i ∈ ((cfg0.win 3).blk t).view.set := by
  obtain ⟨-, -, -, -, -, -, e0, e1, -⟩ := idx_facts0 t0_0
  have hi0 : (i 0).val < 96 := idx2_lt0 i
  have hi1 : (i 1).val < 8192 := idx2_lt1 i
  refine ⟨t0_0, flush0_3 t0_0, ?_⟩
  rw [mem_blk3]
  intro a
  match a with
  | ⟨0, _⟩ => show win0_3.index t0_0 (0 : Fin 2) * 96 ≤ (i 0).val ∧ (i 0).val < win0_3.index t0_0 (0 : Fin 2) * 96 + 96; omega
  | ⟨1, _⟩ => show win0_3.index t0_0 (1 : Fin 2) * 8192 ≤ (i 1).val ∧ (i 1).val < win0_3.index t0_0 (1 : Fin 2) * 8192 + 8192; omega
theorem covered4 (i : S96x8192.Idx) : ∃ t : Fin cfg0.N, (cfg0.win 4).flush t = true ∧ i ∈ ((cfg0.win 4).blk t).view.set := by
  obtain ⟨-, -, -, -, -, -, -, -, e0, e1⟩ := idx_facts0 t0_0
  have hi0 : (i 0).val < 96 := idx2_lt0 i
  have hi1 : (i 1).val < 8192 := idx2_lt1 i
  refine ⟨t0_0, flush0_4 t0_0, ?_⟩
  rw [mem_blk4]
  intro a
  match a with
  | ⟨0, _⟩ => show win0_4.index t0_0 (0 : Fin 2) * 96 ≤ (i 0).val ∧ (i 0).val < win0_4.index t0_0 (0 : Fin 2) * 96 + 96; omega
  | ⟨1, _⟩ => show win0_4.index t0_0 (1 : Fin 2) * 8192 ≤ (i 1).val ∧ (i 1).val < win0_4.index t0_0 (1 : Fin 2) * 8192 + 8192; omega

/-- The mean table's array after region 0: the table stacked over two zero copies. -/
theorem arr0_mu (c : Dev nD) (hcp : ∀ i, ∃ r : ℝ, (V c main_arg0 : S32x128.Idx → EReal) i = (r : EReal))
    (hzm : ∀ i, ∃ r : ℝ, (V c main_arg1 : S128x8192.Idx → EReal) i = (r : EReal)) :
    (dat0 (F := Ideal) V c).arrAt 3 cfg0.N = stack (muT (V c main_arg0) (V c main_arg1)) :=
  (dat0 (F := Ideal) V c).arrAt_eq_of_cover 3 (stack (muT (V c main_arg0) (V c main_arg1)))
    (fun t _ => flushed3_eq V c hcp hzm t) covered3

/-- The scale table's array after region 0. -/
theorem arr0_sg (c : Dev nD) (hcp : ∀ i, ∃ r : ℝ, (V c main_arg0 : S32x128.Idx → EReal) i = (r : EReal))
    (hzs : ∀ i, ∃ r : ℝ, (V c main_arg2 : S128x8192.Idx → EReal) i = (r : EReal)) :
    (dat0 (F := Ideal) V c).arrAt 4 cfg0.N = stack (sgT (V c main_arg0) (V c main_arg2)) :=
  (dat0 (F := Ideal) V c).arrAt_eq_of_cover 4 (stack (sgT (V c main_arg0) (V c main_arg2)))
    (fun t _ => flushed4_eq V c hcp hzs t) covered4

end Cert.KernelIdeal.Val

end
-- ==== Proof.KI.R1Val.lean ====
/- Region 1 (the log-probability kernel): the pieces each control case leaves, read as values — the log-probability
   block is the body's arithmetic on the point's four input blocks, the accumulator restarts from the zero splat at the
   first point of a row and otherwise adds the point's partial sum to what the point before left, and at the last point of
   a row the sum window's buffer takes the accumulator. -/
import proofs.«405995_j80152679678262_3_alg».proof.Proof.KI.R1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The pieces read as values (any `F`) -/

/-- The zero offsets of a rank-2 and of a rank-3 unit rectangle, as constant functions. -/
theorem hz2 : (![0, 0] : Fin 2 → Nat) = fun _ => 0 := funext fun a => by fin_cases a <;> rfl
theorem hz3 : (![0, 0, 0] : Fin 3 → Nat) = fun _ => 0 := funext fun a => by fin_cases a <;> rfl

/-- Where the accumulator is reset the log-probability buffer ends at the body's arithmetic on the four input blocks: its one
    covering store's payload, whose loads read the whole input buffers. -/
theorem out1_A_4_eq (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : cond1_0 i) (hc1 : ¬cond1_1 i)
    (x0 : Vec F S512x2048 .f32) (x1 : Vec F S512x96 .bf16) (x2 : Vec F S96x2048 .bf16) (x3 : Vec F S96x2048 .bf16) :
    out1_A_4 c i arg2 harg2 arg3 harg3 arg4 harg4 arg5 harg5 arg6 harg6 arg7 harg7 arg8 harg8 hc0 hc1 x0 x1 x2 x3 = k1_pay2 x1 x2 x3 x0 := by
  unfold out1_A_4
  rw [View.read_writes_eq_canon _ _ _ (cover1_A_4 c i arg2 harg2 arg3 harg3 arg4 harg4 arg5 harg5 arg6 harg6 arg7 harg7 arg8 harg8 hc0 hc1 x0 x1 x2 x3)]
  unfold kernelRun1_A
  dsimp only
  sl_unfold_words
  rw [View.canon_unit_zero hz2]
  simp only [View.readAt_eq_ld, harg2.read_unread, harg3.read_unread, harg4.read_unread, harg5.read_unread, harg7.read_unread, harg8.read_unread, View.ld_unit_zero (S := S512x2048) hz2, View.ld_unit_zero (S := S512x96) hz2, View.ld_unit_zero (S := S96x2048) hz2]

/-- Where the accumulator is reset the accumulator ends at the zero splat plus the point's partial sum. -/
theorem sout1_A_0_eq (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : cond1_0 i) (hc1 : ¬cond1_1 i)
    (x0 : Vec F S512x2048 .f32) (x1 : Vec F S512x96 .bf16) (x2 : Vec F S96x2048 .bf16) (x3 : Vec F S96x2048 .bf16) :
    sout1_A_0 c i arg2 harg2 arg3 harg3 arg4 harg4 arg5 harg5 arg6 harg6 arg7 harg7 arg8 harg8 hc0 hc1 x0 x1 x2 x3 = k1_pay3 x1 x2 x3 x0 (k1_pay1 (F := F)) := by
  unfold sout1_A_0
  rw [View.read_writes_eq_canon _ _ _ (scover1_A_0 c i arg2 harg2 arg3 harg3 arg4 harg4 arg5 harg5 arg6 harg6 arg7 harg7 arg8 harg8 hc0 hc1 x0 x1 x2 x3)]
  unfold kernelRun1_A
  dsimp only
  sl_unfold_words
  rw [View.canon_cons_unit_zero (S := S1x1x1) hz3]
  simp only [View.readAt_eq_ld, harg2.read_unread, harg3.read_unread, harg4.read_unread, harg5.read_unread, harg7.read_unread, harg8.read_unread, View.readCov_unit_zero (S := S1x1x1) _ hz3, View.ld_unit_zero (S := S512x2048) hz2, View.ld_unit_zero (S := S512x96) hz2, View.ld_unit_zero (S := S96x2048) hz2, View.ld_unit_zero (S := S1x1x1) hz3]

/-- Where the accumulator is neither reset nor the sum stored the log-probability buffer ends at the body's arithmetic on the four input blocks: its one
    covering store's payload, whose loads read the whole input buffers. -/
theorem out1_B_4_eq (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : ¬cond1_0 i) (hc1 : ¬cond1_1 i)
    (x0 : Vec F S512x2048 .f32) (x1 : Vec F S512x96 .bf16) (x2 : Vec F S96x2048 .bf16) (x3 : Vec F S96x2048 .bf16) (xs0 : Vec F S1x1x1 .f32) :
    out1_B_4 c i arg2 harg2 arg3 harg3 arg4 harg4 arg5 harg5 arg6 harg6 arg7 harg7 arg8 harg8 hc0 hc1 x0 x1 x2 x3 xs0 = k1_pay2 x1 x2 x3 x0 := by
  unfold out1_B_4
  rw [View.read_writes_eq_canon _ _ _ (cover1_B_4 c i arg2 harg2 arg3 harg3 arg4 harg4 arg5 harg5 arg6 harg6 arg7 harg7 arg8 harg8 hc0 hc1 x0 x1 x2 x3 xs0)]
  unfold kernelRun1_B
  dsimp only
  sl_unfold_words
  rw [View.canon_unit_zero hz2]
  simp only [View.readAt_eq_ld, harg2.read_unread, harg3.read_unread, harg4.read_unread, harg5.read_unread, harg7.read_unread, harg8.read_unread, View.ld_unit_zero (S := S512x2048) hz2, View.ld_unit_zero (S := S512x96) hz2, View.ld_unit_zero (S := S96x2048) hz2]

/-- Where the accumulator is neither reset nor the sum stored the accumulator ends at what it came in with plus the point's partial sum. -/
theorem sout1_B_0_eq (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : ¬cond1_0 i) (hc1 : ¬cond1_1 i)
    (x0 : Vec F S512x2048 .f32) (x1 : Vec F S512x96 .bf16) (x2 : Vec F S96x2048 .bf16) (x3 : Vec F S96x2048 .bf16) (xs0 : Vec F S1x1x1 .f32) :
    sout1_B_0 c i arg2 harg2 arg3 harg3 arg4 harg4 arg5 harg5 arg6 harg6 arg7 harg7 arg8 harg8 hc0 hc1 x0 x1 x2 x3 xs0 = k1_pay3 x1 x2 x3 x0 xs0 := by
  unfold sout1_B_0
  rw [View.read_writes_eq_canon _ _ _ (scover1_B_0 c i arg2 harg2 arg3 harg3 arg4 harg4 arg5 harg5 arg6 harg6 arg7 harg7 arg8 harg8 hc0 hc1 x0 x1 x2 x3 xs0)]
  unfold kernelRun1_B
  dsimp only
  sl_unfold_words
  rw [View.canon_unit_zero hz3]
  simp only [View.readAt_eq_ld, harg2.read_unread, harg3.read_unread, harg4.read_unread, harg5.read_unread, harg7.read_unread, harg8.read_unread, View.readCov_unit_zero (S := S1x1x1) _ hz3, View.ld_unit_zero (S := S512x2048) hz2, View.ld_unit_zero (S := S512x96) hz2, View.ld_unit_zero (S := S96x2048) hz2, View.ld_unit_zero (S := S1x1x1) hz3]

/-- Where the sum is stored the log-probability buffer ends at the body's arithmetic on the four input blocks: its one
    covering store's payload, whose loads read the whole input buffers. -/
theorem out1_C_4_eq (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : ¬cond1_0 i) (hc1 : cond1_1 i)
    (x0 : Vec F S512x2048 .f32) (x1 : Vec F S512x96 .bf16) (x2 : Vec F S96x2048 .bf16) (x3 : Vec F S96x2048 .bf16) (xs0 : Vec F S1x1x1 .f32) :
    out1_C_4 c i arg2 harg2 arg3 harg3 arg4 harg4 arg5 harg5 arg6 harg6 arg7 harg7 arg8 harg8 hc0 hc1 x0 x1 x2 x3 xs0 = k1_pay2 x1 x2 x3 x0 := by
  unfold out1_C_4
  rw [View.read_writes_eq_canon _ _ _ (cover1_C_4 c i arg2 harg2 arg3 harg3 arg4 harg4 arg5 harg5 arg6 harg6 arg7 harg7 arg8 harg8 hc0 hc1 x0 x1 x2 x3 xs0)]
  unfold kernelRun1_C
  dsimp only
  sl_unfold_words
  rw [View.canon_unit_zero hz2]
  simp only [View.readAt_eq_ld, harg2.read_unread, harg3.read_unread, harg4.read_unread, harg5.read_unread, harg7.read_unread, harg8.read_unread, View.ld_unit_zero (S := S512x2048) hz2, View.ld_unit_zero (S := S512x96) hz2, View.ld_unit_zero (S := S96x2048) hz2]

/-- Where the sum is stored the accumulator ends at what it came in with plus the point's partial sum. -/
theorem sout1_C_0_eq (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : ¬cond1_0 i) (hc1 : cond1_1 i)
    (x0 : Vec F S512x2048 .f32) (x1 : Vec F S512x96 .bf16) (x2 : Vec F S96x2048 .bf16) (x3 : Vec F S96x2048 .bf16) (xs0 : Vec F S1x1x1 .f32) :
    sout1_C_0 c i arg2 harg2 arg3 harg3 arg4 harg4 arg5 harg5 arg6 harg6 arg7 harg7 arg8 harg8 hc0 hc1 x0 x1 x2 x3 xs0 = k1_pay3 x1 x2 x3 x0 xs0 := by
  unfold sout1_C_0
  rw [View.read_writes_eq_canon _ _ _ (scover1_C_0 c i arg2 harg2 arg3 harg3 arg4 harg4 arg5 harg5 arg6 harg6 arg7 harg7 arg8 harg8 hc0 hc1 x0 x1 x2 x3 xs0)]
  unfold kernelRun1_C
  dsimp only
  sl_unfold_words
  rw [View.canon_unit_zero hz3]
  simp only [View.readAt_eq_ld, harg2.read_unread, harg3.read_unread, harg4.read_unread, harg5.read_unread, harg7.read_unread, harg8.read_unread, View.readCov_unit_zero (S := S1x1x1) _ hz3, View.ld_unit_zero (S := S512x2048) hz2, View.ld_unit_zero (S := S512x96) hz2, View.ld_unit_zero (S := S96x2048) hz2, View.ld_unit_zero (S := S1x1x1) hz3]

/-- Where the sum is stored the sum buffer ends at the accumulator's new contents, read back after its store. -/
theorem out1_C_5_eq (c : Dev nD) (i : grid1.Coords) (arg2 : Memref sig .tc .vmem S512x2048 .f32) (harg2 : arg2.IsWhole) (arg3 : Memref sig .tc .vmem S512x96 .bf16) (harg3 : arg3.IsWhole) (arg4 : Memref sig .tc .vmem S96x2048 .bf16) (harg4 : arg4.IsWhole) (arg5 : Memref sig .tc .vmem S96x2048 .bf16) (harg5 : arg5.IsWhole) (arg6 : Memref sig .tc .vmem S512x2048 .f32) (harg6 : arg6.IsWhole) (arg7 : Memref sig .tc .vmem S1x1x1 .f32) (harg7 : arg7.IsWhole) (arg8 : Memref sig .tc .vmem S1x1x1 .f32) (harg8 : arg8.IsWhole) (hc0 : ¬cond1_0 i) (hc1 : cond1_1 i)
    (x0 : Vec F S512x2048 .f32) (x1 : Vec F S512x96 .bf16) (x2 : Vec F S96x2048 .bf16) (x3 : Vec F S96x2048 .bf16) (xs0 : Vec F S1x1x1 .f32) :
    out1_C_5 c i arg2 harg2 arg3 harg3 arg4 harg4 arg5 harg5 arg6 harg6 arg7 harg7 arg8 harg8 hc0 hc1 x0 x1 x2 x3 xs0 = k1_pay3 x1 x2 x3 x0 xs0 := by
  unfold out1_C_5
  rw [View.read_writes_eq_canon _ _ _ (cover1_C_5 c i arg2 harg2 arg3 harg3 arg4 harg4 arg5 harg5 arg6 harg6 arg7 harg7 arg8 harg8 hc0 hc1 x0 x1 x2 x3 xs0)]
  unfold kernelRun1_C
  dsimp only
  sl_unfold_words
  rw [View.canon_unit_zero hz3]
  simp only [View.readAt_eq_ld, harg2.read_unread, harg3.read_unread, harg4.read_unread, harg5.read_unread, harg7.read_unread, harg8.read_unread, View.readCov_unit_zero (S := S1x1x1) _ hz3, View.ld_unit_zero (S := S512x2048) hz2, View.ld_unit_zero (S := S512x96) hz2, View.ld_unit_zero (S := S96x2048) hz2, View.ld_unit_zero (S := S1x1x1) hz3]

variable (V : (c : Dev nD) → (b : Ref sig .tc) → Buf (Elt F) ((c : Thread nD τ).loc b))

/-! ## What the outputs and the accumulator hold, as values -/

/-- The log-probability block a point stores: the body's arithmetic on the point's four input blocks. -/
theorem outsAt1_logp (c : Dev nD) (t : Fin cfg1.N) :
    (outsAt1 V c t.val t.isLt).1 = k1_pay2 (iblk1 V c 1 t) (iblk1 V c 2 t) (iblk1 V c 3 t) (iblk1 V c 0 t) := by
  by_cases h0 : t.val % 4 = 0
  · have h1 : ¬t.val % 4 = 3 := by omega
    rw [outsAt1_A V c t h0 h1]; dsimp only
    exact out1_A_4_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t)
  · by_cases h1 : t.val % 4 = 3
    · rw [outsAt1_C V c t h0 h1]; dsimp only
      exact out1_C_4_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2
    · rw [outsAt1_B V c t h0 h1]; dsimp only
      exact out1_B_4_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2

/-- At the first point of a row of the grid the accumulator restarts from the zero splat. -/
theorem outsAt1_acc_first (c : Dev nD) (t : Fin cfg1.N) (h : t.val % 4 = 0) :
    (outsAt1 V c t.val t.isLt).2.2 = k1_pay3 (iblk1 V c 1 t) (iblk1 V c 2 t) (iblk1 V c 3 t) (iblk1 V c 0 t) (k1_pay1 (F := F)) := by
  have h0 : t.val % 4 = 0 := h
  have h1 : ¬t.val % 4 = 3 := by omega
  rw [outsAt1_A V c t h0 h1]; dsimp only
  exact sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t)

/-- At the other points it adds the point's partial sum to what the point before left. -/
theorem outsAt1_acc_next (c : Dev nD) (t : Fin cfg1.N) (h : ¬ t.val % 4 = 0) :
    (outsAt1 V c t.val t.isLt).2.2 = k1_pay3 (iblk1 V c 1 t) (iblk1 V c 2 t) (iblk1 V c 3 t) (iblk1 V c 0 t)
      (outsAt1 V c (t.val - 1) (Nat.lt_of_le_of_lt (Nat.sub_le _ _) t.isLt)).2.2 := by
  have h0 : ¬t.val % 4 = 0 := h
  by_cases h1 : t.val % 4 = 3
  · rw [outsAt1_C V c t h0 h1]; dsimp only
    exact sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2
  · rw [outsAt1_B V c t h0 h1]; dsimp only
    exact sout1_B_0_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2

/-- At the last point of a row the sum window's buffer takes the accumulator. -/
theorem outsAt1_sum (c : Dev nD) (t : Fin cfg1.N) (h : t.val % 4 = 3) :
    (outsAt1 V c t.val t.isLt).2.1 = (outsAt1 V c t.val t.isLt).2.2 := by
  have h0 : ¬t.val % 4 = 0 := by omega
  have h1 : t.val % 4 = 3 := h
  rw [outsAt1_C V c t h0 h1]; dsimp only
  rw [out1_C_5_eq, sout1_C_0_eq]

end Cert.KernelIdeal.Hand

end
-- ==== Proof.Val.K1.lean ====
/- The log-density array the second kernel leaves. Point t of its 16 × 4 grid works on row block t / 4 and column block
   t % 4: it reads rows [512·(t/4), +512) × columns [2048·(t%4), +2048) of X, those rows of the 0/1 selector (all 96
   columns), and those columns of the two stacked tables (all 96 rows). The two matrix products of the selector block
   with the table blocks read, at each entry, the table row that entry's sample selects; the remaining arithmetic is the
   Gaussian log-density entry by entry. So the block a point stores is that block of the specification's array, and the
   64 blocks tile the 8192 × 8192 array. -/
import proofs.«405995_j80152679678262_3_alg».proof.Proof.KI.R1
import proofs.«405995_j80152679678262_3_alg».proof.Proof.KI.R1Val
import proofs.«405995_j80152679678262_3_alg».proof.Proof.Val.Spec
import proofs.«405995_j80152679678262_3_alg».proof.Proof.Val.Laws
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand Idealize.ShloMosaic Idealize.ShloMosaic.TcCoe
  Idealize.ShloMosaic.ValueIdx Idealize.SL.Sem
open Idealize.ShloMosaic.Pipeline (Dat Cfg Window cellOf)

/-! ## The two matrix products read at an entry -/

theorem lhs_mm_0 (i : S512x2048.Idx) (q : dot_S512x96_S96x2048_S512x2048_1_0_0_1_n_n.contr.Idx) :
    (dot_S512x96_S96x2048_S512x2048_1_0_0_1_n_n.lhsIdx i q 0).val = (i 0).val := by
  unfold DotDims.lhsIdx
  rw [dif_neg (show ¬(0 : Fin S512x96.rank) ∈ dot_S512x96_S96x2048_S512x2048_1_0_0_1_n_n.lhsBatch by decide), dif_pos (show (0 : Fin S512x96.rank) ∈ dot_S512x96_S96x2048_S512x2048_1_0_0_1_n_n.lhsNonContracting by decide)]
  rfl
theorem lhs_mm_1 (i : S512x2048.Idx) (q : dot_S512x96_S96x2048_S512x2048_1_0_0_1_n_n.contr.Idx) :
    (dot_S512x96_S96x2048_S512x2048_1_0_0_1_n_n.lhsIdx i q 1).val = (q ⟨0, by decide⟩).val :=
  dot_S512x96_S96x2048_S512x2048_1_0_0_1_n_n.lhsIdx_val_of_single rfl i q
theorem rhs_mm_0 (i : S512x2048.Idx) (q : dot_S512x96_S96x2048_S512x2048_1_0_0_1_n_n.contr.Idx) :
    (dot_S512x96_S96x2048_S512x2048_1_0_0_1_n_n.rhsIdx i q 0).val = (q ⟨0, by decide⟩).val :=
  dot_S512x96_S96x2048_S512x2048_1_0_0_1_n_n.rhsIdx_val_of_single rfl i q
theorem rhs_mm_1 (i : S512x2048.Idx) (q : dot_S512x96_S96x2048_S512x2048_1_0_0_1_n_n.contr.Idx) :
    (dot_S512x96_S96x2048_S512x2048_1_0_0_1_n_n.rhsIdx i q 1).val = (i 1).val := by
  unfold DotDims.rhsIdx
  rw [dif_neg (show ¬(1 : Fin S96x2048.rank) ∈ dot_S512x96_S96x2048_S512x2048_1_0_0_1_n_n.rhsBatch by decide), dif_pos (show (1 : Fin S96x2048.rank) ∈ dot_S512x96_S96x2048_S512x2048_1_0_0_1_n_n.rhsNonContracting by decide)]
  rfl

/-- The product of a 512 × 96 block with a 96 × 2048 block into the zero splat, at entry (p, q): Σ_k l(p,k)·r(k,q). -/
theorem mm_apply (l : FVec Ideal S512x96 .bf16) (r : FVec Ideal S96x2048 .bf16) (p : Fin 512) (q : Fin 2048) :
    matmul dot_S512x96_S96x2048_S512x2048_1_0_0_1_n_n none l r (constant S512x2048 .f32 0x00000000#32) (ix2 p q)
      = ∑ k : Fin 96, l (ix2 p k) * r (ix2 k q) := by
  simp only [matmul]
  rw [Ideal.matmul_constant_zero_apply, ← Equiv.sum_comp (ValueIdx.contrEquiv1 dot_S512x96_S96x2048_S512x2048_1_0_0_1_n_n 96 rfl rfl).symm]
  refine Finset.sum_congr rfl fun k _ => ?_
  have hk := ValueIdx.contrEquiv1_symm_val dot_S512x96_S96x2048_S512x2048_1_0_0_1_n_n 96 rfl rfl k
  have el : dot_S512x96_S96x2048_S512x2048_1_0_0_1_n_n.lhsIdx (ix2 p q) ((ValueIdx.contrEquiv1 dot_S512x96_S96x2048_S512x2048_1_0_0_1_n_n 96 rfl rfl).symm k) = ix2 p k := funext fun a => Fin.ext (by
    match a with
    | ⟨0, _⟩ => exact lhs_mm_0 _ _
    | ⟨1, _⟩ => exact (lhs_mm_1 _ _).trans hk)
  have er : dot_S512x96_S96x2048_S512x2048_1_0_0_1_n_n.rhsIdx (ix2 p q) ((ValueIdx.contrEquiv1 dot_S512x96_S96x2048_S512x2048_1_0_0_1_n_n 96 rfl rfl).symm k) = ix2 k q := funext fun a => Fin.ext (by
    match a with
    | ⟨0, _⟩ => exact (rhs_mm_0 _ _).trans hk
    | ⟨1, _⟩ => exact rhs_mm_1 _ _)
  rw [el, er]

/-! ## The body's arithmetic at an entry -/

/-- Entry (p, q) of the block the body stores: the Gaussian log-density of x(p,q) at mean Σ_k oh(p,k)·mu(k,q) and scale
    Σ_k oh(p,k)·sg(k,q). -/
theorem pay2_apply (oh : FVec Ideal S512x96 .bf16) (mu sg : FVec Ideal S96x2048 .bf16) (x : FVec Ideal S512x2048 .f32)
    (p : Fin 512) (q : Fin 2048) :
    k1_pay2 (F := Ideal) oh mu sg x (ix2 p q)
      = Cert.Spec.lpE (x (ix2 p q)) (∑ k : Fin 96, oh (ix2 p k) * mu (ix2 k q)) (∑ k : Fin 96, oh (ix2 p k) * sg (ix2 k q)) := by
  unfold k1_pay2 Cert.Spec.lpE
  simp only [shapeCast_self]
  rw [← mm_apply oh mu p q, ← mm_apply oh sg p q]
  rfl

/-! ## The windows' block indices over the grid -/

/-- Point t's block indices: windows 0 and 4 are at (t / 4, t % 4), window 1 at (t / 4, 0), windows 2 and 3 at (0, t % 4). -/
theorem idx_facts : ∀ t : Fin cfg1.N,
    win1_0.index t (0 : Fin 2) = t.val / 4 ∧ win1_0.index t (1 : Fin 2) = t.val % 4
    ∧ win1_1.index t (0 : Fin 2) = t.val / 4 ∧ win1_1.index t (1 : Fin 2) = 0
    ∧ win1_2.index t (0 : Fin 2) = 0 ∧ win1_2.index t (1 : Fin 2) = t.val % 4
    ∧ win1_3.index t (0 : Fin 2) = 0 ∧ win1_3.index t (1 : Fin 2) = t.val % 4
    ∧ win1_4.index t (0 : Fin 2) = t.val / 4 ∧ win1_4.index t (1 : Fin 2) = t.val % 4 :=
  (by decide +kernel : ∀ t : Fin grid1.N, _)

section Region1

variable (V : (c : Dev nD) → (b : Ref sig .tc) → Buf (Elt Ideal) ((c : Thread nD τ).loc b)) (c : Dev nD)
  (T1 T2 : Fin 32 → Fin 8192 → EReal) (row : Fin 8192 → Fin 32)

/-- A point of the grid is below 64. -/
theorem pt_lt (t : Fin cfg1.N) : t.val < 64 := by
  have h := t.isLt
  have hN : cfg1.N = 64 := N_1
  omega

/-! ## The four input blocks of a point, read off the arrays -/

/-- Point t's block of X. -/
abbrev xblk (t : Fin cfg1.N) : FVec Ideal S512x2048 .f32 := iblk1 V c 0 t
/-- Point t's block of the 0/1 selector. -/
abbrev ohblk (t : Fin cfg1.N) : FVec Ideal S512x96 .bf16 := iblk1 V c 1 t
/-- Point t's block of the stacked mean table. -/
abbrev mublk (t : Fin cfg1.N) : FVec Ideal S96x2048 .bf16 := iblk1 V c 2 t
/-- Point t's block of the stacked scale table. -/
abbrev sgblk (t : Fin cfg1.N) : FVec Ideal S96x2048 .bf16 := iblk1 V c 3 t
/-- The array X as the region finds it. -/
abbrev xarr : FVec Ideal S8192x8192 .f32 := V c main_arg3

/-- Entry (p, q) of point t's block of X is X at row 512·(t/4) + p, column 2048·(t%4) + q. -/
theorem read0 (t : Fin cfg1.N) (p : Fin 512) (q : Fin 2048) (R G : Fin 8192)
    (hR : R.val = (t.val / 4) * 512 + p.val) (hG : G.val = (t.val % 4) * 2048 + q.val) :
    xblk V c t (ix2 p q) = xarr V c (ix2 R G) := by
  obtain ⟨e0, e1, -⟩ := idx_facts t
  show V c main_arg3 (((cfg1.win 0).blk t).view.emb (ix2 p q)) = V c main_arg3 (ix2 R G)
  refine congrArg (V c main_arg3) (funext fun a => Fin.ext ?_)
  match a with
  | ⟨0, _⟩ => show win1_0.index t (0 : Fin 2) * 512 + 1 * p.val = R.val; rw [e0, hR]; omega
  | ⟨1, _⟩ => show win1_0.index t (1 : Fin 2) * 2048 + 1 * q.val = G.val; rw [e1, hG]; omega

/-- Entry (p, k) of point t's block of the selector is the selector at row 512·(t/4) + p, column k. -/
theorem read1 (hoh : V c main_v9 = Cert.Spec.onehot3 row) (t : Fin cfg1.N) (p : Fin 512) (k : Fin 96) (R : Fin 8192)
    (hR : R.val = (t.val / 4) * 512 + p.val) :
    ohblk V c t (ix2 p k) = Cert.Spec.onehot3 row (ix2 R k) := by
  obtain ⟨-, -, e0, e1, -⟩ := idx_facts t
  refine Eq.trans ?_ (congrFun hoh (ix2 R k))
  show V c main_v9 (((cfg1.win 1).blk t).view.emb (ix2 p k)) = V c main_v9 (ix2 R k)
  refine congrArg (V c main_v9) (funext fun a => Fin.ext ?_)
  match a with
  | ⟨0, _⟩ => show win1_1.index t (0 : Fin 2) * 512 + 1 * p.val = R.val; rw [e0, hR]; omega
  | ⟨1, _⟩ => show win1_1.index t (1 : Fin 2) * 96 + 1 * k.val = k.val; rw [e1]; omega

/-- Entry (k, q) of point t's block of the stacked mean table is the table at row k, column 2048·(t%4) + q. -/
theorem read2 (hmu : V c main_v0_0 = Cert.Spec.stack T1) (t : Fin cfg1.N) (k : Fin 96) (q : Fin 2048) (G : Fin 8192)
    (hG : G.val = (t.val % 4) * 2048 + q.val) :
    mublk V c t (ix2 k q) = Cert.Spec.stack T1 (ix2 k G) := by
  obtain ⟨-, -, -, -, e0, e1, -⟩ := idx_facts t
  refine Eq.trans ?_ (congrFun hmu (ix2 k G))
  show V c main_v0_0 (((cfg1.win 2).blk t).view.emb (ix2 k q)) = V c main_v0_0 (ix2 k G)
  refine congrArg (V c main_v0_0) (funext fun a => Fin.ext ?_)
  match a with
  | ⟨0, _⟩ => show win1_2.index t (0 : Fin 2) * 96 + 1 * k.val = k.val; rw [e0]; omega
  | ⟨1, _⟩ => show win1_2.index t (1 : Fin 2) * 2048 + 1 * q.val = G.val; rw [e1, hG]; omega

/-- Entry (k, q) of point t's block of the stacked scale table is the table at row k, column 2048·(t%4) + q. -/
theorem read3 (hsg : V c main_v0_1 = Cert.Spec.stack T2) (t : Fin cfg1.N) (k : Fin 96) (q : Fin 2048) (G : Fin 8192)
    (hG : G.val = (t.val % 4) * 2048 + q.val) :
    sgblk V c t (ix2 k q) = Cert.Spec.stack T2 (ix2 k G) := by
  obtain ⟨-, -, -, -, -, -, e0, e1, -⟩ := idx_facts t
  refine Eq.trans ?_ (congrFun hsg (ix2 k G))
  show V c main_v0_1 (((cfg1.win 3).blk t).view.emb (ix2 k q)) = V c main_v0_1 (ix2 k G)
  refine congrArg (V c main_v0_1) (funext fun a => Fin.ext ?_)
  match a with
  | ⟨0, _⟩ => show win1_3.index t (0 : Fin 2) * 96 + 1 * k.val = k.val; rw [e0]; omega
  | ⟨1, _⟩ => show win1_3.index t (1 : Fin 2) * 2048 + 1 * q.val = G.val; rw [e1, hG]; omega

/-! ## The block a point stores -/

/-- Entry (p, q) of the block point t stores is the log-density array at row 512·(t/4) + p, column 2048·(t%4) + q: the
    two matrix products select the table rows of that row's sample. -/
theorem blk_logp_apply (hoh : V c main_v9 = Cert.Spec.onehot3 row) (hmu : V c main_v0_0 = Cert.Spec.stack T1)
    (hsg : V c main_v0_1 = Cert.Spec.stack T2) (t : Fin cfg1.N) (p : Fin 512) (q : Fin 2048) (R G : Fin 8192)
    (hR : R.val = (t.val / 4) * 512 + p.val) (hG : G.val = (t.val % 4) * 2048 + q.val) :
    (outsAt1 V c t.val t.isLt).1 (ix2 p q) = Cert.Spec.lpArr (V c main_arg3) T1 T2 row (ix2 R G) := by
  refine (congrFun (outsAt1_logp V c t) (ix2 p q)).trans ?_
  refine (pay2_apply (ohblk V c t) (mublk V c t) (sgblk V c t) (xblk V c t) p q).trans ?_
  have hm : (∑ k : Fin 96, ohblk V c t (ix2 p k) * mublk V c t (ix2 k q)) = T1 (row R) G := by
    rw [← Cert.Spec.onehot3_contract row T1 R G]
    refine Finset.sum_congr rfl fun k _ => ?_
    rw [read1 V c row hoh t p k R hR, read2 V c T1 hmu t k q G hG]
  have hs : (∑ k : Fin 96, ohblk V c t (ix2 p k) * sgblk V c t (ix2 k q)) = T2 (row R) G := by
    rw [← Cert.Spec.onehot3_contract row T2 R G]
    refine Finset.sum_congr rfl fun k _ => ?_
    rw [read1 V c row hoh t p k R hR, read3 V c T2 hsg t k q G hG]
  rw [hm, hs, read0 V c t p q R G hR hG]
  rfl

/-- The block a point stores is its block of the log-density array: rows 512·(t/4) …, columns 2048·(t%4) …. -/
theorem blk_logp (hoh : V c main_v9 = Cert.Spec.onehot3 row) (hmu : V c main_v0_0 = Cert.Spec.stack T1)
    (hsg : V c main_v0_1 = Cert.Spec.stack T2) (t : Fin cfg1.N) :
    (outsAt1 V c t.val t.isLt).1 = fun y : S512x2048.Idx =>
      Cert.Spec.lpArr (V c main_arg3) T1 T2 row
        (ix2 (⟨(t.val / 4) * 512 + (y 0).val, by have := pt_lt t; have := idx2_lt0 y; omega⟩ : Fin 8192)
          (⟨(t.val % 4) * 2048 + (y 1).val, by have := idx2_lt1 y; omega⟩ : Fin 8192)) := by
  funext y
  obtain ⟨p, q, rfl⟩ : ∃ (p : Fin 512) (q : Fin 2048), y = ix2 p q := ⟨y 0, y 1, eq_ix2 y⟩
  exact blk_logp_apply V c T1 T2 row hoh hmu hsg t p q _ _ rfl rfl

/-! ## From the blocks to the array -/

/-- What point t writes back is block t of the log-density array. -/
theorem flushed1_4_eq (hoh : V c main_v9 = Cert.Spec.onehot3 row) (hmu : V c main_v0_0 = Cert.Spec.stack T1)
    (hsg : V c main_v0_1 = Cert.Spec.stack T2) (t : Fin cfg1.N) :
    (dat1 V c).flushed 4 t
      = ((cfg1.win 4).blk t).view.read (Elt Ideal) (Cert.Spec.lpArr (V c main_arg3) T1 T2 row) := by
  show (cfg1.win 4).cut (grid1.coords t) ((dat1 V c).after 4 t) = _
  rw [after1_4]
  obtain ⟨-, -, -, -, -, -, -, -, e0, e1⟩ := idx_facts t
  funext y
  obtain ⟨p, q, rfl⟩ : ∃ (p : Fin 512) (q : Fin 2048), y = ix2 p q := ⟨y 0, y 1, eq_ix2 y⟩
  have hp : (t.val / 4) * 512 + p.val < 8192 := by have := pt_lt t; omega
  have hq : (t.val % 4) * 2048 + q.val < 8192 := by omega
  refine (blk_logp_apply V c T1 T2 row hoh hmu hsg t p q ⟨_, hp⟩ ⟨_, hq⟩ rfl rfl).trans ?_
  show Cert.Spec.lpArr (V c main_arg3) T1 T2 row _
    = Cert.Spec.lpArr (V c main_arg3) T1 T2 row (((cfg1.win 4).blk t).view.emb (ix2 p q))
  refine congrArg (Cert.Spec.lpArr (V c main_arg3) T1 T2 row) (funext fun a => Fin.ext ?_)
  match a with
  | ⟨0, _⟩ => show (t.val / 4) * 512 + p.val = win1_4.index t (0 : Fin 2) * 512 + 1 * p.val; rw [e0]; omega
  | ⟨1, _⟩ => show (t.val % 4) * 2048 + q.val = win1_4.index t (1 : Fin 2) * 2048 + 1 * q.val; rw [e1]; omega

/-- An entry of the array is in point t's block iff each coordinate is in the block's range on its axis. -/
theorem mem_blk1_4 (t : Fin cfg1.N) (i : S8192x8192.Idx) :
    i ∈ ((cfg1.win 4).blk t).view.set ↔ ∀ a : Fin 2, win1_4.index t a * S512x2048.size a ≤ (i a).val
      ∧ (i a).val < win1_4.index t a * S512x2048.size a + S512x2048.size a := by
  show i ∈ ((View.whole main_v10_0).slice (win1_4.rect t)).set ↔ _
  rw [View.set_slice_whole, Rect.mem_set_unit]
  exact Iff.rfl

/-- Every entry (r, g) lies in the block of the point 4·(r / 512) + g / 2048. -/
theorem cover4 (i : S8192x8192.Idx) :
    ∃ t : Fin cfg1.N, (cfg1.win 4).flush t = true ∧ i ∈ ((cfg1.win 4).blk t).view.set := by
  have hi0 : (i 0).val < 8192 := idx2_lt0 i
  have hi1 : (i 1).val < 8192 := idx2_lt1 i
  have hN : cfg1.N = 64 := N_1
  have ht : 4 * ((i 0).val / 512) + (i 1).val / 2048 < cfg1.N := by omega
  obtain ⟨-, -, -, -, -, -, -, -, e0, e1⟩ := idx_facts ⟨_, ht⟩
  refine ⟨⟨_, ht⟩, flush1_4 _, ?_⟩
  rw [mem_blk1_4]
  intro a
  match a with
  | ⟨0, _⟩ =>
    show win1_4.index ⟨_, ht⟩ (0 : Fin 2) * 512 ≤ (i 0).val ∧ (i 0).val < win1_4.index ⟨_, ht⟩ (0 : Fin 2) * 512 + 512
    rw [e0]
    show (4 * ((i 0).val / 512) + (i 1).val / 2048) / 4 * 512 ≤ (i 0).val
      ∧ (i 0).val < (4 * ((i 0).val / 512) + (i 1).val / 2048) / 4 * 512 + 512
    omega
  | ⟨1, _⟩ =>
    show win1_4.index ⟨_, ht⟩ (1 : Fin 2) * 2048 ≤ (i 1).val ∧ (i 1).val < win1_4.index ⟨_, ht⟩ (1 : Fin 2) * 2048 + 2048
    rw [e1]
    show (4 * ((i 0).val / 512) + (i 1).val / 2048) % 4 * 2048 ≤ (i 1).val
      ∧ (i 1).val < (4 * ((i 0).val / 512) + (i 1).val / 2048) % 4 * 2048 + 2048
    omega

/-- After the last point the log-probability array is the specification's log-density array. -/
theorem arr1_logp (hoh : V c main_v9 = Cert.Spec.onehot3 row) (hmu : V c main_v0_0 = Cert.Spec.stack T1)
    (hsg : V c main_v0_1 = Cert.Spec.stack T2) :
    (dat1 V c).arrAt 4 cfg1.N = Cert.Spec.lpArr (V c main_arg3) T1 T2 row :=
  (dat1 V c).arrAt_eq_of_cover 4 (Cert.Spec.lpArr (V c main_arg3) T1 T2 row)
    (fun t _ => flushed1_4_eq V c T1 T2 row hoh hmu hsg t) cover4

end Region1

end Cert.KernelIdeal.Val

end
-- ==== Proof.Val.K3.lean ====
/- The per-row-block sums the log-probability kernel leaves in its second output, and their grand total: the carried
   accumulator at every grid point as a partial sum of block sums of the log-density array, the sum array after the
   run, and the regrouping of the total into the sum over the whole array. -/
import proofs.«405995_j80152679678262_3_alg».proof.Proof.KI.R1
import proofs.«405995_j80152679678262_3_alg».proof.Proof.KI.R1Val
import proofs.«405995_j80152679678262_3_alg».proof.Proof.Val.K1
import proofs.«405995_j80152679678262_3_alg».proof.Proof.Val.Spec
import proofs.«405995_j80152679678262_3_alg».proof.Proof.Val.Laws
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand Idealize.ShloMosaic Idealize.ShloMosaic.TcCoe Idealize.ShloMosaic.ValueIdx Idealize.SL.Sem
open Idealize.ShloMosaic.Pipeline (Dat Cfg Window cellOf)

/-! ## The accumulator's update, read at the extended reals -/

/-- The update of the accumulator from the point's log-density block: the block summed along its lanes, then along its
    rows, added to the accumulator. -/
def accStep {F : FTy → Type} [FloatOps F] (lp : FVec F S512x2048 .f32) (v26 : Vec F S1x1x1 .f32) : FVec F S1x1x1 .f32 :=
  have v22 : FVec F S512 .f32 := multiReduction .add [1] S512 lp 0x00000000#32 reduces_S512x2048_S512 (.inl rfl) rfl
  have v23 : FVec F S512x1 .f32 := shapeCast S512x1 v22 shapeCasts_S512_S512x1
  have v24 : FVec F S1 .f32 := multiReduction .add [0] S1 v23 0x00000000#32 reduces_S512x1_S1 (.inl rfl) rfl
  have v25 : FVec F S1x1 .f32 := shapeCast S1x1 v24 shapeCasts_S1_S1x1
  have v27 : FVec F S1x1x1 .f32 := shapeCast S1x1x1 v25 shapeCasts_S1x1_S1x1x1
  have v28 : FVec F S1x1x1 .f32 := addf v26 v27
  have v31 : FVec F S1x1x1 .f32 := shapeCast S1x1x1 v28 shapeCasts_S1x1x1_S1x1x1
  v31

theorem k1_pay3_eq {F : FTy → Type} [FloatOps F] (v3 : Vec F S512x96 .bf16) (v5 : Vec F S96x2048 .bf16) (v8 : Vec F S96x2048 .bf16) (v11 : Vec F S512x2048 .f32) (v26 : Vec F S1x1x1 .f32) :
    k1_pay3 v3 v5 v8 v11 v26 = accStep (k1_pay2 v3 v5 v8 v11) v26 := rfl

/-- A rank-3 index of a one-element shape sits at row-major position 0. -/
theorem rm_S1x1x1 (j : S1x1x1.Idx) : (S1x1x1.rowMajor j).val = 0 := by
  have h : (S1x1x1.rowMajor j).val < 1 := (S1x1x1.rowMajor j).isLt
  omega

theorem rm_S1x1 (j : S1x1.Idx) : (S1x1.rowMajor j).val = 0 := by
  have h : (S1x1.rowMajor j).val < 1 := (S1x1.rowMajor j).isLt
  omega

theorem rm_S1 (j : S1.Idx) : (S1.rowMajor j).val = 0 := by
  have h : (S1.rowMajor j).val < 1 := (S1.rowMajor j).isLt
  omega

/-- The lane sums of a 512 × 2048 block, as a column. -/
theorem laneSum_apply (lp : FVec Ideal S512x2048 .f32) (r : Fin 512) :
    multiReduction (F := Ideal) .add [1] S512 lp 0x00000000#32 reduces_S512x2048_S512 (.inl rfl) rfl (ix1 r)
      = ∑ g : Fin 2048, lp (ix2 r g) := by
  refine (Ideal.multiReduction_add_single lp 0x00000000#32 reduces_S512x2048_S512 (.inl rfl) rfl (ix1 r)).trans ?_
  refine Finset.sum_congr rfl fun g _ => ?_
  exact congrArg lp (funext fun a => Fin.ext (by match a with | ⟨0, _⟩ => rfl | ⟨1, _⟩ => rfl))

/-- The accumulator's update at the extended reals: the accumulator plus the sum of the whole block, rows outermost. -/
theorem accStep_apply (lp : FVec Ideal S512x2048 .f32) (acc : Vec Ideal S1x1x1 .f32) (j : S1x1x1.Idx) :
    accStep (F := Ideal) lp acc j = (acc j : EReal) + ∑ r : Fin 512, ∑ g : Fin 2048, (lp (ix2 r g) : EReal) := by
  unfold accStep
  rw [shapeCast_self]
  refine congrArg ((acc j : EReal) + ·) ?_
  refine (shapeCast_apply _ _ j (ix2 (0 : Fin 1) (0 : Fin 1)) ((rm_S1x1 _).trans (rm_S1x1x1 _).symm)).trans ?_
  refine (shapeCast_apply _ _ (ix2 (0 : Fin 1) (0 : Fin 1)) (ix1 (0 : Fin 1)) ((rm_S1 _).trans (rm_S1x1 _).symm)).trans ?_
  refine (Ideal.multiReduction_add_single _ 0x00000000#32 reduces_S512x1_S1 (.inl rfl) rfl (ix1 (0 : Fin 1))).trans ?_
  refine Finset.sum_congr rfl fun r _ => ?_
  refine (shapeCast_apply _ _ _ (ix1 r) ?_).trans (laneSum_apply lp r)
  rw [Shape.rowMajor_val_one, Shape.rowMajor_val_two]
  show r.val = r.val * 1 + 0
  omega

/-! ## The accumulator point by point -/

/-- The zero splat the accumulator restarts from is zero. -/
theorem pay1_zero (j : S1x1x1.Idx) : (k1_pay1 (F := Ideal) j : EReal) = 0 := by
  unfold k1_pay1
  rw [shapeCast_self]
  exact Ideal.ofBits_zero_f32

/-- The partial sums of a row block: the first `k + 1` column-block sums added from zero, in the kernel's order. -/
def accE (f : Cert.Spec.Sx.Idx → EReal) (a : Fin 16) : ℕ → EReal
  | 0 => 0 + Cert.Spec.blockSum f a 0
  | n + 1 => accE f a n + Cert.Spec.blockSum f a ⟨(n + 1) % 4, Nat.mod_lt _ (by omega)⟩

/-- After the fourth column block the partial sum is the row block's sum. -/
theorem accE_three (f : Cert.Spec.Sx.Idx → EReal) (a : Fin 16) : accE f a 3 = Cert.Spec.rowSum f a := rfl

theorem accE_succ (f : Cert.Spec.Sx.Idx → EReal) (a : Fin 16) (m : ℕ) (b : Fin 4) (hb : b.val = (m + 1) % 4) :
    accE f a (m + 1) = accE f a m + Cert.Spec.blockSum f a b := by
  have e : b = ⟨(m + 1) % 4, Nat.mod_lt _ (Nat.succ_pos 3)⟩ := Fin.ext hb
  rw [e]
  rfl

/-- The first partial sum, at a column block numbered 0. -/
theorem accE_first (f : Cert.Spec.Sx.Idx → EReal) (a : Fin 16) (k : ℕ) (b : Fin 4) (hk : k = 0) (hb : b.val = k) :
    (0 : EReal) + Cert.Spec.blockSum f a b = accE f a k := by
  subst hk
  obtain rfl : b = 0 := Fin.ext hb
  rfl

/-- A later partial sum: the one before, in the same row block, plus the column block's sum. -/
theorem accE_next (f : Cert.Spec.Sx.Idx → EReal) (a a' : Fin 16) (k m : ℕ) (b : Fin 4) (ha : a' = a) (hk : k = m + 1)
    (hb : b.val = k) : accE f a' m + Cert.Spec.blockSum f a b = accE f a k := by
  subst ha hk
  exact (accE_succ f a' m b (by have := b.isLt; omega)).symm

section Region1

variable (V : (c : Dev nD) → (b : Ref sig .tc) → Buf (Elt Ideal) ((c : Thread nD τ).loc b)) (c : Dev nD)
  (T1 T2 : Fin 32 → Fin 8192 → EReal) (row : Fin 8192 → Fin 32)

/-- The block a point stores, summed, is that block's sum of the log-density array. -/
theorem blk_sum (hoh : V c main_v9 = Cert.Spec.onehot3 row) (hmu : V c main_v0_0 = Cert.Spec.stack T1)
    (hsg : V c main_v0_1 = Cert.Spec.stack T2) (t : Fin cfg1.N) :
    ∑ r : Fin 512, ∑ g : Fin 2048, ((outsAt1 V c t.val t.isLt).1 (ix2 r g) : EReal)
      = Cert.Spec.blockSum (Cert.Spec.lpArr (V c main_arg3) T1 T2 row) (⟨t.val / 4, by have := pt_lt t; omega⟩ : Fin 16)
          (⟨t.val % 4, Nat.mod_lt _ (by omega)⟩ : Fin 4) := by
  rw [blk_logp V c T1 T2 row hoh hmu hsg t]
  rfl

/-- The accumulator's update at a point: what it held plus the point's block sum. -/
theorem acc_update (hoh : V c main_v9 = Cert.Spec.onehot3 row) (hmu : V c main_v0_0 = Cert.Spec.stack T1)
    (hsg : V c main_v0_1 = Cert.Spec.stack T2) (t : Fin cfg1.N) (prev : Vec Ideal S1x1x1 .f32) (j : S1x1x1.Idx) :
    k1_pay3 (iblk1 V c 1 t) (iblk1 V c 2 t) (iblk1 V c 3 t) (iblk1 V c 0 t) prev j
      = (prev j : EReal) + Cert.Spec.blockSum (Cert.Spec.lpArr (V c main_arg3) T1 T2 row)
          (⟨t.val / 4, by have := pt_lt t; omega⟩ : Fin 16) (⟨t.val % 4, Nat.mod_lt _ (by omega)⟩ : Fin 4) := by
  refine (congrFun (k1_pay3_eq (iblk1 V c 1 t) (iblk1 V c 2 t) (iblk1 V c 3 t) (iblk1 V c 0 t) prev) j).trans ?_
  rw [← outsAt1_logp V c t]
  refine (accStep_apply (outsAt1 V c t.val t.isLt).1 prev j).trans ?_
  rw [blk_sum V c T1 T2 row hoh hmu hsg t]

/-- The accumulator after point `t`: the partial sum of row block `t / 4` through column block `t % 4`. -/
theorem acc_at (hoh : V c main_v9 = Cert.Spec.onehot3 row) (hmu : V c main_v0_0 = Cert.Spec.stack T1)
    (hsg : V c main_v0_1 = Cert.Spec.stack T2) (t : Fin cfg1.N) :
    (outsAt1 V c t.val t.isLt).2.2 = fun _ =>
      accE (Cert.Spec.lpArr (V c main_arg3) T1 T2 row) (⟨t.val / 4, by have := pt_lt t; omega⟩ : Fin 16) (t.val % 4) := by
  have key : ∀ (n : ℕ) (t : Fin cfg1.N), t.val = n → (outsAt1 V c t.val t.isLt).2.2 = fun _ =>
      accE (Cert.Spec.lpArr (V c main_arg3) T1 T2 row) (⟨t.val / 4, by have := pt_lt t; omega⟩ : Fin 16) (t.val % 4) := by
    intro n
    induction n with
    | zero =>
      intro t ht
      have h0 : t.val % 4 = 0 := by omega
      refine (outsAt1_acc_first V c t h0).trans ?_
      funext j
      refine (acc_update V c T1 T2 row hoh hmu hsg t (k1_pay1 (F := Ideal)) j).trans ?_
      rw [pay1_zero j]
      exact accE_first _ _ (t.val % 4) _ h0 rfl
    | succ n ih =>
      intro t ht
      by_cases h0 : t.val % 4 = 0
      · refine (outsAt1_acc_first V c t h0).trans ?_
        funext j
        refine (acc_update V c T1 T2 row hoh hmu hsg t (k1_pay1 (F := Ideal)) j).trans ?_
        rw [pay1_zero j]
        exact accE_first _ _ (t.val % 4) _ h0 rfl
      · have hlt : t.val - 1 < cfg1.N := Nat.lt_of_le_of_lt (Nat.sub_le _ _) t.isLt
        have ih' : (outsAt1 V c (t.val - 1) hlt).2.2 = fun _ =>
            accE (Cert.Spec.lpArr (V c main_arg3) T1 T2 row) (⟨(t.val - 1) / 4, by have := pt_lt t; omega⟩ : Fin 16) ((t.val - 1) % 4) :=
          ih ⟨t.val - 1, hlt⟩ (by show t.val - 1 = n; omega)
        refine (outsAt1_acc_next V c t h0).trans ?_
        funext j
        refine (acc_update V c T1 T2 row hoh hmu hsg t (outsAt1 V c (t.val - 1) hlt).2.2 j).trans ?_
        rw [ih']
        exact accE_next _ _ _ (t.val % 4) ((t.val - 1) % 4) _ (Fin.ext (by show (t.val - 1) / 4 = t.val / 4; omega)) (by omega) rfl
  exact key t.val t rfl

/-! ## The sum array after the run -/

/-- The sum window's block indices over the grid: row block `t / 4`, the two unit axes at 0. -/
theorem idx5 : ∀ t : Fin cfg1.N, win1_5.index t (0 : Fin 3) = t.val / 4 ∧ win1_5.index t (1 : Fin 3) = 0
    ∧ win1_5.index t (2 : Fin 3) = 0 :=
  (by decide +kernel : ∀ t : Fin grid1.N, _)

/-- An index of the sum array is in point `t`'s block iff each coordinate is in the block's range on its axis. -/
theorem mem_blk5 (t : Fin cfg1.N) (i : S16x1x1.Idx) :
    i ∈ ((cfg1.win 5).blk t).view.set ↔ ∀ a : Fin 3, win1_5.index t a * S1x1x1.size a ≤ (i a).val
      ∧ (i a).val < win1_5.index t a * S1x1x1.size a + S1x1x1.size a := by
  show i ∈ ((View.whole main_v10_1).slice (win1_5.rect t)).set ↔ _
  rw [View.set_slice_whole, Rect.mem_set_unit]
  exact Iff.rfl

/-- What a writing-back point writes back is its block of the row-block sums. -/
theorem flushed5_eq (hoh : V c main_v9 = Cert.Spec.onehot3 row) (hmu : V c main_v0_0 = Cert.Spec.stack T1)
    (hsg : V c main_v0_1 = Cert.Spec.stack T2) (t : Fin cfg1.N) (hf : (cfg1.win 5).flush t = true) :
    (dat1 V c).flushed 5 t = ((cfg1.win 5).blk t).view.read (Elt Ideal) (fun a : S16x1x1.Idx =>
      Cert.Spec.rowSum (Cert.Spec.lpArr (V c main_arg3) T1 T2 row) (⟨(a 0).val, (a 0).isLt⟩ : Fin 16)) := by
  have h3 : t.val % 4 = 3 := (flush1_5 t).mp hf
  show (cfg1.win 5).cut (grid1.coords t) ((dat1 V c).after 5 t) = _
  rw [after1_5, outsAt1_sum V c t h3, acc_at V c T1 T2 row hoh hmu hsg t]
  funext j
  obtain ⟨e0, e1, e2⟩ := idx5 t
  show accE (Cert.Spec.lpArr (V c main_arg3) T1 T2 row) (⟨t.val / 4, _⟩ : Fin 16) (t.val % 4)
    = Cert.Spec.rowSum (Cert.Spec.lpArr (V c main_arg3) T1 T2 row) (⟨((((cfg1.win 5).blk t).view.emb j) 0).val, _⟩ : Fin 16)
  have ea : (⟨((((cfg1.win 5).blk t).view.emb j) 0).val, ((((cfg1.win 5).blk t).view.emb j) 0).isLt⟩ : Fin 16)
      = (⟨t.val / 4, by have := pt_lt t; omega⟩ : Fin 16) := by
    apply Fin.ext
    show win1_5.index t (0 : Fin 3) * 1 + 1 * (j 0).val = t.val / 4
    have hj : (j 0).val < 1 := (j 0).isLt
    omega
  rw [ea, h3]
  rfl

/-- After the last point the sum array holds each row block's sum. -/
theorem arr1_sum (hoh : V c main_v9 = Cert.Spec.onehot3 row) (hmu : V c main_v0_0 = Cert.Spec.stack T1)
    (hsg : V c main_v0_1 = Cert.Spec.stack T2) :
    (dat1 V c).arrAt 5 cfg1.N = fun a : S16x1x1.Idx =>
      Cert.Spec.rowSum (Cert.Spec.lpArr (V c main_arg3) T1 T2 row) (⟨(a 0).val, (a 0).isLt⟩ : Fin 16) := by
  refine (dat1 V c).arrAt_eq_of_cover 5 _ (fun t hf => flushed5_eq V c T1 T2 row hoh hmu hsg t hf) ?_
  intro i
  have hi0 : (i 0).val < 16 := (i 0).isLt
  have hi1 : (i 1).val < 1 := (i 1).isLt
  have hi2 : (i 2).val < 1 := (i 2).isLt
  have hN : cfg1.N = 64 := N_1
  -- row block `i 0` is written back by its last point, 4 · (i 0) + 3
  obtain ⟨t0, ht0⟩ : ∃ t0 : Fin cfg1.N, t0.val = 4 * (i 0).val + 3 := ⟨⟨4 * (i 0).val + 3, by omega⟩, rfl⟩
  obtain ⟨e0, e1, e2⟩ := idx5 t0
  refine ⟨t0, (flush1_5 t0).mpr (by omega), ?_⟩
  rw [mem_blk5]
  intro a
  match a with
  | ⟨0, _⟩ => show win1_5.index t0 (0 : Fin 3) * 1 ≤ (i 0).val ∧ (i 0).val < win1_5.index t0 (0 : Fin 3) * 1 + 1; omega
  | ⟨1, _⟩ => show win1_5.index t0 (1 : Fin 3) * 1 ≤ (i 1).val ∧ (i 1).val < win1_5.index t0 (1 : Fin 3) * 1 + 1; omega
  | ⟨2, _⟩ => show win1_5.index t0 (2 : Fin 3) * 1 ≤ (i 2).val ∧ (i 2).val < win1_5.index t0 (2 : Fin 3) * 1 + 1; omega

end Region1

/-! ## The grand total -/

/-- The sum array's index as a row-block number. -/
def sumIdx : S16x1x1.Idx ≃ Fin 16 where
  toFun a := ⟨(a 0).val, (a 0).isLt⟩
  invFun k := ix3 k (0 : Fin 1) (0 : Fin 1)
  left_inv a := by
    funext d
    apply Fin.ext
    match d with
    | ⟨0, _⟩ => rfl
    | ⟨1, _⟩ => have h : (a 1).val < 1 := (a 1).isLt; show 0 = (a 1).val; omega
    | ⟨2, _⟩ => have h : (a 2).val < 1 := (a 2).isLt; show 0 = (a 2).val; omega
  right_inv k := rfl

/-- The sixteen row-block sums added from zero are the sum over the whole array added from zero. -/
theorem total_eq (f : Cert.Spec.Sx.Idx → EReal) :
    (0 : EReal) + ∑ a : S16x1x1.Idx, Cert.Spec.rowSum f (⟨(a 0).val, (a 0).isLt⟩ : Fin 16) = 0 + ∑ i : Cert.Spec.Sx.Idx, f i := by
  rw [Cert.Spec.sum_blocks f]
  refine congrArg ((0 : EReal) + ·) ?_
  exact Fintype.sum_equiv sumIdx _ _ (fun a => rfl)

end Cert.KernelIdeal.Val

end
-- ==== Proof.Val.Kernel.lean ====
/- The kernel program's two results as the specification's functions of the five argument arrays: the fold of buffer
   contents through the launch read at the two result buffers, the table region's two arrays as stacked state tables,
   the one-hot selector of each sample's clamped day, and the second region's log-density array and block sums, put
   together. -/
import proofs.«405995_j80152679678262_3_alg».proof.Proof.KI.Run
import proofs.«405995_j80152679678262_3_alg».proof.Proof.Val.Spec
import proofs.«405995_j80152679678262_3_alg».proof.Proof.Val.Fold
import proofs.«405995_j80152679678262_3_alg».proof.Proof.Val.FoldOut
import proofs.«405995_j80152679678262_3_alg».proof.Proof.Val.K0
import proofs.«405995_j80152679678262_3_alg».proof.Proof.Val.K1
import proofs.«405995_j80152679678262_3_alg».proof.Proof.Val.K3

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The mean table region 1 reads: the stacked mean table of the launch arguments. -/
theorem V4_mu
    (hcp : ∀ i, ∃ r : ℝ, (m ((c.tc : Thread nD τ).loc main_arg0) : Cert.Spec.Sa.Idx → EReal) i = (r : EReal))
    (hzm : ∀ i, ∃ r : ℝ, (m ((c.tc : Thread nD τ).loc main_arg1) : Cert.Spec.Sz.Idx → EReal) i = (r : EReal)) :
    V4 m ρ c main_v0_0
      = Cert.Spec.stack (Cert.Spec.muT (m ((c.tc : Thread nD τ).loc main_arg0)) (m ((c.tc : Thread nD τ).loc main_arg1))) := by
  have h0 := V0_arg0 m ρ c
  have h1 := V0_arg1 m ρ c
  refine (V4_v0_0 m ρ c).trans ?_
  refine (arr0_mu (V0 m ρ) c (by rw [h0]; exact hcp) (by rw [h1]; exact hzm)).trans ?_
  rw [h0, h1]

/-- The scale table region 1 reads: the stacked scale table of the launch arguments. -/
theorem V4_sg
    (hcp : ∀ i, ∃ r : ℝ, (m ((c.tc : Thread nD τ).loc main_arg0) : Cert.Spec.Sa.Idx → EReal) i = (r : EReal))
    (hzs : ∀ i, ∃ r : ℝ, (m ((c.tc : Thread nD τ).loc main_arg2) : Cert.Spec.Sz.Idx → EReal) i = (r : EReal)) :
    V4 m ρ c main_v0_1
      = Cert.Spec.stack (Cert.Spec.sgT (m ((c.tc : Thread nD τ).loc main_arg0)) (m ((c.tc : Thread nD τ).loc main_arg2))) := by
  have h0 := V0_arg0 m ρ c
  have h2 := V0_arg2 m ρ c
  refine (V4_v0_1 m ρ c).trans ?_
  refine (arr0_sg (V0 m ρ) c (by rw [h0]; exact hcp) (by rw [h2]; exact hzs)).trans ?_
  rw [h0, h2]

/-- The second result buffer after the launch is the log-density array of the specification. -/
theorem kernel_logp
    (hcp : ∀ i, ∃ r : ℝ, (m ((c.tc : Thread nD τ).loc main_arg0) : Cert.Spec.Sa.Idx → EReal) i = (r : EReal))
    (hzm : ∀ i, ∃ r : ℝ, (m ((c.tc : Thread nD τ).loc main_arg1) : Cert.Spec.Sz.Idx → EReal) i = (r : EReal))
    (hzs : ∀ i, ∃ r : ℝ, (m ((c.tc : Thread nD τ).loc main_arg2) : Cert.Spec.Sz.Idx → EReal) i = (r : EReal))
    (hday : ∀ j, (1 : Int) ≤ (m ((c.tc : Thread nD τ).loc main_arg4) j).toInt) :
    W6 m ρ c (Proc.devRef .tc main_v10_0)
      = Cert.Spec.logpG (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  rw [Cert.Spec.logpG_eq]
  refine (W6_v10_0 m ρ c).trans ?_
  refine (arr1_logp (V4 m ρ) c _ _ _ (V4_v9 m ρ c hday) (V4_mu m ρ c hcp hzm) (V4_sg m ρ c hcp hzs)).trans ?_
  rw [V4_arg3 m ρ c]

/-- The first result buffer after the launch is the specification's grand total. -/
theorem kernel_total
    (hcp : ∀ i, ∃ r : ℝ, (m ((c.tc : Thread nD τ).loc main_arg0) : Cert.Spec.Sa.Idx → EReal) i = (r : EReal))
    (hzm : ∀ i, ∃ r : ℝ, (m ((c.tc : Thread nD τ).loc main_arg1) : Cert.Spec.Sz.Idx → EReal) i = (r : EReal))
    (hzs : ∀ i, ∃ r : ℝ, (m ((c.tc : Thread nD τ).loc main_arg2) : Cert.Spec.Sz.Idx → EReal) i = (r : EReal))
    (hday : ∀ j, (1 : Int) ≤ (m ((c.tc : Thread nD τ).loc main_arg4) j).toInt) :
    W6 m ρ c (Proc.devRef .tc main_v12)
      = Cert.Spec.totalG (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  unfold Cert.Spec.totalG
  rw [Cert.Spec.logpG_eq]
  refine (W6_v12 m ρ c _
    (arr1_sum (V4 m ρ) c _ _ _ (V4_v9 m ρ c hday) (V4_mu m ρ c hcp hzm) (V4_sg m ρ c hcp hzs))).trans ?_
  funext _
  rw [V4_arg3 m ρ c]
  exact total_eq _

end Cert.KernelIdeal.Val

end
-- ==== Proof.Val.RefLaws.lean ====
/- The arithmetic behind the scale table, with no program in it: over finite reals, the two groupings of
   Σ p²σ + (Σ pσ)² − Σ p²σ² agree, and a day at least one selects the row day − 1. -/
import proofs.«405995_j80152679678262_3_alg».proof.Proof.Val.Spec
import Mathlib.Data.EReal.Operations
import Mathlib.Algebra.BigOperators.Group.Finset.Basic
import Mathlib.Tactic.Ring

noncomputable section

namespace Cert.RefLaws

open scoped BigOperators

/-- A finite sum of real numbers, read in the extended reals, is the sum of the readings. -/
theorem coe_sum {ι : Type*} (s : Finset ι) (f : ι → ℝ) :
    ∑ k ∈ s, ((f k : ℝ) : EReal) = ((∑ k ∈ s, f k : ℝ) : EReal) := by
  classical
  refine Finset.induction_on s (by simp) ?_
  intro a s ha ih
  rw [Finset.sum_insert ha, Finset.sum_insert ha, ih, EReal.coe_add]

/-- Over finite reals: Σ p²σ + ((0 + Σ pσ)·(0 + Σ pσ) − (0 + Σ (pσ)·(pσ))) = (Σ p²σ + (Σ pσ)·(Σ pσ)) − Σ p²·σ².
    In the extended reals the regrouping of the sum and the difference is valid only because no term is infinite. -/
theorem scale_regroup {n : Nat} (p σ : Fin n → EReal) (hp : ∀ k, ∃ r : ℝ, p k = (r : EReal))
    (hσ : ∀ k, ∃ r : ℝ, σ k = (r : EReal)) :
    (∑ k, (p k * p k) * σ k)
        + ((0 + ∑ k, p k * σ k) * (0 + ∑ k, p k * σ k) - (0 + ∑ k, (p k * σ k) * (p k * σ k)))
      = (∑ k, (p k * p k) * σ k) + (∑ k, p k * σ k) * (∑ k, p k * σ k)
        - ∑ k, (p k * p k) * (σ k * σ k) := by
  choose pr hpr using hp
  choose sr hsr using hσ
  simp only [hpr, hsr, zero_add]
  simp only [← EReal.coe_mul, coe_sum, ← EReal.coe_add, ← EReal.coe_sub]
  congr 1
  have e : ∑ k, pr k * sr k * (pr k * sr k) = ∑ k, pr k * pr k * (sr k * sr k) :=
    Finset.sum_congr rfl fun k _ => by ring
  rw [e]; ring

/-- A day of at least one, less one, read signed: the day's signed value less one (no wrap), so not negative. -/
theorem toInt_sub_one (d : BitVec 32) (h : (1 : Int) ≤ d.toInt) : (d - 1#32).toInt = d.toInt - 1 := by
  have h1 : (1#32 : BitVec 32).toInt = 1 := by decide
  have hlt := BitVec.toInt_lt (x := d)
  rw [BitVec.toInt_sub, h1]
  norm_num at hlt ⊢
  exact Int.bmod_eq_of_le (by omega) (by omega)

end Cert.RefLaws

end
-- ==== Proof.Val.Ref.lean ====
/- The reference's two results, read off its run one operation at a time, are the specification's functions of the
   argument arrays: the mean table is the matrix product, the scale table is the regrouped sum of three contractions
   (equal to the specification's grouping because every entry is a finite real), a day of at least one selects the row
   day − 1 (the wrap-around branch is never taken, and the row gather clamps into 0 … 31), each entry's value is the
   Gaussian log-density at its sample's row, and the total is the sum of all of them from zero. -/
import proofs.«405995_j80152679678262_3_alg».proof.Proof.Gen.ReferenceIdeal.Run
import proofs.«405995_j80152679678262_3_alg».proof.Proof.Gen.ReferenceIdeal.Read
import proofs.«405995_j80152679678262_3_alg».proof.Proof.Val.Spec
import proofs.«405995_j80152679678262_3_alg».proof.Proof.Val.RefLaws

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The row gather read at an index

Rows of a [32, 8192] table at a [8192, 1] array of start indices: result entry (r, g) is the table's entry (ρ, g) with
ρ the start index at (r, 0) read signed and clamped into 0 … 31. -/

/-- On the table's row axis the operand index is the clamped start index. -/
theorem gather_axis0 {w : Nat} (idx : IVec S8192x1 w) (r g : Fin 8192) :
    (gather_S32x8192_S8192x1_S8192x8192_1_0_n_n_0_1_18192.operandIdx (ix2 r g) idx 0).val
      = min (idx (ix2 r (0 : Fin 1))).toInt.toNat 31 := by
  show gather_S32x8192_S8192x1_S8192x8192_1_0_n_n_0_1_18192.start (ix2 r g) idx 0
      + gather_S32x8192_S8192x1_S8192x8192_1_0_n_n_0_1_18192.batchCoord (ix2 r g) 0
      + gather_S32x8192_S8192x1_S8192x8192_1_0_n_n_0_1_18192.offCoord (ix2 r g) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S32x8192_S8192x1_S8192x8192_1_0_n_n_0_1_18192.startIndexMap from
    List.mem_singleton.mpr rfl)]
  have hsi : gather_S32x8192_S8192x1_S8192x8192_1_0_n_n_0_1_18192.siIdx (ix2 r g)
      ⟨List.idxOf (0 : Fin 2) gather_S32x8192_S8192x1_S8192x8192_1_0_n_n_0_1_18192.startIndexMap,
        List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the table's column axis the operand index is the result's column. -/
theorem gather_axis1 {w : Nat} (idx : IVec S8192x1 w) (r g : Fin 8192) :
    (gather_S32x8192_S8192x1_S8192x8192_1_0_n_n_0_1_18192.operandIdx (ix2 r g) idx 1).val = g.val := by
  show gather_S32x8192_S8192x1_S8192x8192_1_0_n_n_0_1_18192.start (ix2 r g) idx 1
      + gather_S32x8192_S8192x1_S8192x8192_1_0_n_n_0_1_18192.batchCoord (ix2 r g) 1
      + gather_S32x8192_S8192x1_S8192x8192_1_0_n_n_0_1_18192.offCoord (ix2 r g) 1 = _
  rw [GatherDims.batchCoord_eq_zero _ _ _ List.not_mem_nil]
  unfold GatherDims.start
  rw [dif_neg (show ¬(1 : Fin 2) ∈ gather_S32x8192_S8192x1_S8192x8192_1_0_n_n_0_1_18192.startIndexMap by decide)]
  unfold GatherDims.offCoord
  rw [dif_pos (show (1 : Fin 2) ∈ gather_S32x8192_S8192x1_S8192x8192_1_0_n_n_0_1_18192.sKept by decide)]
  have e : ∀ h : List.idxOf (1 : Fin 2) gather_S32x8192_S8192x1_S8192x8192_1_0_n_n_0_1_18192.sKept
        < gather_S32x8192_S8192x1_S8192x8192_1_0_n_n_0_1_18192.offsetDims.length,
      gather_S32x8192_S8192x1_S8192x8192_1_0_n_n_0_1_18192.offsetDims[List.idxOf (1 : Fin 2)
        gather_S32x8192_S8192x1_S8192x8192_1_0_n_n_0_1_18192.sKept]'h = (1 : Fin 2) := by decide
  simp only [Nat.zero_add]
  exact congrArg (fun a => ((ix2 r g) a).val) (e _)

/-- The row gather at (r, g): the table at (ρ, g), ρ the clamped start index. -/
theorem gather_rows_apply {α : Type} {w : Nat} (x : S32x8192.Idx → α) (idx : IVec S8192x1 w) (r g : Fin 8192)
    (ρ : Fin 32) (hρ : ρ.val = min (idx (ix2 r (0 : Fin 1))).toInt.toNat 31) :
    Host.gather gather_S32x8192_S8192x1_S8192x8192_1_0_n_n_0_1_18192 x idx (ix2 r g) = x (ix2 ρ g) := by
  unfold Host.gather
  refine congrArg x (funext fun a => Fin.ext ?_)
  match a with
  | ⟨0, _⟩ => exact (gather_axis0 idx r g).trans hρ.symm
  | ⟨1, _⟩ => exact gather_axis1 idx r g

/-! ## The day's row -/

/-- For a day of at least one, day − 1 is not negative, so "day − 1 < 0" is the bit 0. -/
theorem slt_zero (d : BitVec 32) (h : (1 : Int) ≤ d.toInt) : IntOp.cmpi .slt (IntOp.subi d 1#32) 0#32 = 0#1 := by
  have h' := Cert.RefLaws.toInt_sub_one d h
  have hf : (d - 1#32).slt 0#32 = false := by
    simp only [BitVec.slt, h', BitVec.toInt_zero, decide_eq_false_iff_not]
    omega
  show BitVec.ofBool ((d - 1#32).slt 0#32) = 0#1
  rw [hf]; rfl

section Read

variable (x0 : (⟨S32x128, .f32⟩ : BufTy).Contents (Elt Ideal)) (x1 x2 : (⟨S128x8192, .f32⟩ : BufTy).Contents (Elt Ideal))
  (x3 : (⟨S8192x8192, .f32⟩ : BufTy).Contents (Elt Ideal)) (x4 : (⟨S8192, .i32⟩ : BufTy).Contents (Elt Ideal))

/-- The first start-index array at (r, 0) is day r − 1: the wrap-around branch of the select is not taken. -/
theorem v21_apply (h4 : ∀ j, (1 : Int) ≤ (x4 j).toInt) (r : Fin 8192) :
    val_main_v21 (F := Ideal) x4 (ix2 r (0 : Fin 1)) = x4 (ix1 r) - 1#32 := by
  have ei : idx_main_v21 (ix2 r (0 : Fin 1)) = ix1 r := funext fun a => by match a with | ⟨0, _⟩ => rfl
  rw [val_main_v21_apply, ei, val_main_v20_apply, val_main_v17_apply, val_main_v15_apply, val_main_v14_apply,
    val_main_c_apply, val_main_v16_apply, val_main_c_1_apply, slt_zero _ (h4 _), select_zero]
  rfl

/-- The second start-index array, the same words by the same operations. -/
theorem v28_apply (h4 : ∀ j, (1 : Int) ≤ (x4 j).toInt) (r : Fin 8192) :
    val_main_v28 (F := Ideal) x4 (ix2 r (0 : Fin 1)) = x4 (ix1 r) - 1#32 := by
  have ei : idx_main_v28 (ix2 r (0 : Fin 1)) = ix1 r := funext fun a => by match a with | ⟨0, _⟩ => rfl
  rw [val_main_v28_apply, ei, val_main_v27_apply, val_main_v24_apply, val_main_v15_apply, val_main_v14_apply,
    val_main_c_apply, val_main_v23_apply, val_main_c_3_apply, slt_zero _ (h4 _), select_zero]
  rfl

/-! ## The two tables -/

/-- The mean table is the matrix product. -/
theorem v0_apply (s : Fin 32) (g : Fin 8192) :
    val_main_v0 (F := Ideal) x0 x1 (ix2 s g) = Cert.Spec.muT x0 x1 s g := by
  rw [val_main_v0_apply]
  unfold Cert.Spec.muT
  refine Finset.sum_congr rfl fun k _ => ?_
  have el : lidx_main_v0 (ix2 s g) k = ix2 s k := funext fun a => by match a with | ⟨0, _⟩ => rfl | ⟨1, _⟩ => rfl
  have er : ridx_main_v0 (ix2 s g) k = ix2 k g := funext fun a => by match a with | ⟨0, _⟩ => rfl | ⟨1, _⟩ => rfl
  rw [el, er]

/-- The scale table is the specification's, every entry of the two factors being a finite real. -/
theorem v13_apply (h0 : ∀ i, ∃ r : ℝ, x0 i = (r : EReal)) (h2 : ∀ i, ∃ r : ℝ, x2 i = (r : EReal)) (s : Fin 32) (g : Fin 8192) :
    val_main_v13 (F := Ideal) x0 x2 (ix2 s g) = Cert.Spec.sgT x0 x2 s g := by
  have el : ∀ k, lidx_main_v2 (ix2 s g) k = ix2 s k := fun k => funext fun a => by
    match a with | ⟨0, _⟩ => rfl | ⟨1, _⟩ => rfl
  have er : ∀ k, ridx_main_v2 (ix2 s g) k = ix2 k g := fun k => funext fun a => by
    match a with | ⟨0, _⟩ => rfl | ⟨1, _⟩ => rfl
  have e8l : ∀ k, idx_main_v3 (idx_main_v5 (idx_main_v8 (ix2 s g) k)) = ix2 s k := fun k => funext fun a => by
    match a with | ⟨0, _⟩ => rfl | ⟨1, _⟩ => rfl
  have e8r : ∀ k, idx_main_v4 (idx_main_v6 (idx_main_v8 (ix2 s g) k)) = ix2 k g := fun k => funext fun a => by
    match a with | ⟨0, _⟩ => rfl | ⟨1, _⟩ => rfl
  have e11l : ∀ k, idx_main_v3 (idx_main_v5 (idx_main_v11 (ix2 s g) k)) = ix2 s k := fun k => funext fun a => by
    match a with | ⟨0, _⟩ => rfl | ⟨1, _⟩ => rfl
  have e11r : ∀ k, idx_main_v4 (idx_main_v6 (idx_main_v11 (ix2 s g) k)) = ix2 k g := fun k => funext fun a => by
    match a with | ⟨0, _⟩ => rfl | ⟨1, _⟩ => rfl
  rw [val_main_v13_apply, val_main_v12_apply, val_main_v9_apply, val_main_v2_apply, val_main_v8_apply, val_main_v11_apply]
  simp only [val_main_v10_apply, val_main_v7_apply, val_main_v5_apply, val_main_v6_apply, val_main_v3_apply,
    val_main_v4_apply, val_main_v1_apply, val_main_cst_apply, val_main_cst_0_apply, el, er, e8l, e8r, e11l, e11r,
    Ideal.mulf_def, Ideal.addf_def, Ideal.subf_def, Ideal.ofBits_def, Ideal.ofBits_zero_f32]
  exact Cert.RefLaws.scale_regroup (fun k => x0 (ix2 s k)) (fun k => x2 (ix2 k g)) (fun _ => h0 _) (fun _ => h2 _)

/-! ## The gathered rows -/

/-- The gathered mean at (a, b): the mean table at day a's row. -/
theorem v22_apply (h4 : ∀ j, (1 : Int) ≤ (x4 j).toInt) (a b : Fin 8192) :
    val_main_v22 (F := Ideal) x0 x1 x4 (ix2 a b) = Cert.Spec.muT x0 x1 (Cert.Spec.rowOf (x4 (ix1 a))) b := by
  unfold val_main_v22
  refine (gather_rows_apply _ _ a b (Cert.Spec.rowOf (x4 (ix1 a))) ?_).trans (v0_apply x0 x1 _ b)
  rw [v21_apply x4 h4 a]
  rfl

/-- The gathered scale at (a, b): the scale table at day a's row. -/
theorem v29_apply (h0 : ∀ i, ∃ r : ℝ, x0 i = (r : EReal)) (h2 : ∀ i, ∃ r : ℝ, x2 i = (r : EReal))
    (h4 : ∀ j, (1 : Int) ≤ (x4 j).toInt) (a b : Fin 8192) :
    val_main_v29 (F := Ideal) x0 x2 x4 (ix2 a b) = Cert.Spec.sgT x0 x2 (Cert.Spec.rowOf (x4 (ix1 a))) b := by
  unfold val_main_v29
  refine (gather_rows_apply _ _ a b (Cert.Spec.rowOf (x4 (ix1 a))) ?_).trans (v13_apply x0 x2 h0 h2 _ b)
  rw [v28_apply x4 h4 a]
  rfl

/-! ## The log-density array and its total -/

/-- Entry (a, b) of the reference's log-probability array is the specification's. -/
theorem v38_apply (h0 : ∀ i, ∃ r : ℝ, x0 i = (r : EReal)) (h2 : ∀ i, ∃ r : ℝ, x2 i = (r : EReal))
    (h4 : ∀ j, (1 : Int) ≤ (x4 j).toInt) (a b : Fin 8192) :
    val_main_v38 (F := Ideal) x0 x1 x2 x3 x4 (ix2 a b) = Cert.Spec.logpG x0 x1 x2 x3 x4 (ix2 a b) := by
  rw [val_main_v38_apply, val_main_v36_apply, val_main_v34_apply, val_main_v33_apply, val_main_v35_apply,
    val_main_v31_apply, val_main_v30_apply, val_main_v32_apply, val_main_v37_apply, val_main_cst_5_apply,
    val_main_cst_6_apply, v22_apply x0 x1 x4 h4 a b, v29_apply x0 x2 x4 h0 h2 h4 a b]
  rfl

/-- The whole array. -/
theorem v38_eq (h0 : ∀ i, ∃ r : ℝ, x0 i = (r : EReal)) (h2 : ∀ i, ∃ r : ℝ, x2 i = (r : EReal))
    (h4 : ∀ j, (1 : Int) ≤ (x4 j).toInt) :
    val_main_v38 (F := Ideal) x0 x1 x2 x3 x4 = Cert.Spec.logpG x0 x1 x2 x3 x4 := by
  refine funext fun i => ?_
  obtain ⟨a, b, rfl⟩ : ∃ a b, i = ix2 a b := ⟨i 0, i 1, eq_ix2 i⟩
  exact v38_apply x0 x1 x2 x3 x4 h0 h2 h4 a b

/-- The total: zero plus the sum of every entry. -/
theorem v39_eq (h0 : ∀ i, ∃ r : ℝ, x0 i = (r : EReal)) (h2 : ∀ i, ∃ r : ℝ, x2 i = (r : EReal))
    (h4 : ∀ j, (1 : Int) ≤ (x4 j).toInt) :
    val_main_v39 (F := Ideal) x0 x1 x2 x3 x4 = Cert.Spec.totalG x0 x1 x2 x3 x4 := by
  refine funext fun i => ?_
  rw [val_main_v39_apply, val_main_cst_7_apply, v38_eq x0 x1 x2 x3 x4 h0 h2 h4, Ideal.ofBits_def, Ideal.ofBits_zero_f32]
  rfl

end Read

/-! ## The two results of the run -/

section Results

variable (m : (ℓ : Loc nD τ sig) → Buf (Elt Ideal) ℓ) (c : Dev nD)

/-- The reference's second result is the specification's log-density array of the five argument arrays. -/
theorem ref_logp
    (hcp : ∀ i, ∃ r : ℝ, m ((c.tc : Thread nD τ).loc main_arg0) i = (r : EReal))
    (hzs : ∀ i, ∃ r : ℝ, m ((c.tc : Thread nD τ).loc main_arg2) i = (r : EReal))
    (hday : ∀ j, (1 : Int) ≤ (m ((c.tc : Thread nD τ).loc main_arg4) j).toInt) :
    Cert.ReferenceIdeal.Value.res_main_v38 m c
      = Cert.Spec.logpG (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) :=
  (val_main_v38_eq m c).trans (v38_eq _ _ _ _ _ hcp hzs hday)

/-- The reference's first result is the specification's total. -/
theorem ref_total
    (hcp : ∀ i, ∃ r : ℝ, m ((c.tc : Thread nD τ).loc main_arg0) i = (r : EReal))
    (hzs : ∀ i, ∃ r : ℝ, m ((c.tc : Thread nD τ).loc main_arg2) i = (r : EReal))
    (hday : ∀ j, (1 : Int) ≤ (m ((c.tc : Thread nD τ).loc main_arg4) j).toInt) :
    Cert.ReferenceIdeal.Value.res_main_v39 m c
      = Cert.Spec.totalG (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) :=
  (val_main_v39_eq m c).trans (v39_eq _ _ _ _ _ hcp hzs hday)

end Results

end Cert.ReferenceIdeal.RefValue

end
-- ==== Proof.Val.Pre.lean ====
/- The printed precondition read back: where it evaluates to true, every entry of the four float inputs is a real
   number (its absolute value is below +∞, so it is neither infinity nor the junk value), and every day index is at
   least 1. -/
import proofs.«405995_j80152679678262_3_alg».proof.Proof.Gen.Pre_finite_inputs
import Idealize.ShloMosaic.Lib.ReduceAll
import Idealize.ShloMosaic.Lib.Affine
import Idealize.ShloMosaic.PureOps.Ideal.Laws
import Idealize.ShloMosaic.Lib.ValueIdx

noncomputable section

namespace Cert.Pre_finite_inputs.Decode

open Idealize.ShloMosaic
open Cert.Pre_finite_inputs

/-- A rank-0 shape has one index. -/
instance : Subsingleton S_.Idx := ⟨fun a b => funext fun d => d.elim0⟩

/-- The f32 pattern `0x7F800000` denotes +∞. -/
theorem inf_eq_top : Ideal.ofBits .f32 0x7F800000#32 = (⊤ : EReal) := by
  simp [Ideal.ofBits, Ideal.ieee]

/-- An extended real whose absolute value tests below +∞ is a real: at −∞ and at +∞ the absolute value is +∞ itself. -/
theorem real_of_test (x : EReal) (h : Ideal.cmp .olt (max x (-x)) (Ideal.ofBits .f32 0x7F800000#32) = 1#1) :
    ∃ r : ℝ, x = (r : EReal) := by
  rw [inf_eq_top] at h
  induction x using EReal.rec with
  | bot => simp [Ideal.cmp] at h
  | top => simp [Ideal.cmp] at h
  | coe r => exact ⟨r, rfl⟩

/-- The claim: a precondition that holds gives real entries and day indices from 1. The result at its one index is a
    conjunction of five reductions by `and`; each, being 1, had a 1 at every operand index; there the operand is the
    entry's test `|x| < +∞`, or the day's test `day ≥ 1` of signed words. -/
theorem decode (a0 : FVec Ideal S32x128 .f32) (a1 a2 : FVec Ideal S128x8192 .f32) (a3 : FVec Ideal S8192x8192 .f32) (a4 : IVec S8192 32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ j, (1 : Int) ≤ (a4 j).toInt) := by
  have h0 := congrFun h ValueIdx.ix0
  dsimp only [fn, fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  refine ⟨fun i => ?_, fun i => ?_, fun i => ?_, fun i => ?_, fun j => ?_⟩
  · have e := Host.reduce_andi_all _ _ _ _ _ h0' i
    exact real_of_test (a0 i) e
  · have e := Host.reduce_andi_all _ _ _ _ _ h1 i
    exact real_of_test (a1 i) e
  · have e := Host.reduce_andi_all _ _ _ _ _ h2 i
    exact real_of_test (a2 i) e
  · have e := Host.reduce_andi_all _ _ _ _ _ h3 i
    exact real_of_test (a3 i) e
  · have e := Host.reduce_andi_all _ _ _ _ _ h4 j
    have e2 : IntOp.cmpi .sge (a4 j) 1#32 = 1#1 := e
    have e' := IntOp.cmpi_sge.1 e2
    rwa [show (1#32 : BitVec 32).toInt = 1 from by decide] at e'

end Cert.Pre_finite_inputs.Decode

end
-- ==== Proof.lean ====
/- The certificate of the state-indexed Gaussian log-probability kernel against its jnp reference, over the extended reals.

   The kernel computes the two 32 × 8192 state tables (mean: cell_prob · Z_mu; scale: Σ p²σ + (Σ pσ)² − Σ p²σ²) in one
   launch, stores each as a stack of its exact three-term split [T ; T − T ; (T − T) − (T − T)], and in a second launch
   gathers each sample's row by contracting a 0/1 selector of clip(day − 1, 0, 31), repeated three times, with the stack:
   for a FINITE table the two residues are zero and the contraction is the table's row. The reference indexes the same tables
   at day − 1 (wrapped when negative, clamped by the gather). For day ≥ 1 the two row choices agree, and entry by entry both
   programs apply the same log-density to the same numbers; the total is one sum regrouped by blocks, which the extended
   reals allow in any order.

   The three frames: each kernel region's body is run at every grid point against the pipeline's proof data (the second
   region carries its accumulator between the four column blocks of a row block), the launch composes the regions and the
   host stretches between them, and every argument array is read back through the chain of buffer contents to its launch
   value; the reference's frame is its run with the results dropped. `preserves` is the four identities format changes are
   at the extended reals. -/
import proofs.«405995_j80152679678262_3_alg».proof.Defs
import proofs.«405995_j80152679678262_3_alg».proof.Proof.Gen.Kernel
import proofs.«405995_j80152679678262_3_alg».proof.Proof.Gen.KernelIdeal
import proofs.«405995_j80152679678262_3_alg».proof.Proof.Gen.ReferenceIdeal
import proofs.«405995_j80152679678262_3_alg».proof.Proof.Gen.Pre_finite_inputs
import proofs.«405995_j80152679678262_3_alg».proof.Proof.KB.Run
import proofs.«405995_j80152679678262_3_alg».proof.Proof.KI.Run
import proofs.«405995_j80152679678262_3_alg».proof.Proof.Val.Kernel
import proofs.«405995_j80152679678262_3_alg».proof.Proof.Val.Ref
import proofs.«405995_j80152679678262_3_alg».proof.Proof.Val.Pre

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The four format round trips the kernel's three-term split makes are identities at the extended reals. -/
theorem preserves : Cert.preserves_Kernel_KernelIdeal :=
  ⟨IdealRules.truncf_extf.statement _ _ _, IdealRules.truncf_extf.statement _ _ _,
    IdealRules.truncf_extf.statement _ _ _, IdealRules.truncf_extf.statement _ _ _⟩

/-- Both programs end with the specification's two functions of the (agreeing) arguments. -/
theorem algebraic : Cert.algebraic_KernelIdeal_ReferenceIdeal := by
  intro m ρ m' ρ' hpre hagree
  refine ⟨fun c => Cert.Spec.totalG (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    fun c => Cert.Spec.logpG (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · -- the kernel: every unscoped buffer ends at the last boundary's contents, read at the two results and the arguments
    refine (θ_run Cert.KernelIdeal.defs _ _).mono (fun r h c => ?_) (Cert.KernelIdeal.Hand.run_vals m ρ)
    obtain ⟨hcp, hzm, hzs, -, hday⟩ := Cert.Pre_finite_inputs.Decode.decode _ _ _ _ _ (hpre c)
    exact ⟨(h c _ (Cert.KernelIdeal.Hand.mem_uc Cert.KernelIdeal.main_v12 (by decide))).trans
        (Cert.KernelIdeal.Val.kernel_total m ρ c hcp hzm hzs hday),
      (h c _ (Cert.KernelIdeal.Hand.mem_uc Cert.KernelIdeal.main_v10_0 (by decide))).trans
        (Cert.KernelIdeal.Val.kernel_logp m ρ c hcp hzm hzs hday),
      (h c _ (Cert.KernelIdeal.Hand.mem_uc Cert.KernelIdeal.main_arg0 (by decide))).trans (Cert.KernelIdeal.Hand.W6_main_arg0 m ρ c),
      (h c _ (Cert.KernelIdeal.Hand.mem_uc Cert.KernelIdeal.main_arg1 (by decide))).trans (Cert.KernelIdeal.Hand.W6_main_arg1 m ρ c),
      (h c _ (Cert.KernelIdeal.Hand.mem_uc Cert.KernelIdeal.main_arg2 (by decide))).trans (Cert.KernelIdeal.Hand.W6_main_arg2 m ρ c),
      (h c _ (Cert.KernelIdeal.Hand.mem_uc Cert.KernelIdeal.main_arg3 (by decide))).trans (Cert.KernelIdeal.Hand.W6_main_arg3 m ρ c),
      (h c _ (Cert.KernelIdeal.Hand.mem_uc Cert.KernelIdeal.main_arg4 (by decide))).trans (Cert.KernelIdeal.Hand.W6_main_arg4 m ρ c)⟩
  · -- the reference: its run's two terms are the same functions of its own arguments, which agree with the kernel's
    refine (θ_run Cert.ReferenceIdeal.defs _ _).mono (fun r h c => ?_) (Cert.ReferenceIdeal.Value.run (F := Ideal) m' ρ')
    obtain ⟨hcp, hzm, hzs, -, hday⟩ := Cert.Pre_finite_inputs.Decode.decode _ _ _ _ _ (hpre c)
    obtain ⟨e0, e1, e2, e3, e4⟩ := hagree c
    refine ⟨(h c).1.trans ?_, (h c).2.1.trans ?_, (h c).2.2⟩
    · rw [Cert.ReferenceIdeal.RefValue.ref_total m' c (e0 ▸ hcp) (e2 ▸ hzs) (e4 ▸ hday), e0, e1, e2, e3, e4]
    · rw [Cert.ReferenceIdeal.RefValue.ref_logp m' c (e0 ▸ hcp) (e2 ▸ hzs) (e4 ▸ hday), e0, e1, e2, e3, e4]

end Cert.Proof

namespace Cert.Proof

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
